-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S32x1024 : Shape := ⟨2, ![32, 1024]⟩
abbrev S32x32 : Shape := ⟨2, ![32, 32]⟩
abbrev S32x32x256 : Shape := ⟨3, ![32, 32, 256]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S32x32x256 : S_.BroadcastsInDim S32x32x256 (![] : Fin 0 → Fin S32x32x256.rank)
  reducesTo_S32x32x256_S_d0_1_2 : S32x32x256.ReducesTo [0, 1, 2] S_
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg1 : IVec S32x1024 32) (main_arg2 : IVec S32x1024 32) (main_v13 : IVec S_ 1) (main_v16 : IVec S32x32x256 1) : IVec S_ 1 :=
  let main_c_5 : IVec S_ 1 := constantI S_ 1 1#1
  let main_v17 : IVec S_ 1 := (fun x v => Host.reduce IntOp.andi x v reducesTo_S32x32x256_S_d0_1_2 h_S_) main_v16 main_c_5
  let main_v18 : IVec S_ 1 := andi main_v13 main_v17
  let main_c_6 : IVec S_ 32 := constantI S_ 32 32#32
  let main_v19 : IVec S32x1024 32 := broadcastInDim S32x1024 ![] bcast_S_S32x1024 main_c_6
  let main_v20 : IVec S32x1024 32 := muli main_arg1 main_v19
  let main_v21 : IVec S32x1024 32 := addi main_v20 main_arg2
  let main_c_7 : IVec S_ 32 := constantI S_ 32 0#32
  let main_v22 : IVec S32x1024 32 := broadcastInDim S32x1024 ![] bcast_S_S32x1024 main_c_7
  let main_v23 : IVec S32x1024 1 := cmpi .sge main_v21 main_v22
  let main_c_8 : IVec S_ 32 := constantI S_ 32 32#32
  let main_v24 : IVec S32x1024 32 := broadcastInDim S32x1024 ![] bcast_S_S32x1024 main_c_8
  let main_v25 : IVec S32x1024 32 := muli main_arg1 main_v24
  let main_v26 : IVec S32x1024 32 := addi main_v25 main_arg2
  let main_c_9 : IVec S_ 32 := constantI S_ 32 1024#32
  let main_v27 : IVec S32x1024 32 := broadcastInDim S32x1024 ![] bcast_S_S32x1024 main_c_9
  let main_v28 : IVec S32x1024 1 := cmpi .slt main_v26 main_v27
  let main_v29 : IVec S32x1024 1 := andi main_v23 main_v28
  let main_c_10 : IVec S_ 1 := constantI S_ 1 1#1
  let main_v30 : IVec S_ 1 := (fun x v => Host.reduce IntOp.andi x v reducesTo_S32x1024_S_d0_1 h_S_) main_v29 main_c_10
  let main_v31 : IVec S_ 1 := andi main_v18 main_v30
  main_v31

def fn {F : FTy → Type} [FloatOps F] (main_arg0 : FVec F S32x1024x768 .f32) (main_arg1 : IVec S32x1024 32) (main_arg2 : IVec S32x1024 32) (main_arg3 : IVec S32x1024 1) (main_arg4 : FVec F S32x32 .f32) (main_arg5 : FVec F S32x32x256 .f32) (main_arg6 : FVec F S32x32x256 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S32x32 .f32 := Host.absf main_arg4
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32x256 .f32 := Host.absf main_arg5
  let main_cst_2 : FVec F S_ .f32 := constant S_ .f32 0x7F800000#32
  let main_v10 : FVec F S32x32x256 .f32 := broadcastInDim S32x32x256 ![] bcast_S_S32x32x256 main_cst_2
  let main_v11 : IVec S32x32x256 1 := cmpf .olt main_v9 main_v10
  let main_c_3 : IVec S_ 1 := constantI S_ 1 1#1
  let main_v12 : IVec S_ 1 := (fun x v => Host.reduce IntOp.andi x v reducesTo_S32x32x256_S_d0_1_2 h_S_) main_v11 main_c_3
  let main_v13 : IVec S_ 1 := andi main_v8 main_v12
  let main_v14 : FVec F S32x32x256 .f32 := Host.absf main_arg6
  let main_cst_4 : FVec F S_ .f32 := constant S_ .f32 0x7F800000#32
  let main_v15 : FVec F S32x32x256 .f32 := broadcastInDim S32x32x256 ![] bcast_S_S32x32x256 main_cst_4
  let main_v16 : IVec S32x32x256 1 := cmpf .olt main_v14 main_v15
  fn_part1 (F := F) main_arg1 main_arg2 main_v13 main_v16
-- ==== Kernel.lean ====
abbrev S32x1024x768 : Shape := ⟨3, ![32, 1024, 768]⟩
abbrev S32x1024 : Shape := ⟨2, ![32, 1024]⟩
abbrev S32x32 : Shape := ⟨2, ![32, 32]⟩
abbrev S32x32x256 : Shape := ⟨3, ![32, 32, 256]⟩
abbrev S32768x3x256 : Shape := ⟨3, ![32768, 3, 256]⟩
abbrev S_ : Shape := ⟨0, ![]⟩
abbrev S32768 : Shape := ⟨1, ![32768]⟩
abbrev S32768x1 : Shape := ⟨2, ![32768, 1]⟩
abbrev S1024x256 : Shape := ⟨2, ![1024, 256]⟩
abbrev S1024x1 : Shape := ⟨2, ![1024, 1]⟩
abbrev S2x1024x1 : Shape := ⟨3, ![2, 1024, 1]⟩
abbrev S2x1024x256 : Shape := ⟨3, ![2, 1024, 256]⟩
abbrev S1024x3x256 : Shape := ⟨3, ![1024, 3, 256]⟩
abbrev S1x1024x1 : Shape := ⟨3, ![1, 1024, 1]⟩
abbrev S1x1024x256 : Shape := ⟨3, ![1, 1024, 256]⟩
abbrev S1024x1024 : Shape := ⟨2, ![1024, 1024]⟩
abbrev S1024x1x256 : Shape := ⟨3, ![1024, 1, 256]⟩
abbrev S1024x1x1 : Shape := ⟨3, ![1024, 1, 1]⟩

abbrev nBuf : Space → Nat
  | .hbm => 64
  | .vmem => 28
  | .smem => 0
  | _ => 0

abbrev bufTy : (tb : Table) → Fin (tcTables nBuf tb) → BufTy
  | .hbm, ⟨0, _⟩ => ⟨S32x1024x768, .f32⟩
  | .hbm, ⟨1, _⟩ => ⟨S32x1024, .i32⟩
  | .hbm, ⟨2, _⟩ => ⟨S32x1024, .i32⟩
  | .hbm, ⟨3, _⟩ => ⟨S32x1024, .i1⟩
  | .hbm, ⟨4, _⟩ => ⟨S32x32, .f32⟩
  | .hbm, ⟨5, _⟩ => ⟨S32x32x256, .f32⟩
  | .hbm, ⟨6, _⟩ => ⟨S32x32x256, .f32⟩
  | .hbm, ⟨7, _⟩ => ⟨S32768x3x256, .f32⟩
  | .hbm, ⟨8, _⟩ => ⟨S_, .i32⟩
  | .hbm, ⟨9, _⟩ => ⟨S32x1024, .i32⟩
  | .hbm, ⟨10, _⟩ => ⟨S32x1024, .i32⟩
  | .hbm, ⟨11, _⟩ => ⟨S32x1024, .i32⟩
  | .hbm, ⟨12, _⟩ => ⟨S32768, .i32⟩
  | .hbm, ⟨13, _⟩ => ⟨S32x1024, .i1⟩
  | .hbm, ⟨14, _⟩ => ⟨S32768, .i1⟩
  | .hbm, ⟨15, _⟩ => ⟨S32768, .f32⟩
  | .hbm, ⟨16, _⟩ => ⟨S32768x1, .i32⟩
  | .hbm, ⟨17, _⟩ => ⟨S32768x1, .f32⟩
  | .hbm, ⟨18, _⟩ => ⟨S1024x256, .f32⟩
  | .hbm, ⟨19, _⟩ => ⟨S1024x256, .f32⟩
  | .hbm, ⟨20, _⟩ => ⟨S1024x1, .f32⟩
  | .hbm, ⟨21, _⟩ => ⟨S2x1024x1, .f32⟩
  | .hbm, ⟨22, _⟩ => ⟨S2x1024x256, .f32⟩
  | .hbm, ⟨23, _⟩ => ⟨S2x1024x256, .f32⟩
  | .hbm, ⟨24, _⟩ => ⟨S_, .f32⟩
  | .hbm, ⟨25, _⟩ => ⟨S1024x1, .f32⟩
  | .hbm, ⟨26, _⟩ => ⟨S_, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x1, .f32⟩
  | .hbm, ⟨42, _⟩ => ⟨S1024x1, .i1⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024x256, .f32⟩
  | .hbm, ⟨47, _⟩ => ⟨S1024x256, .f32⟩
  | .hbm, ⟨48, _⟩ => ⟨S_, .f32⟩
  | .hbm, ⟨49, _⟩ => ⟨S_, .f32⟩
  | .hbm, ⟨50, _⟩ => ⟨S1024x256, .i1⟩
  | .hbm, ⟨51, _⟩ => ⟨S1024x256, .f32⟩
  | .hbm, ⟨52, _⟩ => ⟨S1024x256, .f32⟩
  | .hbm, ⟨53, _⟩ => ⟨S1024x256, .f32⟩
  | .hbm, ⟨54, _⟩ => ⟨S1024x256, .bf16⟩
  | .hbm, ⟨55, _⟩ => ⟨S1024x256, .f32⟩
  | .hbm, ⟨56, _⟩ => ⟨S1024x256, .f32⟩
  | .hbm, ⟨57, _⟩ => ⟨S1024x256, .bf16⟩
  | .hbm, ⟨58, _⟩ => ⟨S1024x256, .bf16⟩
  | .hbm, ⟨59, _⟩ => ⟨S1024x256, .f32⟩
  | .hbm, ⟨60, _⟩ => ⟨S1024x256, .f32⟩
  | .hbm, ⟨61, _⟩ => ⟨S1024x256, .bf16⟩
  | .hbm, ⟨62, _⟩ => ⟨S32768x3x256, .f32⟩
  | .hbm, ⟨63, _⟩ => ⟨S32x1024x768, .f32⟩
  | .local _ .vmem, ⟨0, _⟩ => ⟨S1024x3x256, .f32⟩
  | .local _ .vmem, ⟨1, _⟩ => ⟨S1024x3x256, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1024x1, .f32⟩
  | .local _ .vmem, ⟨14, _⟩ => ⟨S1024x256, .f32⟩
  | .local _ .vmem, ⟨15, _⟩ => ⟨S1024x256, .f32⟩
  | .local _ .vmem, ⟨16, _⟩ => ⟨S1024x3x256, .f32⟩
  | .local _ .vmem, ⟨17, _⟩ => ⟨S1024x3x256, .f32⟩
  | .local _ .vmem, ⟨18, _⟩ => ⟨S1024x1, .i32⟩
  | .local _ .vmem, ⟨19, _⟩ => ⟨S1024x1, .i32⟩
  | .local _ .vmem, ⟨20, _⟩ => ⟨S1024x1, .f32⟩
  | .local _ .vmem, ⟨21, _⟩ => ⟨S1024x1, .f32⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x3x256, .f32⟩
  | .local _ .vmem, ⟨27, _⟩ => ⟨S1024x3x256, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_26 : BitVec 32 := 0#32
  let v49 : BitVec 1 := Scalar.cmpi .ne v48 c0_i32_26
  v49

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x3x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x3x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S32x1024x768_S32768x3x256 : S32x1024x768.ShapeCasts S32768x3x256
  bcast_S_S32x1024 : S_.BroadcastsInDim S32x1024 (![] : Fin 0 → Fin S32x1024.rank)
  shapeCasts_S32x1024_S32768 : S32x1024.ShapeCasts S32768
  shapeCasts_S32768_S32768x1 : S32768.ShapeCasts S32768x1
  shapeCasts_S32x32x256_S1024x256 : S32x32x256.ShapeCasts S1024x256
  shapeCasts_S32x32_S1024x1 : S32x32.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x3x256_S1024x3x256_0_0_0 : ∀ a, (![0, 0, 0] : Fin 3 → Nat) a + S1024x3x256.size a ≤ S1024x3x256.size a
  h_S1024x3x256 : 0 < S1024x3x256.numel
  shapeCasts_S1024x3x256_S1024x3x256 : S1024x3x256.ShapeCasts S1024x3x256
  reduces_S1024x3x256_S1024x256 : S1024x3x256.Reduces [1] S1024x256
  iota_S1024x1024_d1_w32 : S1024x1024.Iotas .tc 32 [1]
  broadcasts_S1024x1_S1024x1024 : S1024x1.Broadcasts S1024x1024
  natLt_1_32 : 1 < 32
  bitsLt_bf16_f32 : FTy.bits .bf16 < FTy.bits .f32
  broadcasts_S1024x1_S1024x256 : S1024x1.Broadcasts S1024x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  reducesTo_S2x1024x1_S1024x1_d0 : S2x1024x1.ReducesTo [0] S1024x1
  h_S_ : 0 < S_.numel
  reducesTo_S2x1024x256_S1024x256_d0 : S2x1024x256.ReducesTo [0] S1024x256
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  shapeCasts_S1024x256_S1024x1x256 : S1024x256.ShapeCasts S1024x1x256
  broadcasts_S1024x1x256_S1024x3x256 : S1024x1x256.Broadcasts S1024x3x256
  shapeCasts_S1024x1_S1024x1x1 : S1024x1.ShapeCasts S1024x1x1
  broadcasts_S1024x1x1_S1024x3x256 : S1024x1x1.Broadcasts S1024x3x256
  shapeCasts_S32768x3x256_S32x1024x768 : S32768x3x256.ShapeCasts S32x1024x768
  dot_S1024x1024_S1024x256_S1024x256_1_0_0_1_n_n_wf : DotDims.WF S1024x1024 S1024x256 S1024x256 [1] [0] [0] [1] [] []
  dot_S1024x1024_S1024x1_S1024x1_0_0_1_1_n_n_wf : DotDims.WF S1024x1024 S1024x1 S1024x1 [0] [0] [1] [1] [] []
  dot_S1024x1024_S1024x256_S1024x256_0_0_1_1_n_n_wf : DotDims.WF S1024x1024 S1024x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3x256.size a ≤ S32768x3x256.size a
  hwx0_0 : ∀ i : grid0.Coords, EltTy.bits .f32 = 32 ∨ (Rect.block (s := S32768x3x256) S1024x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S2x1024x256.size a
  hwx0_5 : ∀ i : grid0.Coords, EltTy.bits .f32 = 32 ∨ (Rect.block (s := S2x1024x256) S1x1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S2x1024x256.size a
  hwx0_6 : ∀ i : grid0.Coords, EltTy.bits .f32 = 32 ∨ (Rect.block (s := S2x1024x256) S1x1024x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3x256.size a ≤ S32768x3x256.size a
  hwx1_0 : ∀ i : grid1.Coords, EltTy.bits .f32 = 32 ∨ (Rect.block (s := S32768x3x256) S1024x3x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S32768x1.size a
  hwx1_1 : ∀ i : grid1.Coords, EltTy.bits .i32 = 32 ∨ (Rect.block (s := S32768x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .bf16 = 32 ∨ (Rect.block (s := S1024x256) S1024x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S1024x256.size a
  hwx1_4 : ∀ i : grid1.Coords, EltTy.bits .bf16 = 32 ∨ (Rect.block (s := S1024x256) S1024x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S1024x256.size a
  hwx1_5 : ∀ i : grid1.Coords, EltTy.bits .bf16 = 32 ∨ (Rect.block (s := S1024x256) S1024x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S1024x256.size a
  hwx1_6 : ∀ i : grid1.Coords, EltTy.bits .bf16 = 32 ∨ (Rect.block (s := S1024x256) S1024x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x3x256.size a ≤ S32768x3x256.size a
  hwx1_7 : ∀ i : grid1.Coords, EltTy.bits .f32 = 32 ∨ (Rect.block (s := S32768x3x256) S1024x3x256.size (cc1_transform_7 i) (hinb1_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf

abbrev win0_0 : Pipeline.Window sig grid0 :=
  Pipeline.Window.ofSpec (Memref.whole main_v0) S1024x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1x1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_2) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v0) S1024x3x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1024x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1024x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1024x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1024x3x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x1024x768 : Shape := ⟨3, ![32, 1024, 768]⟩
abbrev S32x1024 : Shape := ⟨2, ![32, 1024]⟩
abbrev S32x32 : Shape := ⟨2, ![32, 32]⟩
abbrev S32x32x256 : Shape := ⟨3, ![32, 32, 256]⟩
abbrev S32768x3x256 : Shape := ⟨3, ![32768, 3, 256]⟩
abbrev S_ : Shape := ⟨0, ![]⟩
abbrev S32768 : Shape := ⟨1, ![32768]⟩
abbrev S1024 : Shape := ⟨1, ![1024]⟩
abbrev S32768x1 : Shape := ⟨2, ![32768, 1]⟩
abbrev S1024x256 : Shape := ⟨2, ![1024, 256]⟩
abbrev S32768x256 : Shape := ⟨2, ![32768, 256]⟩
abbrev S32768x1x256 : Shape := ⟨3, ![32768, 1, 256]⟩
abbrev S32x32x1 : Shape := ⟨3, ![32, 32, 1]⟩
abbrev S32768x1x1 : Shape := ⟨3, ![32768, 1, 1]⟩

abbrev nBuf : Space → Nat
  | .hbm => 141
  | .vmem => 0
  | .smem => 0
  | _ => 0

abbrev hbmTy0_0 (i : Nat) : BufTy := match i % 128 with
  | 0 => ⟨S32x1024x768, .f32⟩
  | 1 => ⟨S32x1024, .i32⟩
  | 2 => ⟨S32x1024, .i32⟩
  | 3 => ⟨S32x1024, .i1⟩
  | 4 => ⟨S32x32, .f32⟩
  | 5 => ⟨S32x32x256, .f32⟩
  | 6 => ⟨S32x32x256, .f32⟩
  | 7 => ⟨S32768x3x256, .f32⟩
  | 8 => ⟨S_, .i32⟩
  | 9 => ⟨S32x1024, .i32⟩
  | 10 => ⟨S32x1024, .i32⟩
  | 11 => ⟨S32x1024, .i32⟩
  | 12 => ⟨S32768, .i32⟩
  | 13 => ⟨S32x1024, .i1⟩
  | 14 => ⟨S32768, .i1⟩
  | 15 => ⟨S32768, .f32⟩
  | 16 => ⟨S_, .f32⟩
  | 17 => ⟨S1024, .f32⟩
  | 18 => ⟨S32768x1, .i32⟩
  | 19 => ⟨S1024, .f32⟩
  | 20 => ⟨S32x32, .f32⟩
  | 21 => ⟨S32x32, .f32⟩
  | 22 => ⟨S1024x256, .f32⟩
  | 23 => ⟨S_, .i32⟩
  | 24 => ⟨S32768, .i32⟩
  | 25 => ⟨S32768, .i1⟩
  | 26 => ⟨S_, .i32⟩
  | 27 => ⟨S32768, .i32⟩
  | 28 => ⟨S32768, .i32⟩
  | 29 => ⟨S32768, .i32⟩
  | 30 => ⟨S32768x1, .i32⟩
  | 31 => ⟨S32768x256, .f32⟩
  | 32 => ⟨S32768x1x256, .f32⟩
  | 33 => ⟨S32768x3x256, .f32⟩
  | 34 => ⟨S32768x3x256, .f32⟩
  | 35 => ⟨S_, .f32⟩
  | 36 => ⟨S32768x256, .f32⟩
  | 37 => ⟨S_, .f32⟩
  | 38 => ⟨S32768x256, .f32⟩
  | 39 => ⟨S32768x256, .f32⟩
  | 40 => ⟨S32768x1, .f32⟩
  | 41 => ⟨S32768x256, .f32⟩
  | 42 => ⟨S32768x256, .f32⟩
  | 43 => ⟨S1024, .f32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768, .f32⟩
  | 53 => ⟨S_, .f32⟩
  | 54 => ⟨S32768, .f32⟩
  | 55 => ⟨S32768, .f32⟩
  | 56 => ⟨S32768x1, .f32⟩
  | 57 => ⟨S32768x256, .f32⟩
  | 58 => ⟨S32768x256, .f32⟩
  | 59 => ⟨S_, .f32⟩
  | 60 => ⟨S1024x256, .f32⟩
  | 61 => ⟨S32768x1, .i32⟩
  | 62 => ⟨S1024x256, .f32⟩
  | 63 => ⟨S1024x256, .f32⟩
  | 64 => ⟨S32x32x256, .f32⟩
  | 65 => ⟨S_, .i32⟩
  | 66 => ⟨S32768, .i32⟩
  | 67 => ⟨S32768, .i1⟩
  | 68 => ⟨S_, .i32⟩
  | 69 => ⟨S32768, .i32⟩
  | 70 => ⟨S32768, .i32⟩
  | 71 => ⟨S32768, .i32⟩
  | 72 => ⟨S32768x1, .i32⟩
  | 73 => ⟨S32768x256, .f32⟩
  | 74 => ⟨S32768x1x256, .f32⟩
  | 75 => ⟨S32768x3x256, .f32⟩
  | 76 => ⟨S32768x3x256, .f32⟩
  | 77 => ⟨S_, .f32⟩
  | 78 => ⟨S32768x256, .f32⟩
  | 79 => ⟨S_, .f32⟩
  | 80 => ⟨S32768x256, .f32⟩
  | 81 => ⟨S32768x256, .f32⟩
  | 82 => ⟨S32768x1, .f32⟩
  | 83 => ⟨S32768x256, .f32⟩
  | 84 => ⟨S32768x256, .f32⟩
  | 85 => ⟨S32768x256, .f32⟩
  | 86 => ⟨S_, .f32⟩
  | 87 => ⟨S1024x256, .f32⟩
  | 88 => ⟨S32768x1, .i32⟩
  | 89 => ⟨S1024x256, .f32⟩
  | 90 => ⟨S32x32x256, .f32⟩
  | 91 => ⟨S32x32x256, .f32⟩
  | 92 => ⟨S_, .f32⟩
  | 93 => ⟨S32x32, .f32⟩
  | 94 => ⟨S32x32, .i1⟩
  | 95 => ⟨S32x32x1, .i1⟩
  | 96 => ⟨S_, .f32⟩
  | 97 => ⟨S32x32, .f32⟩
  | 98 => ⟨S32x32, .f32⟩
  | 99 => ⟨S32x32x1, .f32⟩
  | 100 => ⟨S32x32x256, .f32⟩
  | 101 => ⟨S32x32x256, .f32⟩
  | 102 => ⟨S_, .f32⟩
  | 103 => ⟨S_, .f32⟩
  | 104 => ⟨S32x32x256, .i1⟩
  | 105 => ⟨S32x32x256, .f32⟩
  | 106 => ⟨S32x32x256, .f32⟩
  | 107 => ⟨S32x32x256, .f32⟩
  | 108 => ⟨S1024x256, .f32⟩
  | 109 => ⟨S_, .i32⟩
  | 110 => ⟨S32768, .i32⟩
  | 111 => ⟨S32768, .i1⟩
  | 112 => ⟨S_, .i32⟩
  | 113 => ⟨S32768, .i32⟩
  | 114 => ⟨S32768, .i32⟩
  | 115 => ⟨S32768, .i32⟩
  | 116 => ⟨S32768x1, .i32⟩
  | 117 => ⟨S32768x256, .f32⟩
  | 118 => ⟨S32768x1x256, .f32⟩
  | 119 => ⟨S1024x256, .f32⟩
  | 120 => ⟨S_, .i32⟩
  | 121 => ⟨S32768, .i32⟩
  | 122 => ⟨S32768, .i1⟩
  | 123 => ⟨S_, .i32⟩
  | 124 => ⟨S32768, .i32⟩
  | 125 => ⟨S32768, .i32⟩
  | 126 => ⟨S32768, .i32⟩
  | 127 => ⟨S32768x1, .i32⟩
  | _ => ⟨S32x1024x768, .f32⟩

abbrev hbmTy0_1 (i : Nat) : BufTy := match i % 128 with
  | 0 => ⟨S32768x256, .f32⟩
  | 1 => ⟨S32768x1x256, .f32⟩
  | 2 => ⟨S32768x3x256, .f32⟩
  | 3 => ⟨S32768x3x256, .f32⟩
  | 4 => ⟨S_, .f32⟩
  | 5 => ⟨S32768x1x256, .f32⟩
  | 6 => ⟨S32768x1x256, .f32⟩
  | 7 => ⟨S32768x3x256, .f32⟩
  | 8 => ⟨S32768x3x256, .f32⟩
  | 9 => ⟨S32768x1x1, .f32⟩
  | 10 => ⟨S32768x3x256, .f32⟩
  | 11 => ⟨S32768x3x256, .f32⟩
  | 12 => ⟨S32x1024x768, .f32⟩
  | _ => ⟨S32x1024x768, .f32⟩

abbrev hbmTy (i : Nat) : BufTy := match i / 128 with
  | 0 => hbmTy0_0 i
  | 1 => hbmTy0_1 i
  | _ => ⟨S32x1024x768, .f32⟩

abbrev bufTy : (tb : Table) → Fin (tcTables nBuf tb) → BufTy
  | .hbm, ⟨i, _⟩ => hbmTy i
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_18 : Ref sig .tc := ⟨.hbm, 120, rfl⟩
abbrev main_v90 : Ref sig .tc := ⟨.hbm, 121, rfl⟩
abbrev main_v91 : Ref sig .tc := ⟨.hbm, 122, rfl⟩
abbrev main_c_19 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]

class Facts₀ : Prop where
  shapeCasts_S32x1024x768_S32768x3x256 : S32x1024x768.ShapeCasts S32768x3x256
  bcast_S_S32x1024 : S_.BroadcastsInDim S32x1024 (![] : Fin 0 → Fin S32x1024.rank)
  shapeCasts_S32x1024_S32768 : S32x1024.ShapeCasts S32768
  bcast_S_S1024 : S_.BroadcastsInDim S1024 (![] : Fin 0 → Fin S1024.rank)
  bcast_S32768_S32768x1_0 : S32768.BroadcastsInDim S32768x1 (![0] : Fin 1 → Fin S32768x1.rank)
  shapeCasts_S1024_S32x32 : S1024.ShapeCasts S32x32
  shapeCasts_S32x32x256_S1024x256 : S32x32x256.ShapeCasts S1024x256
  bcast_S_S32768 : S_.BroadcastsInDim S32768 (![] : Fin 0 → Fin S32768.rank)
  bcast_S32768x256_S32768x1x256_0_2 : S32768x256.BroadcastsInDim S32768x1x256 (![0, 2] : Fin 2 → Fin S32768x1x256.rank)
  bcast_S32768x1x256_S32768x3x256_0_1_2 : S32768x1x256.BroadcastsInDim S32768x3x256 (![0, 1, 2] : Fin 3 → Fin S32768x3x256.rank)
  reducesTo_S32768x3x256_S32768x256_d1 : S32768x3x256.ReducesTo [1] S32768x256
  h_S_ : 0 < S_.numel
  bcast_S_S32768x256 : S_.BroadcastsInDim S32768x256 (![] : Fin 0 → Fin S32768x256.rank)
  bcast_S32768x1_S32768x256_0_1 : S32768x1.BroadcastsInDim S32768x256 (![0, 1] : Fin 2 → Fin S32768x256.rank)
  shapeCasts_S32x32_S1024 : S32x32.ShapeCasts S1024
  bcast_S_S1024x256 : S_.BroadcastsInDim S1024x256 (![] : Fin 0 → Fin S1024x256.rank)
  shapeCasts_S1024x256_S32x32x256 : S1024x256.ShapeCasts S32x32x256
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S32x32x256_0_1_2 : S32x32x1.BroadcastsInDim S32x32x256 (![0, 1, 2] : Fin 3 → Fin S32x32x256.rank)
  bcast_S_S32x32x256 : S_.BroadcastsInDim S32x32x256 (![] : Fin 0 → Fin S32x32x256.rank)
  bcast_S_S32768x1x256 : S_.BroadcastsInDim S32768x1x256 (![] : Fin 0 → Fin S32768x1x256.rank)
  bcast_S32768_S32768x1x1_0 : S32768.BroadcastsInDim S32768x1x1 (![0] : Fin 1 → Fin S32768x1x1.rank)
  bcast_S32768x1x1_S32768x3x256_0_1_2 : S32768x1x1.BroadcastsInDim S32768x3x256 (![0, 1, 2] : Fin 3 → Fin S32768x3x256.rank)
  shapeCasts_S32768x3x256_S32x1024x768 : S32768x3x256.ShapeCasts S32x1024x768
  scatter_S1024_S32768x1_S32768_n_0_0_1_wf : ScatterDims.WF S1024 S32768x1 S32768 [] [0] [0] 1
  gather_S1024x256_S32768x1_S32768x256_1_0_n_n_0_1_1256_wf : GatherDims.WF S1024x256 S32768x1 S32768x256 [1] [0] [] [0] [] 1 ![1, 256]
  gather_S1024_S32768x1_S32768_n_0_n_n_0_1_1_wf : GatherDims.WF S1024 S32768x1 S32768 [] [0] [] [0] [] 1 ![1]
  scatter_S1024x256_S32768x1_S32768x256_1_0_0_1_wf : ScatterDims.WF S1024x256 S32768x1 S32768x256 [1] [0] [0] 1

variable [Facts₀]

def scatter_S1024_S32768x1_S32768_n_0_0_1 : ScatterDims S1024 S32768x1 S32768 where
  updateWindowDims := []
  insertedWindowDims := [0]
  scatterDimsToOperandDims := [0]
  indexVectorDim := 1
  wf := scatter_S1024_S32768x1_S32768_n_0_0_1_wf
def gather_S1024x256_S32768x1_S32768x256_1_0_n_n_0_1_1256 : GatherDims S1024x256 S32768x1 S32768x256 where
  offsetDims := [1]
  collapsedSliceDims := [0]
  operandBatchingDims := []
  startIndicesBatchingDims := []
  startIndexMap := [0]
  indexVectorDim := 1
  sliceSizes := ![1, 256]
  wf := gather_S1024x256_S32768x1_S32768x256_1_0_n_n_0_1_1256_wf
def gather_S1024_S32768x1_S32768_n_0_n_n_0_1_1 : GatherDims S1024 S32768x1 S32768 where
  offsetDims := []
  collapsedSliceDims := [0]
  operandBatchingDims := []
  startIndicesBatchingDims := []
  startIndexMap := [0]
  indexVectorDim := 1
  sliceSizes := ![1]
  wf := gather_S1024_S32768x1_S32768_n_0_n_n_0_1_1_wf
def scatter_S1024x256_S32768x1_S32768x256_1_0_0_1 : ScatterDims S1024x256 S32768x1 S32768x256 where
  updateWindowDims := [1]
  insertedWindowDims := [0]
  scatterDimsToOperandDims := [0]
  indexVectorDim := 1
  wf := scatter_S1024x256_S32768x1_S32768x256_1_0_0_1_wf

class Facts : Prop extends Facts₀ where

variable [Facts]
-- ==== Proof.K.Data.lean ====
/-
  The two kernel launches as data, at any reading of the floats: what each window's staging buffer holds after
  the body at every grid point, and what the first launch keeps in its three accumulators from point to point.

  LAUNCH 0 walks a 2 × 16 grid, point `t = 16 a + i`. Its body resets three accumulators (a count column and
  two tables) when `i = 0`, adds the point's three partial sums to them, and copies them to the three outputs'
  staging buffers when `i = 15`; the outputs are written back only there. So after point `t` the accumulators
  hold the fold of the partial sums of the points `16 a … t` from zero (`accAt0`), and the outputs' buffers,
  where it matters, that fold re-laid as a [1, ·, ·] block.
  LAUNCH 1 walks 32 points; its body stores one block, a pointwise function of the seven input blocks.
-/
import proofs.«420308_j72095321030973_2_alg».proof.Proof.Gen.Kernel.Launch
import proofs.«420308_j72095321030973_2_alg».proof.Proof.Gen.Kernel.Skeleton
import proofs.«420308_j72095321030973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block of launch 0 at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of launch 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Launch 0: the accumulators -/

/-- The three accumulators' contents: the count column, the sum table, the sum-of-squares table. -/
abbrev Acc (F : FTy → Type) [FloatOps F] : Type := Vec F S1024x1 .f32 × Vec F S1024x256 .f32 × Vec F S1024x256 .f32

/-- The accumulators after a reset. -/
def zeroAcc : Acc F := (k0_pay7, k0_pay8, k0_pay9)

/-- One point's update: each accumulator plus the point's partial sum, from the point's four input blocks. -/
def stepAcc (x : Vec F S1024x3x256 .f32) (pf : Vec F S1024x1 .i32) (w : Vec F S1024x1 .f32) (mn : Vec F S1024x256 .f32)
    (s : Acc F) : Acc F :=
  (k0_pay1 (k0_pay15 pf w s.1), k0_pay2 (k0_pay13 x pf w mn) s.2.1, k0_pay3 (k0_pay14 x pf w mn) s.2.2)

/-- THE ACCUMULATION: what the accumulators hold after the body at position `n`: the point's update of zero at
    the first point of a row of the grid (`n % 16 = 0`), of what position `n - 1` left elsewhere. -/
def accAt0 (c : Dev nD) : (n : ℕ) → n < cfg0.N → Acc F
  | 0, hn => stepAcc (iblk0 V c 0 ⟨0, hn⟩) (iblk0 V c 1 ⟨0, hn⟩) (iblk0 V c 2 ⟨0, hn⟩) (iblk0 V c 3 ⟨0, hn⟩) zeroAcc
  | n + 1, hn => stepAcc (iblk0 V c 0 ⟨n + 1, hn⟩) (iblk0 V c 1 ⟨n + 1, hn⟩) (iblk0 V c 2 ⟨n + 1, hn⟩) (iblk0 V c 3 ⟨n + 1, hn⟩)
      (if (n + 1) % 16 = 0 then zeroAcc else accAt0 c n (Nat.lt_of_succ_lt hn))

theorem accAt0_zero (c : Dev nD) (hn : 0 < cfg0.N) :
    accAt0 V c 0 hn = stepAcc (iblk0 V c 0 ⟨0, hn⟩) (iblk0 V c 1 ⟨0, hn⟩) (iblk0 V c 2 ⟨0, hn⟩) (iblk0 V c 3 ⟨0, hn⟩) zeroAcc := rfl

theorem accAt0_succ (c : Dev nD) (n : ℕ) (hn : n + 1 < cfg0.N) :
    accAt0 V c (n + 1) hn = stepAcc (iblk0 V c 0 ⟨n + 1, hn⟩) (iblk0 V c 1 ⟨n + 1, hn⟩) (iblk0 V c 2 ⟨n + 1, hn⟩) (iblk0 V c 3 ⟨n + 1, hn⟩)
      (if (n + 1) % 16 = 0 then zeroAcc else accAt0 V c n (Nat.lt_of_succ_lt hn)) := rfl

/-- The same at a point `t`, by whether it opens a row of the grid. -/
theorem accAt0_reset (c : Dev nD) (t : Fin cfg0.N) (h : t.val % 16 = 0) :
    accAt0 V c t.val t.isLt = stepAcc (iblk0 V c 0 t) (iblk0 V c 1 t) (iblk0 V c 2 t) (iblk0 V c 3 t) zeroAcc := by
  obtain ⟨n, hn⟩ := t
  cases n with
  | zero => rfl
  | succ n => rw [accAt0_succ]; rw [if_pos h]

theorem accAt0_carry (c : Dev nD) (t : Fin cfg0.N) (h : ¬ t.val % 16 = 0) :
    accAt0 V c t.val t.isLt = stepAcc (iblk0 V c 0 t) (iblk0 V c 1 t) (iblk0 V c 2 t) (iblk0 V c 3 t)
      (accAt0 V c (t.val - 1) (Nat.lt_of_le_of_lt (Nat.sub_le _ _) t.isLt)) := by
  obtain ⟨n, hn⟩ := t
  cases n with
  | zero => exact absurd (Nat.zero_mod _) h
  | succ n => rw [accAt0_succ]; rw [if_neg h]; rfl

/-- The accumulators as memrefs: whole scoped buffers of the kernel's own. -/
abbrev scM0 : Memref sig .tc .vmem S1024x1 .f32 := Memref.whole cc0_scratch0
abbrev scM1 : Memref sig .tc .vmem S1024x256 .f32 := Memref.whole cc0_scratch1
abbrev scM2 : Memref sig .tc .vmem S1024x256 .f32 := Memref.whole cc0_scratch2

/-- The core's scoped buffers that launch 0 neither stages through nor accumulates in (launch 1's staging
    buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant of launch 0 before position `n`: before the first point whatever the launch hands over
    (every scoped buffer at anything, the generator register at some state); afterwards the three accumulators at
    what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ others0 c ∗ (∃ r, prngReg c r)) := rfl

theorem PhiS0_pos (c : Dev nD) (n : ℕ) (h : n ≤ cfg0.N) (hz : n ≠ 0) :
    PhiS0 V c n h = iprop(owns (c : Thread nD τ) scM0 fullShare (accAt0 V c (n - 1) (by omega)).1
      ∗ owns (c : Thread nD τ) scM1 fullShare (accAt0 V c (n - 1) (by omega)).2.1
      ∗ owns (c : Thread nD τ) scM2 fullShare (accAt0 V c (n - 1) (by omega)).2.2
      ∗ others0 c ∗ (∃ r, prngReg c r)) := by
  cases n with
  | zero => exact absurd rfl hz
  | succ n => rfl

/-- The proof data of launch 0 on core `c`: the arrays as the launch finds them; after the body at point `t` each
    input's buffer at its block, each output's at the accumulator after `t` re-laid as its block (consulted only
    where the output is written back, at the last point of a row of the grid); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (accAt0 V c t.val t.isLt).1
    | ⟨5, _⟩ => k0_pay5 (accAt0 V c t.val t.isLt).2.1
    | ⟨6, _⟩ => k0_pay6 (accAt0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay4 (accAt0 V c t.val t.isLt).1 := by dsimp only [dat0]
theorem after0_5 (c : Dev nD) (t : Fin cfg0.N) : (dat0 V c).after 5 t = k0_pay5 (accAt0 V c t.val t.isLt).2.1 := by dsimp only [dat0]
theorem after0_6 (c : Dev nD) (t : Fin cfg0.N) : (dat0 V c).after 6 t = k0_pay6 (accAt0 V c t.val t.isLt).2.2 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-! ## Launch 1 -/

/-- The whole output block of launch 1 as one rectangle. -/
abbrev r1 : Rect S1024x3x256 := Rect.unit (s := S1024x3x256) ![0, 0, 0] S1024x3x256.size inb_S1024x3x256_S1024x3x256_0_0_0

/-- What launch 1's body stores, from its seven input blocks: the tokens' values less the looked-up mean, times
    the looked-up reciprocal deviation, times the weight. -/
def val1 (x : Vec F S1024x3x256 .f32) (pf : Vec F S1024x1 .i32) (w : Vec F S1024x1 .f32)
    (mh ml sh sl : Vec F S1024x256 .bf16) : Vec F S1024x3x256 .f32 :=
  k1_pay1 (k1_pay2 x pf mh ml sh sl) (k1_pay3 w)

/-- The proof data of launch 1 on core `c`: after the body each input's buffer at its block, the output's at
    `val1` of the input blocks; the invariant the plain one (the scoped rest and the generator register). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => val1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = val1 (iblk1 V c 0 t) (iblk1 V c 1 t) (iblk1 V c 2 t) (iblk1 V c 3 t) (iblk1 V c 4 t) (iblk1 V c 5 t) (iblk1 V c 6 t) := by
  dsimp only [dat1]

end

end Cert.Kernel.Hand

end
-- ==== Proof.K.Run.lean ====
/-
  The kernel program's run as a whole: @main is seven segments — a stretch of host operations, launch 0, three
  stretches, launch 1, a last stretch — and what every unscoped buffer of the TensorCore holds at each segment
  boundary is a fold from the launch memory: a stretch applies its operations; a launch leaves each of its
  windows' arrays at what its write-backs folded and every other buffer as it found it. The run ends with every
  unscoped buffer at the fold's last value; in particular each argument array as launched, and the result at
  the last stretch's reshape of launch 1's output array.
-/
import proofs.«420308_j72095321030973_2_alg».proof.Proof.Gen.Kernel.Launch
import proofs.«420308_j72095321030973_2_alg».proof.Proof.Gen.Kernel.Skeleton
import proofs.«420308_j72095321030973_2_alg».proof.Proof.Gen.Kernel.Points
import proofs.«420308_j72095321030973_2_alg».proof.Proof.Gen.Kernel.Regions
import proofs.«420308_j72095321030973_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first stretch (launch 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At launch 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three stretches between the launches (launch 1's entry is `W5`). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- At launch 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the last stretch: the end. -/
abbrev W7 : Dev nD → Valuation τ sig (Elt F) := fun c => StableHlo.after hostOps2 (W6 m c)

/-! ### The arguments end as launched: no stretch writes one and no launch stages one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (r := main_arg0) (by decide)
    _ = W5 m c (Proc.devRef .tc main_arg0) := W6_of_ne m c main_arg0 (by decide)
    _ = W4 m c (Proc.devRef .tc main_arg0) := StableHlo.after_of_writes_sub hostOps1_2 _ hostOps1_2_writes (r := main_arg0) (by decide)
    _ = W3 m c (Proc.devRef .tc main_arg0) := StableHlo.after_of_writes_sub hostOps1_1 _ hostOps1_1_writes (r := main_arg0) (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (r := main_arg1) (by decide)
    _ = W5 m c (Proc.devRef .tc main_arg1) := W6_of_ne m c main_arg1 (by decide)
    _ = W4 m c (Proc.devRef .tc main_arg1) := StableHlo.after_of_writes_sub hostOps1_2 _ hostOps1_2_writes (r := main_arg1) (by decide)
    _ = W3 m c (Proc.devRef .tc main_arg1) := StableHlo.after_of_writes_sub hostOps1_1 _ hostOps1_1_writes (r := main_arg1) (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (r := main_arg2) (by decide)
    _ = W5 m c (Proc.devRef .tc main_arg2) := W6_of_ne m c main_arg2 (by decide)
    _ = W4 m c (Proc.devRef .tc main_arg2) := StableHlo.after_of_writes_sub hostOps1_2 _ hostOps1_2_writes (r := main_arg2) (by decide)
    _ = W3 m c (Proc.devRef .tc main_arg2) := StableHlo.after_of_writes_sub hostOps1_1 _ hostOps1_1_writes (r := main_arg2) (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (r := main_arg3) (by decide)
    _ = W5 m c (Proc.devRef .tc main_arg3) := W6_of_ne m c main_arg3 (by decide)
    _ = W4 m c (Proc.devRef .tc main_arg3) := StableHlo.after_of_writes_sub hostOps1_2 _ hostOps1_2_writes (r := main_arg3) (by decide)
    _ = W3 m c (Proc.devRef .tc main_arg3) := StableHlo.after_of_writes_sub hostOps1_1 _ hostOps1_1_writes (r := main_arg3) (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (r := main_arg4) (by decide)
    _ = W5 m c (Proc.devRef .tc main_arg4) := W6_of_ne m c main_arg4 (by decide)
    _ = W4 m c (Proc.devRef .tc main_arg4) := StableHlo.after_of_writes_sub hostOps1_2 _ hostOps1_2_writes (r := main_arg4) (by decide)
    _ = W3 m c (Proc.devRef .tc main_arg4) := StableHlo.after_of_writes_sub hostOps1_1 _ hostOps1_1_writes (r := main_arg4) (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (r := main_arg5) (by decide)
    _ = W5 m c (Proc.devRef .tc main_arg5) := W6_of_ne m c main_arg5 (by decide)
    _ = W4 m c (Proc.devRef .tc main_arg5) := StableHlo.after_of_writes_sub hostOps1_2 _ hostOps1_2_writes (r := main_arg5) (by decide)
    _ = W3 m c (Proc.devRef .tc main_arg5) := StableHlo.after_of_writes_sub hostOps1_1 _ hostOps1_1_writes (r := main_arg5) (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (r := main_arg6) (by decide)
    _ = W5 m c (Proc.devRef .tc main_arg6) := W6_of_ne m c main_arg6 (by decide)
    _ = W4 m c (Proc.devRef .tc main_arg6) := StableHlo.after_of_writes_sub hostOps1_2 _ hostOps1_2_writes (r := main_arg6) (by decide)
    _ = W3 m c (Proc.devRef .tc main_arg6) := StableHlo.after_of_writes_sub hostOps1_1 _ hostOps1_1_writes (r := main_arg6) (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Both launches' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The launches as segments -/

section Launches

/-- The buffer contents a launch is entered from, as a family over the cores. -/
abbrev VT : Type := (c : Dev nD) → (b : Ref sig .tc) → Buf (Elt F) ((c : Thread nD τ).loc b)
/-- What the run takes of the two launches: each body's obligation at every point, and that launch 0's invariant after the last point gives back what the launch handed over. -/
abbrev HB0 : Prop :=
  ∀ (V : VT (F := F)) (c : Dev nD), BodyObligation (dat0 (F := F) V c) (defs₀ (F := F)) Variants.none () Set.univ
abbrev HOUT0 : Prop :=
  ∀ (V : VT (F := F)) (c : Dev nD), (dat0 V c).Φ (Fin.last cfg0.N) ⊢ (Pipeline.ΦA spec0 c : sProp 𝕄)
abbrev HB1 : Prop :=
  ∀ (V : VT (F := F)) (c : Dev nD), BodyObligation (dat1 (F := F) V c) (defs₀ (F := F)) Variants.none () Set.univ

set_option backward.isDefEq.respectTransparency.types false in
/-- LAUNCH 0 over the thread state: entered from every unscoped buffer at `W1`, left at `W2`. Its arrays are
    split out of the unscoped buffers and put back at the contents the write-backs leave; the generator register
    goes into the launch's invariant and comes back; nothing is owed; the kernel has no semaphore of its own. -/
def reg0 (hb0 : HB0 (F := F)) (hout0' : HOUT0 (F := F)) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0' (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at `W5`, left at `W6`. Its arrays are
    split out of the unscoped buffers and put back at the contents the write-backs leave; the generator register
    goes into the launch's invariant and comes back; nothing is owed; the kernel has no semaphore of its own. -/
def reg1 (hb1 : HB1 (F := F)) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hb0 : HB0 (F := F)) (hout0' : HOUT0 (F := F)) (hb1 : HB1 (F := F)) : List (Pipeline.Seg (pcfgs (F := F)) adm (pdats m) () defs₀ 𝒱₀ L lv) :=
  [ .host (hseg hostOps0 hostOps0_sub hostOps0_fresh (W0 m)),
    .region (reg0 m hb0 hout0'),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m hb1),
    .host (hseg hostOps2 hostOps2_sub hostOps2_fresh (W6 m)) ]

theorem main_run (hb0 : HB0 (F := F)) (hout0' : HOUT0 (F := F)) (hb1 : HB1 (F := F)) (c : Dev nD) : main (F := F) c = Pipeline.Seg.run (segs m hb0 hout0' hb1) := by
  rw [main_chain c, Pipeline.Seg.run_eq_chain]
  rfl

set_option backward.isDefEq.respectTransparency.types false in
/-- THE RUN: from any memory with zero counters every weakly fair execution of @main terminates, nothing faulting,
    and every final state has every unscoped buffer of the TensorCore at the fold's last value `W7`. -/
theorem run_main (hb0 : HB0 (F := F)) (hout0' : HOUT0 (F := F)) (hb1 : HB1 (F := F)) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m hb0 hout0' hb1)
    (fun c Q => by rw [main_run m hb0 hout0' hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME, and the result beside it: the run's post read at the seven argument arrays and at the result. -/
theorem run_args_result (hb0 : HB0 (F := F)) (hout0' : HOUT0 (F := F)) (hb1 : HB1 (F := F)) : θ_run defs (onTc (τ := τ) (main (F := F))) ⟨m, fun _ => 0, ρ⟩ (fun r => ∀ c : Dev nD,
      r.2.mem ((c.tc : Thread nD τ).loc main_v43) = W7 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v43 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c)⟩) (run_main m ρ hb0 hout0' hb1)

end Launches

end Cert.Kernel.Hand

end
-- ==== Proof.K.Body0.lean ====
/-
  The body obligation of the first launch (the 2 × 16 grid, point `t = 16 a + i`).

  The body has three control cases by the point's place in its row of the grid. At the first point of a row it
  resets the three accumulators and then adds the point's three partial sums to them; at a middle point it adds
  them; at the last point it adds them and copies the accumulators, re-laid as [1, ·, ·] blocks, into the three
  outputs' buffers. For each case the body's run is stated over whole memrefs, with the pieces its stores leave
  in each buffer; the pieces cover their buffers, and read back they are the accumulation's step (`stepAcc`)
  of the point's four input blocks, applied to zero where the point opens a row and to what the point before
  left elsewhere. So the invariant `PhiS0` is carried from each point to the next, the inputs' buffers are left
  at their blocks, and the outputs' buffers are handed back untouched off the last point of a row (where they
  are idle and not written back) and hold the re-laid accumulators at it.
-/
import proofs.«420308_j72095321030973_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace B0

/-! ## The two conditions of the body, over the grid -/

/-- The first condition of the body (the point opens a row of the grid), from the coordinates. -/
abbrev cond0_0 (i : grid0.Coords) : Prop :=
  (Scalar.cmpi .ne (Scalar.extui (Scalar.cmpi .eq (BitVec.ofNat 32 (i 1).val) 0#32)) 0#32) = 1#1

/-- It holds exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second condition of the body (the point closes a row of the grid), from the coordinates. -/
abbrev cond0_1 (i : grid0.Coords) : Prop := k0_cond2 i = 1#1

/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Off the last point of a row the three outputs are idle and not written back; at it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## What the launch hands over, with the accumulators as memrefs -/

/-- The launch's invariant is the three accumulators each at some contents, the other scoped buffers at anything
    and the generator register at some state. -/
theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ others0 c) ∗ (∃ r, prngReg c r)) := by
  unfold Pipeline.ΦA others0; rw [scopedRest0_eq]; simp only [scM0, scM1, scM2, owns_whole]; try rfl

section
variable (V : (c : Dev nD) → (b : Ref sig .tc) → Buf (Elt F) ((c : Thread nD τ).loc b))

/-! ## What the body finds in the inputs' buffers -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

end

/-! ## The body's run, case by case -/

set_option maxHeartbeats 1000000 in
/-- THE FIRST POINT OF A ROW (first condition holds, second fails): on whole memrefs, the inputs at their blocks and
    the accumulators at anything, the body runs to the continuation holding the inputs as they were and each
    accumulator with the pieces its stores wrote (last first): the reset, then the update. The outputs are untouched. -/
noncomputable def kernelRun0_A (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1024x3x256 .f32) (x1 : Vec F S1024x1 .i32) (x2 : Vec F S1024x1 .f32) (x3 : Vec F S1024x256 .f32) :
    Σ' (LS0 : List (View.Piece (Elt F) S1024x1 .f32)) (LS1 : List (View.Piece (Elt F) S1024x256 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 1000000 in
/-- A MIDDLE POINT OF A ROW (both conditions fail): the accumulators at what the point before left; each is
    loaded and stored once, the update. The outputs are untouched. -/
noncomputable def kernelRun0_B (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    Σ' (LS0 : List (View.Piece (Elt F) S1024x1 .f32)) (LS1 : List (View.Piece (Elt F) S1024x256 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 1000000 in
/-- THE LAST POINT OF A ROW (first condition fails, second holds): the accumulators at what the point before left,
    the outputs at anything; each accumulator is updated, then read back and stored, re-laid, into its output. -/
noncomputable def kernelRun0_C (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    Σ' (L4 : List (View.Piece (Elt F) S1x1024x1 .f32)) (L5 : List (View.Piece (Elt F) S1x1024x256 .f32)) (L6 : List (View.Piece (Elt F) S1x1024x256 .f32))
       (LS0 : List (View.Piece (Elt F) S1024x1 .f32)) (LS1 : List (View.Piece (Elt F) S1024x256 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

/-! ## What the runs' pieces are -/

theorem hz2 : (![0, 0] : Fin 2 → Nat) = fun _ => 0 := funext fun a => by fin_cases a <;> rfl
theorem hz3 : (![0, 0, 0] : Fin 3 → Nat) = fun _ => 0 := funext fun a => by fin_cases a <;> rfl

theorem scoverA_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).1 S1024x1.size (by sl_kernel_rfl) y

theorem scoverA_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) (y : S1024x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.1 S1024x256.size (by sl_kernel_rfl) y

theorem scoverA_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) (y : S1024x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S1024x256.size (by sl_kernel_rfl) y

theorem canonA_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) :
    View.canon (kernelRun0_A c i arg2 harg2 arg3 harg3 arg4 harg4 arg5 harg5 arg6 harg6 arg7 harg7 arg8 harg8 arg9 harg9 arg10 harg10 arg11 harg11 hc0 hc1 x0 x1 x2 x3).1 = k0_pay1 (k0_pay15 x1 x2 k0_pay7) := by
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonA_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) :
    View.canon (kernelRun0_A c i arg2 harg2 arg3 harg3 arg4 harg4 arg5 harg5 arg6 harg6 arg7 harg7 arg8 harg8 arg9 harg9 arg10 harg10 arg11 harg11 hc0 hc1 x0 x1 x2 x3).2.1 = k0_pay2 (k0_pay13 x0 x1 x2 x3) k0_pay8 := by
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonA_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) :
    View.canon (kernelRun0_A c i arg2 harg2 arg3 harg3 arg4 harg4 arg5 harg5 arg6 harg6 arg7 harg7 arg8 harg8 arg9 harg9 arg10 harg10 arg11 harg11 hc0 hc1 x0 x1 x2 x3).2.2.1 = k0_pay3 (k0_pay14 x0 x1 x2 x3) k0_pay9 := by
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem scoverB_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

theorem scoverB_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1 S1024x256.size (by sl_kernel_rfl) y

theorem scoverB_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1 S1024x256.size (by sl_kernel_rfl) y

theorem canonB_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_B c i arg2 harg2 arg3 harg3 arg4 harg4 arg5 harg5 arg6 harg6 arg7 harg7 arg8 harg8 arg9 harg9 arg10 harg10 arg11 harg11 hc0 hc1 x0 x1 x2 x3 xs0 xs1 xs2).1 = k0_pay1 (k0_pay15 x1 x2 xs0) := by
  unfold kernelRun0_B
  dsimp only
  sl_unfold_words
  rw [View.canon_unit_zero (S := S1024x1) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonB_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1 = k0_pay2 (k0_pay13 x0 x1 x2 x3) xs1 := by
  unfold kernelRun0_B
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonB_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1 = k0_pay3 (k0_pay14 x0 x1 x2 x3) xs2 := by
  unfold kernelRun0_B
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem coverC_4 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1x1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 S1x1024x1.size (by sl_kernel_rfl) y

theorem coverC_5 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1x1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 S1x1024x256.size (by sl_kernel_rfl) y

theorem coverC_6 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1x1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 S1x1024x256.size (by sl_kernel_rfl) y

theorem scoverC_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

theorem scoverC_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x256.size (by sl_kernel_rfl) y

theorem scoverC_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x256.size (by sl_kernel_rfl) y

theorem canonC_4 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 = k0_pay4 (k0_pay1 (k0_pay15 x1 x2 xs0)) := by
  unfold kernelRun0_C
  dsimp only
  sl_unfold_words
  rw [View.canon_unit_zero (S := S1x1024x1) hz3]
  simp only [View.readCov_unit_zero (S := S1024x1) _ hz2, View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_5 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 = k0_pay5 (k0_pay2 (k0_pay13 x0 x1 x2 x3) xs1) := by
  unfold kernelRun0_C
  dsimp only
  sl_unfold_words
  rw [View.canon_unit_zero (S := S1x1024x256) hz3]
  simp only [View.readCov_unit_zero (S := S1024x256) _ hz2, View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_6 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 = k0_pay6 (k0_pay3 (k0_pay14 x0 x1 x2 x3) xs2) := by
  unfold kernelRun0_C
  dsimp only
  sl_unfold_words
  rw [View.canon_unit_zero (S := S1x1024x256) hz3]
  simp only [View.readCov_unit_zero (S := S1024x256) _ hz2, View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_S0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 = k0_pay1 (k0_pay15 x1 x2 xs0) := by
  unfold kernelRun0_C
  dsimp only
  sl_unfold_words
  rw [View.canon_unit_zero (S := S1024x1) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_S1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 = k0_pay2 (k0_pay13 x0 x1 x2 x3) xs1 := by
  unfold kernelRun0_C
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_S2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 = k0_pay3 (k0_pay14 x0 x1 x2 x3) xs2 := by
  unfold kernelRun0_C
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

/-! ## The body's triple per case, with the contents named -/

/-- At the first point of a row the body leaves each accumulator at the update of the reset. -/
theorem tripleA (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1024x3x256 .f32) (x1 : Vec F S1024x1 .i32) (x2 : Vec F S1024x1 .f32) (x3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg9 fullShare (stepAcc x0 x1 x2 x3 zeroAcc).1
            ∗ owns (c : Thread nD τ) arg10 fullShare (stepAcc x0 x1 x2 x3 zeroAcc).2.1
            ∗ owns (c : Thread nD τ) arg11 fullShare (stepAcc x0 x1 x2 x3 zeroAcc).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K := by
  iintro ⟨H0, H1, H2, H3, HS0, HS1, HS2, Hk⟩
  iapply ((kernelRun0_A c i arg2 harg2 arg3 harg3 arg4 harg4 arg5 harg5 arg6 harg6 arg7 harg7 arg8 harg8 arg9 harg9 arg10 harg10 arg11 harg11 hc0 hc1 x0 x1 x2 x3).2.2.2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scoverA_0 c i arg2 harg2 arg3 harg3 arg4 harg4 arg5 harg5 arg6 harg6 arg7 harg7 arg8 harg8 arg9 harg9 arg10 harg10 arg11 harg11 hc0 hc1 x0 x1 x2 x3)).trans (canonA_0 c i arg2 harg2 arg3 harg3 arg4 harg4 arg5 harg5 arg6 harg6 arg7 harg7 arg8 harg8 arg9 harg9 arg10 harg10 arg11 harg11 hc0 hc1 x0 x1 x2 x3)
  isplitl [HS1]
  · unfold owns; iexists _; isplitr
    swap; · iexact HS1
    ipureintro; exact (View.read_writes_eq_canon _ _ _ (scoverA_1 c i arg2 harg2 arg3 harg3 arg4 harg4 arg5 harg5 arg6 harg6 arg7 harg7 arg8 harg8 arg9 harg9 arg10 harg10 arg11 harg11 hc0 hc1 x0 x1 x2 x3)).trans (canonA_1 c i arg2 harg2 arg3 harg3 arg4 harg4 arg5 harg5 arg6 harg6 arg7 harg7 arg8 harg8 arg9 harg9 arg10 harg10 arg11 harg11 hc0 hc1 x0 x1 x2 x3)
  unfold owns; iexists _; isplitr
  swap; · iexact HS2
  ipureintro; exact (View.read_writes_eq_canon _ _ _ (scoverA_2 c i arg2 harg2 arg3 harg3 arg4 harg4 arg5 harg5 arg6 harg6 arg7 harg7 arg8 harg8 arg9 harg9 arg10 harg10 arg11 harg11 hc0 hc1 x0 x1 x2 x3)).trans (canonA_2 c i arg2 harg2 arg3 harg3 arg4 harg4 arg5 harg5 arg6 harg6 arg7 harg7 arg8 harg8 arg9 harg9 arg10 harg10 arg11 harg11 hc0 hc1 x0 x1 x2 x3)

/-- At a middle point of a row the body leaves each accumulator at the update of what it held. -/
theorem tripleB (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1024x3x256 .f32) (x1 : Vec F S1024x1 .i32) (x2 : Vec F S1024x1 .f32) (x3 : Vec F S1024x256 .f32) (s : Acc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg9 fullShare (stepAcc x0 x1 x2 x3 s).1
            ∗ owns (c : Thread nD τ) arg10 fullShare (stepAcc x0 x1 x2 x3 s).2.1
            ∗ owns (c : Thread nD τ) arg11 fullShare (stepAcc x0 x1 x2 x3 s).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K := by
  iintro ⟨H0, H1, H2, H3, HS0, HS1, HS2, Hk⟩
  iapply ((kernelRun0_B c i arg2 harg2 arg3 harg3 arg4 harg4 arg5 harg5 arg6 harg6 arg7 harg7 arg8 harg8 arg9 harg9 arg10 harg10 arg11 harg11 hc0 hc1 x0 x1 x2 x3 s.1 s.2.1 s.2.2).2.2.2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scoverB_0 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonB_0 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [HS1]
  · unfold owns; iexists _; isplitr
    swap; · iexact HS1
    ipureintro; exact (View.read_writes_eq_canon _ _ _ (scoverB_1 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonB_1 c i arg2 harg2 arg3 harg3 arg4 harg4 arg5 harg5 arg6 harg6 arg7 harg7 arg8 harg8 arg9 harg9 arg10 harg10 arg11 harg11 hc0 hc1 x0 x1 x2 x3 s.1 s.2.1 s.2.2)
  unfold owns; iexists _; isplitr
  swap; · iexact HS2
  ipureintro; exact (View.read_writes_eq_canon _ _ _ (scoverB_2 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonB_2 c i arg2 harg2 arg3 harg3 arg4 harg4 arg5 harg5 arg6 harg6 arg7 harg7 arg8 harg8 arg9 harg9 arg10 harg10 arg11 harg11 hc0 hc1 x0 x1 x2 x3 s.1 s.2.1 s.2.2)

/-- At the last point of a row the body leaves each accumulator at the update of what it held, and each output
    at that, re-laid as its block. -/
theorem tripleC (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1024x3x256 .f32) (x1 : Vec F S1024x1 .i32) (x2 : Vec F S1024x1 .f32) (x3 : Vec F S1024x256 .f32) (s : Acc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (stepAcc x0 x1 x2 x3 s).1)
            ∗ owns (c : Thread nD τ) arg7 fullShare (k0_pay5 (stepAcc x0 x1 x2 x3 s).2.1)
            ∗ owns (c : Thread nD τ) arg8 fullShare (k0_pay6 (stepAcc x0 x1 x2 x3 s).2.2)
            ∗ owns (c : Thread nD τ) arg9 fullShare (stepAcc x0 x1 x2 x3 s).1
            ∗ owns (c : Thread nD τ) arg10 fullShare (stepAcc x0 x1 x2 x3 s).2.1
            ∗ owns (c : Thread nD τ) arg11 fullShare (stepAcc x0 x1 x2 x3 s).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K := by
  iintro ⟨H0, H1, H2, H3, H4, H5, H6, HS0, HS1, HS2, Hk⟩
  iapply ((kernelRun0_C c i arg2 harg2 arg3 harg3 arg4 harg4 arg5 harg5 arg6 harg6 arg7 harg7 arg8 harg8 arg9 harg9 arg10 harg10 arg11 harg11 hc0 hc1 x0 x1 x2 x3 s.1 s.2.1 s.2.2).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, ⟨%e4, H4⟩, ⟨%e5, H5⟩, ⟨%e6, H6⟩, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (coverC_4 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_4 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [H5]
  · unfold owns; iexists _; isplitr
    swap; · iexact H5
    ipureintro; exact (View.read_writes_eq_canon _ _ _ (coverC_5 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_5 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [H6]
  · unfold owns; iexists _; isplitr
    swap; · iexact H6
    ipureintro; exact (View.read_writes_eq_canon _ _ _ (coverC_6 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_6 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [HS0]
  · unfold owns; iexists _; isplitr
    swap; · iexact HS0
    ipureintro; exact (View.read_writes_eq_canon _ _ _ (scoverC_0 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_S0 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [HS1]
  · unfold owns; iexists _; isplitr
    swap; · iexact HS1
    ipureintro; exact (View.read_writes_eq_canon _ _ _ (scoverC_1 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_S1 c i arg2 harg2 arg3 harg3 arg4 harg4 arg5 harg5 arg6 harg6 arg7 harg7 arg8 harg8 arg9 harg9 arg10 harg10 arg11 harg11 hc0 hc1 x0 x1 x2 x3 s.1 s.2.1 s.2.2)
  unfold owns; iexists _; isplitr
  swap; · iexact HS2
  ipureintro; exact (View.read_writes_eq_canon _ _ _ (scoverC_2 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_S2 c i arg2 harg2 arg3 harg3 arg4 harg4 arg5 harg5 arg6 harg6 arg7 harg7 arg8 harg8 arg9 harg9 arg10 harg10 arg11 harg11 hc0 hc1 x0 x1 x2 x3 s.1 s.2.1 s.2.2)

section
variable (V : (c : Dev nD) → (b : Ref sig .tc) → Buf (Elt F) ((c : Thread nD τ).loc b))

/-! ## The body obligation -/

/-- Each window's current staging memref at point `t`, and its wholeness. -/
abbrev ms0_0 (t : Fin cfg0.N) : Memref sig .tc .vmem S1024x3x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .f32 := win0_6.stage (cfg0.slots t 6)
abbrev hs0_6 (t : Fin cfg0.N) : (ms0_6 t).IsWhole := hstage0_6 ((cfg0.slots t 6).cast nbuf0_6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
/-- The body at any point. The inputs' buffers hold their blocks; the point's residue mod 16 says which case it is
    in; the invariant hands the body the accumulators at what the point before left (at anything at the very first
    point), and takes them back at this point's contents: the update of zero where the point opens a row, of
    what the point before left elsewhere. The outputs are handed back untouched off the last point of a row, and
    hold the accumulators re-laid at it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · have h1 : ¬t.val % 16 = 15 := by omega
    rw [Dat.leavesExact_idle (dat0 V c) 4 t (idleAt0_4 t (fun h => h1 ((hcond0_1 t).mp h))) (noFlush0_4 t (fun h => h1 ((hcond0_1 t).mp h))),
      Dat.leavesExact_idle (dat0 V c) 5 t (idleAt0_5 t (fun h => h1 ((hcond0_1 t).mp h))) (noFlush0_5 t (fun h => h1 ((hcond0_1 t).mp h))),
      Dat.leavesExact_idle (dat0 V c) 6 t (idleAt0_6 t (fun h => h1 ((hcond0_1 t).mp h))) (noFlush0_6 t (fun h => h1 ((hcond0_1 t).mp h)))]
    rw [accAt0_reset V c t h0]
    by_cases hz : t.val = 0
    · rw [PhiS0_castSucc V c t, PhiS0_zero V c _ _ hz, PhiA0_eq]
      iintro ⟨⟨⟨HS0, HS1, HS2, Hoth⟩, Hg⟩, Ho, ⟨%d0, H0⟩, ⟨%d1, H1⟩, ⟨%d2, H2⟩, ⟨%d3, H3⟩, H4, H5, H6⟩
      iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) ((hcond0_0 t).mpr h0) (fun h => h1 ((hcond0_1 t).mp h)) (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS0_castSucc V c t, PhiS0_pos V c _ _ hz]
      iintro ⟨⟨HS0, HS1, HS2, Hoth, Hg⟩, Ho, ⟨%d0, H0⟩, ⟨%d1, H1⟩, ⟨%d2, H2⟩, ⟨%d3, H3⟩, H4, H5, H6⟩
      iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) ((hcond0_0 t).mpr h0) (fun h => h1 ((hcond0_1 t).mp h)) (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    rw [accAt0_carry V c t h0]
    by_cases h1 : t.val % 16 = 15
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [accAt0_carry V c t h0]
      rw [PhiS0_castSucc V c t, PhiS0_pos V c _ _ hz]
      iintro ⟨⟨HS0, HS1, HS2, Hoth, Hg⟩, Ho, ⟨%d0, H0⟩, ⟨%d1, H1⟩, ⟨%d2, H2⟩, ⟨%d3, H3⟩, ⟨%d4, H4⟩, ⟨%d5, H5⟩, ⟨%d6, H6⟩⟩
      iapply (tripleC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 4 t (idleAt0_4 t (fun h => h1 ((hcond0_1 t).mp h))) (noFlush0_4 t (fun h => h1 ((hcond0_1 t).mp h))),
        Dat.leavesExact_idle (dat0 V c) 5 t (idleAt0_5 t (fun h => h1 ((hcond0_1 t).mp h))) (noFlush0_5 t (fun h => h1 ((hcond0_1 t).mp h))),
        Dat.leavesExact_idle (dat0 V c) 6 t (idleAt0_6 t (fun h => h1 ((hcond0_1 t).mp h))) (noFlush0_6 t (fun h => h1 ((hcond0_1 t).mp h)))]
      rw [PhiS0_castSucc V c t, PhiS0_pos V c _ _ hz]
      iintro ⟨⟨HS0, HS1, HS2, Hoth, Hg⟩, Ho, ⟨%d0, H0⟩, ⟨%d1, H1⟩, ⟨%d2, H2⟩, ⟨%d3, H3⟩, H4, H5, H6⟩
      iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) (fun h => h0 ((hcond0_0 t).mp h)) (fun h => h1 ((hcond0_1 t).mp h)) (iblk0 V c 0 t) (iblk0 V c 1 t) (iblk0 V c 2 t) (iblk0 V c 3 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, HS1, HS2, Hoth, Hg⟩
  isplitl [HS0 HS1 HS2 Hoth]
  · isplitl [HS0]; · iexists _; iexact HS0
    isplitl [HS1]; · iexists _; iexact HS1
    isplitl [HS2]; · iexists _; iexact HS2
    iexact Hoth
  iexact Hg

end

end B0

section
variable (V : (c : Dev nD) → (b : Ref sig .tc) → Buf (Elt F) ((c : Thread nD τ).loc b))

/-! ## The obligation and the invariant's two ends -/

/-- The body obligation of launch 0, at every point. -/
theorem body_obligation0 (c : Dev nD) : BodyObligation (dat0 (F := F) V c) (defs₀ (F := F)) Variants.none () Set.univ := fun t => by
  rw [bigSep_W0, bigSep_W0]
  exact B0.sound_body0 V c t

/-- What the launch hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over. -/
theorem hout0 (c : Dev nD) : (dat0 V c).Φ (Fin.last cfg0.N) ⊢ Pipeline.ΦA spec0 c :=
  B0.Phi_out0 V c _ (by rw [Fin.val_last]; have : cfg0.N = 32 := N_0; omega)

end

end Cert.Kernel.Hand

end
-- ==== Proof.K.Body1.lean ====
/-
  The body of launch 1 at every point of its grid.

  Each of the seven input windows' staging buffers holds, when the body is entered, the window's block at the
  point: fetched there, or left in place since the point where it was fetched, the block's index not having moved
  in between (the four tables have a constant index, so they are fetched once). The body reads the seven buffers
  whole and writes the output's buffer whole, once; a whole write leaves its payload, and a whole read of a buffer
  is its contents, so the output's buffer ends at `val1` of the seven blocks. The invariant and what the core
  owes are not touched.
-/
import proofs.«420308_j72095321030973_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What an input window's buffer holds when the body is entered

For any proof data whose array for the window is `V`'s and whose body leaves the window's block in place, the
window's current buffer holds the block at the point, at every point: where the window is not fetched its index
is the previous point's, and so is its block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The same of launch 1's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The whole buffers as rectangles -/

/-- The offsets of a whole-buffer rectangle are all zero. -/
theorem zeros3 : (![0, 0, 0] : Fin 3 → ℕ) = fun _ => 0 := funext fun a => by fin_cases a <;> rfl
theorem zeros2 : (![0, 0] : Fin 2 → ℕ) = fun _ => 0 := funext fun a => by fin_cases a <;> rfl

/-- A whole column block and a whole table block as one rectangle each (`r1` is the whole token block). -/
abbrev rCol : Rect S1024x1 := Rect.unit (s := S1024x1) ![0, 0] S1024x1.size inb_S1024x1_S1024x1_0_0
abbrev rTab : Rect S1024x256 := Rect.unit (s := S1024x256) ![0, 0] S1024x256.size inb_S1024x256_S1024x256_0_0

/-! ## What the body leaves in the output's buffer -/

/-- The output's buffer after the body, as its one write laid over whatever was there: the payload is the
    body's arithmetic on what the seven reads return. -/
def out1 (x0 : Vec F S1024x3x256 .f32) (x1 : Vec F S1024x1 .i32) (x2 : Vec F S1024x1 .f32) (x3 : Vec F S1024x256 .bf16) (x4 : Vec F S1024x256 .bf16) (x5 : Vec F S1024x256 .bf16) (x6 : Vec F S1024x256 .bf16) : Vec F S1024x3x256 .f32 :=
  View.canon [⟨r1, k1_pay1 (k1_pay2 (View.ld x0 r1) (View.ld x1 rCol) (View.ld x3 rTab) (View.ld x4 rTab) (View.ld x5 rTab) (View.ld x6 rTab)) (k1_pay3 (View.ld x2 rCol))⟩]

/-- The one write covers the buffer: every index lies in the whole rectangle. -/
theorem cover1 (p0 : Vec F S1024x3x256 .f32) (y : S1024x3x256.Idx) :
    ∃ pc ∈ ([⟨r1, p0⟩] : List (View.Piece (Elt F) S1024x3x256 .f32)), y ∈ pc.1.set :=
  View.cover_of_tiled [⟨r1, p0⟩] S1024x3x256.size (by rfl) y

/-- One whole write leaves its payload, and a whole read returns the contents: the buffer ends at `val1`. -/
theorem out1_eq (x0 : Vec F S1024x3x256 .f32) (x1 : Vec F S1024x1 .i32) (x2 : Vec F S1024x1 .f32) (x3 : Vec F S1024x256 .bf16) (x4 : Vec F S1024x256 .bf16) (x5 : Vec F S1024x256 .bf16) (x6 : Vec F S1024x256 .bf16) : out1 x0 x1 x2 x3 x4 x5 x6 = val1 x0 x1 x2 x3 x4 x5 x6 := by
  unfold out1 val1
  rw [View.canon_unit_zero zeros3]
  simp only [View.ld_unit_zero (S := S1024x3x256) zeros3, View.ld_unit_zero (S := S1024x1) zeros2,
    View.ld_unit_zero (S := S1024x256) zeros2]

/-! ## The body's triple -/

set_option maxHeartbeats 1000000 in
/-- The body on whole staging memrefs, the inputs' at contents `x0 … x6` and the output's at anything, runs to
    the continuation holding the inputs' as they were and the output's at `val1` of them. -/
theorem sound_kernel1 (c : Dev nD) (E : Set ℕ) (i : grid1.Coords)
    (arg1 : Memref sig .tc .vmem S1024x3x256 .f32) (harg1 : arg1.IsWhole)
    (arg2 : Memref sig .tc .vmem S1024x1 .i32) (harg2 : arg2.IsWhole)
    (arg3 : Memref sig .tc .vmem S1024x1 .f32) (harg3 : arg3.IsWhole)
    (arg4 : Memref sig .tc .vmem S1024x256 .bf16) (harg4 : arg4.IsWhole)
    (arg5 : Memref sig .tc .vmem S1024x256 .bf16) (harg5 : arg5.IsWhole)
    (arg6 : Memref sig .tc .vmem S1024x256 .bf16) (harg6 : arg6.IsWhole)
    (arg7 : Memref sig .tc .vmem S1024x256 .bf16) (harg7 : arg7.IsWhole)
    (arg8 : Memref sig .tc .vmem S1024x3x256 .f32) (harg8 : arg8.IsWhole)
    (x0 : Vec F S1024x3x256 .f32) (x1 : Vec F S1024x1 .i32) (x2 : Vec F S1024x1 .f32) (x3 : Vec F S1024x256 .bf16) (x4 : Vec F S1024x256 .bf16) (x5 : Vec F S1024x256 .bf16) (x6 : Vec F S1024x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (val1 x0 x1 x2 x3 x4 x5 x6)) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover1 _)).trans ?_
  exact out1_eq (F := F) _ _ _ _ _ _ _

/-! ## The body obligation, at a generic point -/

/-- What the body is called with at point `t`: the invariant, what the core owes, and each window's current
    buffer at what it holds there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of launch 1, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KI.Data.lean ====
/-
  The two kernel launches as data, at any reading of the floats: what each window's staging buffer holds after
  the body at every grid point, and what the first launch keeps in its three accumulators from point to point.

  LAUNCH 0 walks a 2 × 16 grid, point `t = 16 a + i`. Its body resets three accumulators (a count column and
  two tables) when `i = 0`, adds the point's three partial sums to them, and copies them to the three outputs'
  staging buffers when `i = 15`; the outputs are written back only there. So after point `t` the accumulators
  hold the fold of the partial sums of the points `16 a … t` from zero (`accAt0`), and the outputs' buffers,
  where it matters, that fold re-laid as a [1, ·, ·] block.
  LAUNCH 1 walks 32 points; its body stores one block, a pointwise function of the seven input blocks.
-/
import proofs.«420308_j72095321030973_2_alg».proof.Proof.Gen.KernelIdeal.Launch
import proofs.«420308_j72095321030973_2_alg».proof.Proof.Gen.KernelIdeal.Skeleton
import proofs.«420308_j72095321030973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block of launch 0 at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of launch 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Launch 0: the accumulators -/

/-- The three accumulators' contents: the count column, the sum table, the sum-of-squares table. -/
abbrev Acc (F : FTy → Type) [FloatOps F] : Type := Vec F S1024x1 .f32 × Vec F S1024x256 .f32 × Vec F S1024x256 .f32

/-- The accumulators after a reset. -/
def zeroAcc : Acc F := (k0_pay7, k0_pay8, k0_pay9)

/-- One point's update: each accumulator plus the point's partial sum, from the point's four input blocks. -/
def stepAcc (x : Vec F S1024x3x256 .f32) (pf : Vec F S1024x1 .i32) (w : Vec F S1024x1 .f32) (mn : Vec F S1024x256 .f32)
    (s : Acc F) : Acc F :=
  (k0_pay1 (k0_pay15 pf w s.1), k0_pay2 (k0_pay13 x pf w mn) s.2.1, k0_pay3 (k0_pay14 x pf w mn) s.2.2)

/-- THE ACCUMULATION: what the accumulators hold after the body at position `n`: the point's update of zero at
    the first point of a row of the grid (`n % 16 = 0`), of what position `n - 1` left elsewhere. -/
def accAt0 (c : Dev nD) : (n : ℕ) → n < cfg0.N → Acc F
  | 0, hn => stepAcc (iblk0 V c 0 ⟨0, hn⟩) (iblk0 V c 1 ⟨0, hn⟩) (iblk0 V c 2 ⟨0, hn⟩) (iblk0 V c 3 ⟨0, hn⟩) zeroAcc
  | n + 1, hn => stepAcc (iblk0 V c 0 ⟨n + 1, hn⟩) (iblk0 V c 1 ⟨n + 1, hn⟩) (iblk0 V c 2 ⟨n + 1, hn⟩) (iblk0 V c 3 ⟨n + 1, hn⟩)
      (if (n + 1) % 16 = 0 then zeroAcc else accAt0 c n (Nat.lt_of_succ_lt hn))

theorem accAt0_zero (c : Dev nD) (hn : 0 < cfg0.N) :
    accAt0 V c 0 hn = stepAcc (iblk0 V c 0 ⟨0, hn⟩) (iblk0 V c 1 ⟨0, hn⟩) (iblk0 V c 2 ⟨0, hn⟩) (iblk0 V c 3 ⟨0, hn⟩) zeroAcc := rfl

theorem accAt0_succ (c : Dev nD) (n : ℕ) (hn : n + 1 < cfg0.N) :
    accAt0 V c (n + 1) hn = stepAcc (iblk0 V c 0 ⟨n + 1, hn⟩) (iblk0 V c 1 ⟨n + 1, hn⟩) (iblk0 V c 2 ⟨n + 1, hn⟩) (iblk0 V c 3 ⟨n + 1, hn⟩)
      (if (n + 1) % 16 = 0 then zeroAcc else accAt0 V c n (Nat.lt_of_succ_lt hn)) := rfl

/-- The same at a point `t`, by whether it opens a row of the grid. -/
theorem accAt0_reset (c : Dev nD) (t : Fin cfg0.N) (h : t.val % 16 = 0) :
    accAt0 V c t.val t.isLt = stepAcc (iblk0 V c 0 t) (iblk0 V c 1 t) (iblk0 V c 2 t) (iblk0 V c 3 t) zeroAcc := by
  obtain ⟨n, hn⟩ := t
  cases n with
  | zero => rfl
  | succ n => rw [accAt0_succ]; rw [if_pos h]

theorem accAt0_carry (c : Dev nD) (t : Fin cfg0.N) (h : ¬ t.val % 16 = 0) :
    accAt0 V c t.val t.isLt = stepAcc (iblk0 V c 0 t) (iblk0 V c 1 t) (iblk0 V c 2 t) (iblk0 V c 3 t)
      (accAt0 V c (t.val - 1) (Nat.lt_of_le_of_lt (Nat.sub_le _ _) t.isLt)) := by
  obtain ⟨n, hn⟩ := t
  cases n with
  | zero => exact absurd (Nat.zero_mod _) h
  | succ n => rw [accAt0_succ]; rw [if_neg h]; rfl

/-- The accumulators as memrefs: whole scoped buffers of the kernel's own. -/
abbrev scM0 : Memref sig .tc .vmem S1024x1 .f32 := Memref.whole cc0_scratch0
abbrev scM1 : Memref sig .tc .vmem S1024x256 .f32 := Memref.whole cc0_scratch1
abbrev scM2 : Memref sig .tc .vmem S1024x256 .f32 := Memref.whole cc0_scratch2

/-- The core's scoped buffers that launch 0 neither stages through nor accumulates in (launch 1's staging
    buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant of launch 0 before position `n`: before the first point whatever the launch hands over
    (every scoped buffer at anything, the generator register at some state); afterwards the three accumulators at
    what the point before left, the other scoped buffers at anything, the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (accAt0 V c n hn).1
      ∗ owns (c : Thread nD τ) scM1 fullShare (accAt0 V c n hn).2.1
      ∗ owns (c : Thread nD τ) scM2 fullShare (accAt0 V c n hn).2.2
      ∗ others0 c ∗ (∃ r, prngReg c r)) := rfl

theorem PhiS0_pos (c : Dev nD) (n : ℕ) (h : n ≤ cfg0.N) (hz : n ≠ 0) :
    PhiS0 V c n h = iprop(owns (c : Thread nD τ) scM0 fullShare (accAt0 V c (n - 1) (by omega)).1
      ∗ owns (c : Thread nD τ) scM1 fullShare (accAt0 V c (n - 1) (by omega)).2.1
      ∗ owns (c : Thread nD τ) scM2 fullShare (accAt0 V c (n - 1) (by omega)).2.2
      ∗ others0 c ∗ (∃ r, prngReg c r)) := by
  cases n with
  | zero => exact absurd rfl hz
  | succ n => rfl

/-- The proof data of launch 0 on core `c`: the arrays as the launch finds them; after the body at point `t` each
    input's buffer at its block, each output's at the accumulator after `t` re-laid as its block (consulted only
    where the output is written back, at the last point of a row of the grid); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (accAt0 V c t.val t.isLt).1
    | ⟨5, _⟩ => k0_pay5 (accAt0 V c t.val t.isLt).2.1
    | ⟨6, _⟩ => k0_pay6 (accAt0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay4 (accAt0 V c t.val t.isLt).1 := by dsimp only [dat0]
theorem after0_5 (c : Dev nD) (t : Fin cfg0.N) : (dat0 V c).after 5 t = k0_pay5 (accAt0 V c t.val t.isLt).2.1 := by dsimp only [dat0]
theorem after0_6 (c : Dev nD) (t : Fin cfg0.N) : (dat0 V c).after 6 t = k0_pay6 (accAt0 V c t.val t.isLt).2.2 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-! ## Launch 1 -/

/-- The whole output block of launch 1 as one rectangle. -/
abbrev r1 : Rect S1024x3x256 := Rect.unit (s := S1024x3x256) ![0, 0, 0] S1024x3x256.size inb_S1024x3x256_S1024x3x256_0_0_0

/-- What launch 1's body stores, from its seven input blocks: the tokens' values less the looked-up mean, times
    the looked-up reciprocal deviation, times the weight. -/
def val1 (x : Vec F S1024x3x256 .f32) (pf : Vec F S1024x1 .i32) (w : Vec F S1024x1 .f32)
    (mh ml sh sl : Vec F S1024x256 .bf16) : Vec F S1024x3x256 .f32 :=
  k1_pay1 (k1_pay2 x pf mh ml sh sl) (k1_pay3 w)

/-- The proof data of launch 1 on core `c`: after the body each input's buffer at its block, the output's at
    `val1` of the input blocks; the invariant the plain one (the scoped rest and the generator register). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => val1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = val1 (iblk1 V c 0 t) (iblk1 V c 1 t) (iblk1 V c 2 t) (iblk1 V c 3 t) (iblk1 V c 4 t) (iblk1 V c 5 t) (iblk1 V c 6 t) := by
  dsimp only [dat1]

end

end Cert.KernelIdeal.Hand

end
-- ==== Proof.KI.Run.lean ====
/-
  The kernel program's run as a whole: @main is seven segments — a stretch of host operations, launch 0, three
  stretches, launch 1, a last stretch — and what every unscoped buffer of the TensorCore holds at each segment
  boundary is a fold from the launch memory: a stretch applies its operations; a launch leaves each of its
  windows' arrays at what its write-backs folded and every other buffer as it found it. The run ends with every
  unscoped buffer at the fold's last value; in particular each argument array as launched, and the result at
  the last stretch's reshape of launch 1's output array.
-/
import proofs.«420308_j72095321030973_2_alg».proof.Proof.Gen.KernelIdeal.Launch
import proofs.«420308_j72095321030973_2_alg».proof.Proof.Gen.KernelIdeal.Skeleton
import proofs.«420308_j72095321030973_2_alg».proof.Proof.Gen.KernelIdeal.Points
import proofs.«420308_j72095321030973_2_alg».proof.Proof.Gen.KernelIdeal.Regions
import proofs.«420308_j72095321030973_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first stretch (launch 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At launch 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three stretches between the launches (launch 1's entry is `W5`). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- At launch 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the last stretch: the end. -/
abbrev W7 : Dev nD → Valuation τ sig (Elt F) := fun c => StableHlo.after hostOps2 (W6 m c)

/-! ### The arguments end as launched: no stretch writes one and no launch stages one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (r := main_arg0) (by decide)
    _ = W5 m c (Proc.devRef .tc main_arg0) := W6_of_ne m c main_arg0 (by decide)
    _ = W4 m c (Proc.devRef .tc main_arg0) := StableHlo.after_of_writes_sub hostOps1_2 _ hostOps1_2_writes (r := main_arg0) (by decide)
    _ = W3 m c (Proc.devRef .tc main_arg0) := StableHlo.after_of_writes_sub hostOps1_1 _ hostOps1_1_writes (r := main_arg0) (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (r := main_arg1) (by decide)
    _ = W5 m c (Proc.devRef .tc main_arg1) := W6_of_ne m c main_arg1 (by decide)
    _ = W4 m c (Proc.devRef .tc main_arg1) := StableHlo.after_of_writes_sub hostOps1_2 _ hostOps1_2_writes (r := main_arg1) (by decide)
    _ = W3 m c (Proc.devRef .tc main_arg1) := StableHlo.after_of_writes_sub hostOps1_1 _ hostOps1_1_writes (r := main_arg1) (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (r := main_arg2) (by decide)
    _ = W5 m c (Proc.devRef .tc main_arg2) := W6_of_ne m c main_arg2 (by decide)
    _ = W4 m c (Proc.devRef .tc main_arg2) := StableHlo.after_of_writes_sub hostOps1_2 _ hostOps1_2_writes (r := main_arg2) (by decide)
    _ = W3 m c (Proc.devRef .tc main_arg2) := StableHlo.after_of_writes_sub hostOps1_1 _ hostOps1_1_writes (r := main_arg2) (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (r := main_arg3) (by decide)
    _ = W5 m c (Proc.devRef .tc main_arg3) := W6_of_ne m c main_arg3 (by decide)
    _ = W4 m c (Proc.devRef .tc main_arg3) := StableHlo.after_of_writes_sub hostOps1_2 _ hostOps1_2_writes (r := main_arg3) (by decide)
    _ = W3 m c (Proc.devRef .tc main_arg3) := StableHlo.after_of_writes_sub hostOps1_1 _ hostOps1_1_writes (r := main_arg3) (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps2 _ hostOps2_writes (r := main_arg4) (by decide)
    _ = W5 m c (Proc.devRef .tc main_arg4) := W6_of_ne m c main_arg4 (by decide)
    _ = W4 m c (Proc.devRef .tc main_arg4) := StableHlo.after_of_writes_sub hostOps1_2 _ hostOps1_2_writes (r := main_arg4) (by decide)
    _ = W3 m c (Proc.devRef .tc main_arg4) := StableHlo.after_of_writes_sub hostOps1_1 _ hostOps1_1_writes (r := main_arg4) (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps2 _ hostOps2_writes (r := main_arg5) (by decide)
    _ = W5 m c (Proc.devRef .tc main_arg5) := W6_of_ne m c main_arg5 (by decide)
    _ = W4 m c (Proc.devRef .tc main_arg5) := StableHlo.after_of_writes_sub hostOps1_2 _ hostOps1_2_writes (r := main_arg5) (by decide)
    _ = W3 m c (Proc.devRef .tc main_arg5) := StableHlo.after_of_writes_sub hostOps1_1 _ hostOps1_1_writes (r := main_arg5) (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps2 _ hostOps2_writes (r := main_arg6) (by decide)
    _ = W5 m c (Proc.devRef .tc main_arg6) := W6_of_ne m c main_arg6 (by decide)
    _ = W4 m c (Proc.devRef .tc main_arg6) := StableHlo.after_of_writes_sub hostOps1_2 _ hostOps1_2_writes (r := main_arg6) (by decide)
    _ = W3 m c (Proc.devRef .tc main_arg6) := StableHlo.after_of_writes_sub hostOps1_1 _ hostOps1_1_writes (r := main_arg6) (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Both launches' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The launches as segments -/

section Launches

/-- The buffer contents a launch is entered from, as a family over the cores. -/
abbrev VT : Type := (c : Dev nD) → (b : Ref sig .tc) → Buf (Elt F) ((c : Thread nD τ).loc b)
/-- What the run takes of the two launches: each body's obligation at every point, and that launch 0's invariant after the last point gives back what the launch handed over. -/
abbrev HB0 : Prop :=
  ∀ (V : VT (F := F)) (c : Dev nD), BodyObligation (dat0 (F := F) V c) (defs₀ (F := F)) Variants.none () Set.univ
abbrev HOUT0 : Prop :=
  ∀ (V : VT (F := F)) (c : Dev nD), (dat0 V c).Φ (Fin.last cfg0.N) ⊢ (Pipeline.ΦA spec0 c : sProp 𝕄)
abbrev HB1 : Prop :=
  ∀ (V : VT (F := F)) (c : Dev nD), BodyObligation (dat1 (F := F) V c) (defs₀ (F := F)) Variants.none () Set.univ

set_option backward.isDefEq.respectTransparency.types false in
/-- LAUNCH 0 over the thread state: entered from every unscoped buffer at `W1`, left at `W2`. Its arrays are
    split out of the unscoped buffers and put back at the contents the write-backs leave; the generator register
    goes into the launch's invariant and comes back; nothing is owed; the kernel has no semaphore of its own. -/
def reg0 (hb0 : HB0 (F := F)) (hout0' : HOUT0 (F := F)) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0' (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered from every unscoped buffer at `W5`, left at `W6`. Its arrays are
    split out of the unscoped buffers and put back at the contents the write-backs leave; the generator register
    goes into the launch's invariant and comes back; nothing is owed; the kernel has no semaphore of its own. -/
def reg1 (hb1 : HB1 (F := F)) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hb0 : HB0 (F := F)) (hout0' : HOUT0 (F := F)) (hb1 : HB1 (F := F)) : List (Pipeline.Seg (pcfgs (F := F)) adm (pdats m) () defs₀ 𝒱₀ L lv) :=
  [ .host (hseg hostOps0 hostOps0_sub hostOps0_fresh (W0 m)),
    .region (reg0 m hb0 hout0'),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m hb1),
    .host (hseg hostOps2 hostOps2_sub hostOps2_fresh (W6 m)) ]

theorem main_run (hb0 : HB0 (F := F)) (hout0' : HOUT0 (F := F)) (hb1 : HB1 (F := F)) (c : Dev nD) : main (F := F) c = Pipeline.Seg.run (segs m hb0 hout0' hb1) := by
  rw [main_chain c, Pipeline.Seg.run_eq_chain]
  rfl

set_option backward.isDefEq.respectTransparency.types false in
/-- THE RUN: from any memory with zero counters every weakly fair execution of @main terminates, nothing faulting,
    and every final state has every unscoped buffer of the TensorCore at the fold's last value `W7`. -/
theorem run_main (hb0 : HB0 (F := F)) (hout0' : HOUT0 (F := F)) (hb1 : HB1 (F := F)) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m hb0 hout0' hb1)
    (fun c Q => by rw [main_run m hb0 hout0' hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME, and the result beside it: the run's post read at the seven argument arrays and at the result. -/
theorem run_args_result (hb0 : HB0 (F := F)) (hout0' : HOUT0 (F := F)) (hb1 : HB1 (F := F)) : θ_run defs (onTc (τ := τ) (main (F := F))) ⟨m, fun _ => 0, ρ⟩ (fun r => ∀ c : Dev nD,
      r.2.mem ((c.tc : Thread nD τ).loc main_v43) = W7 m c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v43 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c)⟩) (run_main m ρ hb0 hout0' hb1)

end Launches

end Cert.KernelIdeal.Hand

end
-- ==== Proof.KI.Body0.lean ====
/-
  The body obligation of the first launch (the 2 × 16 grid, point `t = 16 a + i`).

  The body has three control cases by the point's place in its row of the grid. At the first point of a row it
  resets the three accumulators and then adds the point's three partial sums to them; at a middle point it adds
  them; at the last point it adds them and copies the accumulators, re-laid as [1, ·, ·] blocks, into the three
  outputs' buffers. For each case the body's run is stated over whole memrefs, with the pieces its stores leave
  in each buffer; the pieces cover their buffers, and read back they are the accumulation's step (`stepAcc`)
  of the point's four input blocks, applied to zero where the point opens a row and to what the point before
  left elsewhere. So the invariant `PhiS0` is carried from each point to the next, the inputs' buffers are left
  at their blocks, and the outputs' buffers are handed back untouched off the last point of a row (where they
  are idle and not written back) and hold the re-laid accumulators at it.
-/
import proofs.«420308_j72095321030973_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace B0

/-! ## The two conditions of the body, over the grid -/

/-- The first condition of the body (the point opens a row of the grid), from the coordinates. -/
abbrev cond0_0 (i : grid0.Coords) : Prop :=
  (Scalar.cmpi .ne (Scalar.extui (Scalar.cmpi .eq (BitVec.ofNat 32 (i 1).val) 0#32)) 0#32) = 1#1

/-- It holds exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second condition of the body (the point closes a row of the grid), from the coordinates. -/
abbrev cond0_1 (i : grid0.Coords) : Prop := k0_cond2 i = 1#1

/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Off the last point of a row the three outputs are idle and not written back; at it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## What the launch hands over, with the accumulators as memrefs -/

/-- The launch's invariant is the three accumulators each at some contents, the other scoped buffers at anything
    and the generator register at some state. -/
theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ others0 c) ∗ (∃ r, prngReg c r)) := by
  unfold Pipeline.ΦA others0; rw [scopedRest0_eq]; simp only [scM0, scM1, scM2, owns_whole]; try rfl

section
variable (V : (c : Dev nD) → (b : Ref sig .tc) → Buf (Elt F) ((c : Thread nD τ).loc b))

/-! ## What the body finds in the inputs' buffers -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

end

/-! ## The body's run, case by case -/

set_option maxHeartbeats 1000000 in
/-- THE FIRST POINT OF A ROW (first condition holds, second fails): on whole memrefs, the inputs at their blocks and
    the accumulators at anything, the body runs to the continuation holding the inputs as they were and each
    accumulator with the pieces its stores wrote (last first): the reset, then the update. The outputs are untouched. -/
noncomputable def kernelRun0_A (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1024x3x256 .f32) (x1 : Vec F S1024x1 .i32) (x2 : Vec F S1024x1 .f32) (x3 : Vec F S1024x256 .f32) :
    Σ' (LS0 : List (View.Piece (Elt F) S1024x1 .f32)) (LS1 : List (View.Piece (Elt F) S1024x256 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 1000000 in
/-- A MIDDLE POINT OF A ROW (both conditions fail): the accumulators at what the point before left; each is
    loaded and stored once, the update. The outputs are untouched. -/
noncomputable def kernelRun0_B (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    Σ' (LS0 : List (View.Piece (Elt F) S1024x1 .f32)) (LS1 : List (View.Piece (Elt F) S1024x256 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 1000000 in
/-- THE LAST POINT OF A ROW (first condition fails, second holds): the accumulators at what the point before left,
    the outputs at anything; each accumulator is updated, then read back and stored, re-laid, into its output. -/
noncomputable def kernelRun0_C (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    Σ' (L4 : List (View.Piece (Elt F) S1x1024x1 .f32)) (L5 : List (View.Piece (Elt F) S1x1024x256 .f32)) (L6 : List (View.Piece (Elt F) S1x1024x256 .f32))
       (LS0 : List (View.Piece (Elt F) S1024x1 .f32)) (LS1 : List (View.Piece (Elt F) S1024x256 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

/-! ## What the runs' pieces are -/

theorem hz2 : (![0, 0] : Fin 2 → Nat) = fun _ => 0 := funext fun a => by fin_cases a <;> rfl
theorem hz3 : (![0, 0, 0] : Fin 3 → Nat) = fun _ => 0 := funext fun a => by fin_cases a <;> rfl

theorem scoverA_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).1 S1024x1.size (by sl_kernel_rfl) y

theorem scoverA_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) (y : S1024x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.1 S1024x256.size (by sl_kernel_rfl) y

theorem scoverA_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) (y : S1024x256.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S1024x256.size (by sl_kernel_rfl) y

theorem canonA_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) :
    View.canon (kernelRun0_A c i arg2 harg2 arg3 harg3 arg4 harg4 arg5 harg5 arg6 harg6 arg7 harg7 arg8 harg8 arg9 harg9 arg10 harg10 arg11 harg11 hc0 hc1 x0 x1 x2 x3).1 = k0_pay1 (k0_pay15 x1 x2 k0_pay7) := by
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonA_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) :
    View.canon (kernelRun0_A c i arg2 harg2 arg3 harg3 arg4 harg4 arg5 harg5 arg6 harg6 arg7 harg7 arg8 harg8 arg9 harg9 arg10 harg10 arg11 harg11 hc0 hc1 x0 x1 x2 x3).2.1 = k0_pay2 (k0_pay13 x0 x1 x2 x3) k0_pay8 := by
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonA_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x3x256 .f32) (x1 : Vec F S1024x1 .i32) (x2 : Vec F S1024x1 .f32) (x3 : Vec F S1024x256 .f32) :
    View.canon (kernelRun0_A c i arg2 harg2 arg3 harg3 arg4 harg4 arg5 harg5 arg6 harg6 arg7 harg7 arg8 harg8 arg9 harg9 arg10 harg10 arg11 harg11 hc0 hc1 x0 x1 x2 x3).2.2.1 = k0_pay3 (k0_pay14 x0 x1 x2 x3) k0_pay9 := by
  unfold kernelRun0_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem scoverB_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y

theorem scoverB_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1 S1024x256.size (by sl_kernel_rfl) y

theorem scoverB_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1 S1024x256.size (by sl_kernel_rfl) y

theorem canonB_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_B c i arg2 harg2 arg3 harg3 arg4 harg4 arg5 harg5 arg6 harg6 arg7 harg7 arg8 harg8 arg9 harg9 arg10 harg10 arg11 harg11 hc0 hc1 x0 x1 x2 x3 xs0 xs1 xs2).1 = k0_pay1 (k0_pay15 x1 x2 xs0) := by
  unfold kernelRun0_B
  dsimp only
  sl_unfold_words
  rw [View.canon_unit_zero (S := S1024x1) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonB_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1 = k0_pay2 (k0_pay13 x0 x1 x2 x3) xs1 := by
  unfold kernelRun0_B
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonB_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1 = k0_pay3 (k0_pay14 x0 x1 x2 x3) xs2 := by
  unfold kernelRun0_B
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem coverC_4 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1x1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 S1x1024x1.size (by sl_kernel_rfl) y

theorem coverC_5 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1x1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 S1x1024x256.size (by sl_kernel_rfl) y

theorem coverC_6 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1x1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 S1x1024x256.size (by sl_kernel_rfl) y

theorem scoverC_0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y

theorem scoverC_1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x256.size (by sl_kernel_rfl) y

theorem scoverC_2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) (y : S1024x256.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x256.size (by sl_kernel_rfl) y

theorem canonC_4 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).1 = k0_pay4 (k0_pay1 (k0_pay15 x1 x2 xs0)) := by
  unfold kernelRun0_C
  dsimp only
  sl_unfold_words
  rw [View.canon_unit_zero (S := S1x1024x1) hz3]
  simp only [View.readCov_unit_zero (S := S1024x1) _ hz2, View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_5 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1 = k0_pay5 (k0_pay2 (k0_pay13 x0 x1 x2 x3) xs1) := by
  unfold kernelRun0_C
  dsimp only
  sl_unfold_words
  rw [View.canon_unit_zero (S := S1x1024x256) hz3]
  simp only [View.readCov_unit_zero (S := S1024x256) _ hz2, View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_6 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1 = k0_pay6 (k0_pay3 (k0_pay14 x0 x1 x2 x3) xs2) := by
  unfold kernelRun0_C
  dsimp only
  sl_unfold_words
  rw [View.canon_unit_zero (S := S1x1024x256) hz3]
  simp only [View.readCov_unit_zero (S := S1024x256) _ hz2, View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_S0 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1 = k0_pay1 (k0_pay15 x1 x2 xs0) := by
  unfold kernelRun0_C
  dsimp only
  sl_unfold_words
  rw [View.canon_unit_zero (S := S1024x1) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_S1 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 = k0_pay2 (k0_pay13 x0 x1 x2 x3) xs1 := by
  unfold kernelRun0_C
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

theorem canonC_S2 (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x3x256 .f32) (x1 : Vec F S1024x1 .i32) (x2 : Vec F S1024x1 .f32) (x3 : Vec F S1024x256 .f32) (xs0 : Vec F S1024x1 .f32) (xs1 : Vec F S1024x256 .f32) (xs2 : Vec F S1024x256 .f32) :
    View.canon (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 = k0_pay3 (k0_pay14 x0 x1 x2 x3) xs2 := by
  unfold kernelRun0_C
  dsimp only
  sl_unfold_words
  rw [View.canon_unit_zero (S := S1024x256) hz2]
  simp only [View.readAt_eq_ld, harg2.read_unread, harg3.read_unread, harg4.read_unread, harg5.read_unread, harg9.read_unread, harg10.read_unread, harg11.read_unread, View.ld_unit_zero (S := S1024x1) hz2, View.ld_unit_zero (S := S1024x256) hz2, View.ld_unit_zero (S := S1024x3x256) hz3]

/-! ## The body's triple per case, with the contents named -/

/-- At the first point of a row the body leaves each accumulator at the update of the reset. -/
theorem tripleA (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1024x3x256 .f32) (x1 : Vec F S1024x1 .i32) (x2 : Vec F S1024x1 .f32) (x3 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg9 fullShare (stepAcc x0 x1 x2 x3 zeroAcc).1
            ∗ owns (c : Thread nD τ) arg10 fullShare (stepAcc x0 x1 x2 x3 zeroAcc).2.1
            ∗ owns (c : Thread nD τ) arg11 fullShare (stepAcc x0 x1 x2 x3 zeroAcc).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K := by
  iintro ⟨H0, H1, H2, H3, HS0, HS1, HS2, Hk⟩
  iapply ((kernelRun0_A c i arg2 harg2 arg3 harg3 arg4 harg4 arg5 harg5 arg6 harg6 arg7 harg7 arg8 harg8 arg9 harg9 arg10 harg10 arg11 harg11 hc0 hc1 x0 x1 x2 x3).2.2.2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scoverA_0 c i arg2 harg2 arg3 harg3 arg4 harg4 arg5 harg5 arg6 harg6 arg7 harg7 arg8 harg8 arg9 harg9 arg10 harg10 arg11 harg11 hc0 hc1 x0 x1 x2 x3)).trans (canonA_0 c i arg2 harg2 arg3 harg3 arg4 harg4 arg5 harg5 arg6 harg6 arg7 harg7 arg8 harg8 arg9 harg9 arg10 harg10 arg11 harg11 hc0 hc1 x0 x1 x2 x3)
  isplitl [HS1]
  · unfold owns; iexists _; isplitr
    swap; · iexact HS1
    ipureintro; exact (View.read_writes_eq_canon _ _ _ (scoverA_1 c i arg2 harg2 arg3 harg3 arg4 harg4 arg5 harg5 arg6 harg6 arg7 harg7 arg8 harg8 arg9 harg9 arg10 harg10 arg11 harg11 hc0 hc1 x0 x1 x2 x3)).trans (canonA_1 c i arg2 harg2 arg3 harg3 arg4 harg4 arg5 harg5 arg6 harg6 arg7 harg7 arg8 harg8 arg9 harg9 arg10 harg10 arg11 harg11 hc0 hc1 x0 x1 x2 x3)
  unfold owns; iexists _; isplitr
  swap; · iexact HS2
  ipureintro; exact (View.read_writes_eq_canon _ _ _ (scoverA_2 c i arg2 harg2 arg3 harg3 arg4 harg4 arg5 harg5 arg6 harg6 arg7 harg7 arg8 harg8 arg9 harg9 arg10 harg10 arg11 harg11 hc0 hc1 x0 x1 x2 x3)).trans (canonA_2 c i arg2 harg2 arg3 harg3 arg4 harg4 arg5 harg5 arg6 harg6 arg7 harg7 arg8 harg8 arg9 harg9 arg10 harg10 arg11 harg11 hc0 hc1 x0 x1 x2 x3)

/-- At a middle point of a row the body leaves each accumulator at the update of what it held. -/
theorem tripleB (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1024x3x256 .f32) (x1 : Vec F S1024x1 .i32) (x2 : Vec F S1024x1 .f32) (x3 : Vec F S1024x256 .f32) (s : Acc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg9 fullShare (stepAcc x0 x1 x2 x3 s).1
            ∗ owns (c : Thread nD τ) arg10 fullShare (stepAcc x0 x1 x2 x3 s).2.1
            ∗ owns (c : Thread nD τ) arg11 fullShare (stepAcc x0 x1 x2 x3 s).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K := by
  iintro ⟨H0, H1, H2, H3, HS0, HS1, HS2, Hk⟩
  iapply ((kernelRun0_B c i arg2 harg2 arg3 harg3 arg4 harg4 arg5 harg5 arg6 harg6 arg7 harg7 arg8 harg8 arg9 harg9 arg10 harg10 arg11 harg11 hc0 hc1 x0 x1 x2 x3 s.1 s.2.1 s.2.2).2.2.2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scoverB_0 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonB_0 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [HS1]
  · unfold owns; iexists _; isplitr
    swap; · iexact HS1
    ipureintro; exact (View.read_writes_eq_canon _ _ _ (scoverB_1 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonB_1 c i arg2 harg2 arg3 harg3 arg4 harg4 arg5 harg5 arg6 harg6 arg7 harg7 arg8 harg8 arg9 harg9 arg10 harg10 arg11 harg11 hc0 hc1 x0 x1 x2 x3 s.1 s.2.1 s.2.2)
  unfold owns; iexists _; isplitr
  swap; · iexact HS2
  ipureintro; exact (View.read_writes_eq_canon _ _ _ (scoverB_2 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonB_2 c i arg2 harg2 arg3 harg3 arg4 harg4 arg5 harg5 arg6 harg6 arg7 harg7 arg8 harg8 arg9 harg9 arg10 harg10 arg11 harg11 hc0 hc1 x0 x1 x2 x3 s.1 s.2.1 s.2.2)

/-- At the last point of a row the body leaves each accumulator at the update of what it held, and each output
    at that, re-laid as its block. -/
theorem tripleC (c : Dev nD) (i : grid0.Coords) (arg2 : Memref sig .tc .vmem S1024x3x256 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x256 .f32) (harg5 : arg5.IsWhole) (arg6 : Memref sig .tc .vmem S1x1024x1 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1024x3x256 .f32) (x1 : Vec F S1024x1 .i32) (x2 : Vec F S1024x1 .f32) (x3 : Vec F S1024x256 .f32) (s : Acc F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (stepAcc x0 x1 x2 x3 s).1)
            ∗ owns (c : Thread nD τ) arg7 fullShare (k0_pay5 (stepAcc x0 x1 x2 x3 s).2.1)
            ∗ owns (c : Thread nD τ) arg8 fullShare (k0_pay6 (stepAcc x0 x1 x2 x3 s).2.2)
            ∗ owns (c : Thread nD τ) arg9 fullShare (stepAcc x0 x1 x2 x3 s).1
            ∗ owns (c : Thread nD τ) arg10 fullShare (stepAcc x0 x1 x2 x3 s).2.1
            ∗ owns (c : Thread nD τ) arg11 fullShare (stepAcc x0 x1 x2 x3 s).2.2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K := by
  iintro ⟨H0, H1, H2, H3, H4, H5, H6, HS0, HS1, HS2, Hk⟩
  iapply ((kernelRun0_C c i arg2 harg2 arg3 harg3 arg4 harg4 arg5 harg5 arg6 harg6 arg7 harg7 arg8 harg8 arg9 harg9 arg10 harg10 arg11 harg11 hc0 hc1 x0 x1 x2 x3 s.1 s.2.1 s.2.2).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, ⟨%e4, H4⟩, ⟨%e5, H5⟩, ⟨%e6, H6⟩, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (coverC_4 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_4 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [H5]
  · unfold owns; iexists _; isplitr
    swap; · iexact H5
    ipureintro; exact (View.read_writes_eq_canon _ _ _ (coverC_5 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_5 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [H6]
  · unfold owns; iexists _; isplitr
    swap; · iexact H6
    ipureintro; exact (View.read_writes_eq_canon _ _ _ (coverC_6 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_6 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [HS0]
  · unfold owns; iexists _; isplitr
    swap; · iexact HS0
    ipureintro; exact (View.read_writes_eq_canon _ _ _ (scoverC_0 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_S0 c i arg2 harg2 arg3 harg3 arg4 harg4 arg5 harg5 arg6 harg6 arg7 harg7 arg8 harg8 arg9 harg9 arg10 harg10 arg11 harg11 hc0 hc1 x0 x1 x2 x3 s.1 s.2.1 s.2.2)
  isplitl [HS1]
  · unfold owns; iexists _; isplitr
    swap; · iexact HS1
    ipureintro; exact (View.read_writes_eq_canon _ _ _ (scoverC_1 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_S1 c i arg2 harg2 arg3 harg3 arg4 harg4 arg5 harg5 arg6 harg6 arg7 harg7 arg8 harg8 arg9 harg9 arg10 harg10 arg11 harg11 hc0 hc1 x0 x1 x2 x3 s.1 s.2.1 s.2.2)
  unfold owns; iexists _; isplitr
  swap; · iexact HS2
  ipureintro; exact (View.read_writes_eq_canon _ _ _ (scoverC_2 c i arg2 harg2 arg3 harg3 arg4 harg4 arg5 harg5 arg6 harg6 arg7 harg7 arg8 harg8 arg9 harg9 arg10 harg10 arg11 harg11 hc0 hc1 x0 x1 x2 x3 s.1 s.2.1 s.2.2)).trans (canonC_S2 c i arg2 harg2 arg3 harg3 arg4 harg4 arg5 harg5 arg6 harg6 arg7 harg7 arg8 harg8 arg9 harg9 arg10 harg10 arg11 harg11 hc0 hc1 x0 x1 x2 x3 s.1 s.2.1 s.2.2)

section
variable (V : (c : Dev nD) → (b : Ref sig .tc) → Buf (Elt F) ((c : Thread nD τ).loc b))

/-! ## The body obligation -/

/-- Each window's current staging memref at point `t`, and its wholeness. -/
abbrev ms0_0 (t : Fin cfg0.N) : Memref sig .tc .vmem S1024x3x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .f32 := win0_6.stage (cfg0.slots t 6)
abbrev hs0_6 (t : Fin cfg0.N) : (ms0_6 t).IsWhole := hstage0_6 ((cfg0.slots t 6).cast nbuf0_6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
/-- The body at any point. The inputs' buffers hold their blocks; the point's residue mod 16 says which case it is
    in; the invariant hands the body the accumulators at what the point before left (at anything at the very first
    point), and takes them back at this point's contents: the update of zero where the point opens a row, of
    what the point before left elsewhere. The outputs are handed back untouched off the last point of a row, and
    hold the accumulators re-laid at it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · have h1 : ¬t.val % 16 = 15 := by omega
    rw [Dat.leavesExact_idle (dat0 V c) 4 t (idleAt0_4 t (fun h => h1 ((hcond0_1 t).mp h))) (noFlush0_4 t (fun h => h1 ((hcond0_1 t).mp h))),
      Dat.leavesExact_idle (dat0 V c) 5 t (idleAt0_5 t (fun h => h1 ((hcond0_1 t).mp h))) (noFlush0_5 t (fun h => h1 ((hcond0_1 t).mp h))),
      Dat.leavesExact_idle (dat0 V c) 6 t (idleAt0_6 t (fun h => h1 ((hcond0_1 t).mp h))) (noFlush0_6 t (fun h => h1 ((hcond0_1 t).mp h)))]
    rw [accAt0_reset V c t h0]
    by_cases hz : t.val = 0
    · rw [PhiS0_castSucc V c t, PhiS0_zero V c _ _ hz, PhiA0_eq]
      iintro ⟨⟨⟨HS0, HS1, HS2, Hoth⟩, Hg⟩, Ho, ⟨%d0, H0⟩, ⟨%d1, H1⟩, ⟨%d2, H2⟩, ⟨%d3, H3⟩, H4, H5, H6⟩
      iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) ((hcond0_0 t).mpr h0) (fun h => h1 ((hcond0_1 t).mp h)) (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS0_castSucc V c t, PhiS0_pos V c _ _ hz]
      iintro ⟨⟨HS0, HS1, HS2, Hoth, Hg⟩, Ho, ⟨%d0, H0⟩, ⟨%d1, H1⟩, ⟨%d2, H2⟩, ⟨%d3, H3⟩, H4, H5, H6⟩
      iapply (tripleA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) ((hcond0_0 t).mpr h0) (fun h => h1 ((hcond0_1 t).mp h)) (iblk0 V c 0 t) (iblk0 V c 1 t) (iblk0 V c 2 t) (iblk0 V c 3 t) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun e => h0 (by rw [e])
    rw [accAt0_carry V c t h0]
    by_cases h1 : t.val % 16 = 15
    · rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [accAt0_carry V c t h0]
      rw [PhiS0_castSucc V c t, PhiS0_pos V c _ _ hz]
      iintro ⟨⟨HS0, HS1, HS2, Hoth, Hg⟩, Ho, ⟨%d0, H0⟩, ⟨%d1, H1⟩, ⟨%d2, H2⟩, ⟨%d3, H3⟩, ⟨%d4, H4⟩, ⟨%d5, H5⟩, ⟨%d6, H6⟩⟩
      iapply (tripleC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 4 t (idleAt0_4 t (fun h => h1 ((hcond0_1 t).mp h))) (noFlush0_4 t (fun h => h1 ((hcond0_1 t).mp h))),
        Dat.leavesExact_idle (dat0 V c) 5 t (idleAt0_5 t (fun h => h1 ((hcond0_1 t).mp h))) (noFlush0_5 t (fun h => h1 ((hcond0_1 t).mp h))),
        Dat.leavesExact_idle (dat0 V c) 6 t (idleAt0_6 t (fun h => h1 ((hcond0_1 t).mp h))) (noFlush0_6 t (fun h => h1 ((hcond0_1 t).mp h)))]
      rw [PhiS0_castSucc V c t, PhiS0_pos V c _ _ hz]
      iintro ⟨⟨HS0, HS1, HS2, Hoth, Hg⟩, Ho, ⟨%d0, H0⟩, ⟨%d1, H1⟩, ⟨%d2, H2⟩, ⟨%d3, H3⟩, H4, H5, H6⟩
      iapply (tripleB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) scM2 (Memref.isWhole_whole _) (fun h => h0 ((hcond0_0 t).mp h)) (fun h => h1 ((hcond0_1 t).mp h)) (iblk0 V c 0 t) (iblk0 V c 1 t) (iblk0 V c 2 t) (iblk0 V c 3 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, HS1, HS2, Hoth, Hg⟩
  isplitl [HS0 HS1 HS2 Hoth]
  · isplitl [HS0]; · iexists _; iexact HS0
    isplitl [HS1]; · iexists _; iexact HS1
    isplitl [HS2]; · iexists _; iexact HS2
    iexact Hoth
  iexact Hg

end

end B0

section
variable (V : (c : Dev nD) → (b : Ref sig .tc) → Buf (Elt F) ((c : Thread nD τ).loc b))

/-! ## The obligation and the invariant's two ends -/

/-- The body obligation of launch 0, at every point. -/
theorem body_obligation0 (c : Dev nD) : BodyObligation (dat0 (F := F) V c) (defs₀ (F := F)) Variants.none () Set.univ := fun t => by
  rw [bigSep_W0, bigSep_W0]
  exact B0.sound_body0 V c t

/-- What the launch hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over. -/
theorem hout0 (c : Dev nD) : (dat0 V c).Φ (Fin.last cfg0.N) ⊢ Pipeline.ΦA spec0 c :=
  B0.Phi_out0 V c _ (by rw [Fin.val_last]; have : cfg0.N = 32 := N_0; omega)

end

end Cert.KernelIdeal.Hand

end
-- ==== Proof.KI.Body1.lean ====
/-
  The body of launch 1 at every point of its grid.

  Each of the seven input windows' staging buffers holds, when the body is entered, the window's block at the
  point: fetched there, or left in place since the point where it was fetched, the block's index not having moved
  in between (the four tables have a constant index, so they are fetched once). The body reads the seven buffers
  whole and writes the output's buffer whole, once; a whole write leaves its payload, and a whole read of a buffer
  is its contents, so the output's buffer ends at `val1` of the seven blocks. The invariant and what the core
  owes are not touched.
-/
import proofs.«420308_j72095321030973_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What an input window's buffer holds when the body is entered

For any proof data whose array for the window is `V`'s and whose body leaves the window's block in place, the
window's current buffer holds the block at the point, at every point: where the window is not fetched its index
is the previous point's, and so is its block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The same of launch 1's own proof data. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The whole buffers as rectangles -/

/-- The offsets of a whole-buffer rectangle are all zero. -/
theorem zeros3 : (![0, 0, 0] : Fin 3 → ℕ) = fun _ => 0 := funext fun a => by fin_cases a <;> rfl
theorem zeros2 : (![0, 0] : Fin 2 → ℕ) = fun _ => 0 := funext fun a => by fin_cases a <;> rfl

/-- A whole column block and a whole table block as one rectangle each (`r1` is the whole token block). -/
abbrev rCol : Rect S1024x1 := Rect.unit (s := S1024x1) ![0, 0] S1024x1.size inb_S1024x1_S1024x1_0_0
abbrev rTab : Rect S1024x256 := Rect.unit (s := S1024x256) ![0, 0] S1024x256.size inb_S1024x256_S1024x256_0_0

/-! ## What the body leaves in the output's buffer -/

/-- The output's buffer after the body, as its one write laid over whatever was there: the payload is the
    body's arithmetic on what the seven reads return. -/
def out1 (x0 : Vec F S1024x3x256 .f32) (x1 : Vec F S1024x1 .i32) (x2 : Vec F S1024x1 .f32) (x3 : Vec F S1024x256 .bf16) (x4 : Vec F S1024x256 .bf16) (x5 : Vec F S1024x256 .bf16) (x6 : Vec F S1024x256 .bf16) : Vec F S1024x3x256 .f32 :=
  View.canon [⟨r1, k1_pay1 (k1_pay2 (View.ld x0 r1) (View.ld x1 rCol) (View.ld x3 rTab) (View.ld x4 rTab) (View.ld x5 rTab) (View.ld x6 rTab)) (k1_pay3 (View.ld x2 rCol))⟩]

/-- The one write covers the buffer: every index lies in the whole rectangle. -/
theorem cover1 (p0 : Vec F S1024x3x256 .f32) (y : S1024x3x256.Idx) :
    ∃ pc ∈ ([⟨r1, p0⟩] : List (View.Piece (Elt F) S1024x3x256 .f32)), y ∈ pc.1.set :=
  View.cover_of_tiled [⟨r1, p0⟩] S1024x3x256.size (by rfl) y

/-- One whole write leaves its payload, and a whole read returns the contents: the buffer ends at `val1`. -/
theorem out1_eq (x0 : Vec F S1024x3x256 .f32) (x1 : Vec F S1024x1 .i32) (x2 : Vec F S1024x1 .f32) (x3 : Vec F S1024x256 .bf16) (x4 : Vec F S1024x256 .bf16) (x5 : Vec F S1024x256 .bf16) (x6 : Vec F S1024x256 .bf16) : out1 x0 x1 x2 x3 x4 x5 x6 = val1 x0 x1 x2 x3 x4 x5 x6 := by
  unfold out1 val1
  rw [View.canon_unit_zero zeros3]
  simp only [View.ld_unit_zero (S := S1024x3x256) zeros3, View.ld_unit_zero (S := S1024x1) zeros2,
    View.ld_unit_zero (S := S1024x256) zeros2]

/-! ## The body's triple -/

set_option maxHeartbeats 1000000 in
/-- The body on whole staging memrefs, the inputs' at contents `x0 … x6` and the output's at anything, runs to
    the continuation holding the inputs' as they were and the output's at `val1` of them. -/
theorem sound_kernel1 (c : Dev nD) (E : Set ℕ) (i : grid1.Coords)
    (arg1 : Memref sig .tc .vmem S1024x3x256 .f32) (harg1 : arg1.IsWhole)
    (arg2 : Memref sig .tc .vmem S1024x1 .i32) (harg2 : arg2.IsWhole)
    (arg3 : Memref sig .tc .vmem S1024x1 .f32) (harg3 : arg3.IsWhole)
    (arg4 : Memref sig .tc .vmem S1024x256 .bf16) (harg4 : arg4.IsWhole)
    (arg5 : Memref sig .tc .vmem S1024x256 .bf16) (harg5 : arg5.IsWhole)
    (arg6 : Memref sig .tc .vmem S1024x256 .bf16) (harg6 : arg6.IsWhole)
    (arg7 : Memref sig .tc .vmem S1024x256 .bf16) (harg7 : arg7.IsWhole)
    (arg8 : Memref sig .tc .vmem S1024x3x256 .f32) (harg8 : arg8.IsWhole)
    (x0 : Vec F S1024x3x256 .f32) (x1 : Vec F S1024x1 .i32) (x2 : Vec F S1024x1 .f32) (x3 : Vec F S1024x256 .bf16) (x4 : Vec F S1024x256 .bf16) (x5 : Vec F S1024x256 .bf16) (x6 : Vec F S1024x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (val1 x0 x1 x2 x3 x4 x5 x6)) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover1 _)).trans ?_
  exact out1_eq (F := F) _ _ _ _ _ _ _

/-! ## The body obligation, at a generic point -/

/-- What the body is called with at point `t`: the invariant, what the core owes, and each window's current
    buffer at what it holds there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of launch 1, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Spec.lean ====
/-
  Per-position running statistics of image patches, and the patches normalized by them: the two arrangements
  of one computation.

  Each of 32768 tokens carries three channels of 256 values, a grid position `p t` among 1024 and a weight
  `w t` that is 0 (padding) or 1. Per position `s` and value index `j` the statistics are updated by the
  tokens at `s` (Welford's update): the count `n`, the mean, and the sum of squared deviations `m2`;
  the output is each token's value less its position's new mean, over the new standard deviation plus a
  small constant, times the weight.

  ARRANGEMENT K subtracts the old mean from the channel mean, accumulates per position the weighted
  deviations and their squares, and derives the new mean and `m2` from those two sums alone
  (`m2 += Σδ² − (Σδ/n)·Σδ`); it looks a table up as `x + (x − x)` and divides as a product with `1 / ·`.
  ARRANGEMENT R is the textbook form: the mean of the channel deviations, the new mean as the sum of
  `δ / n`, a second deviation against the new mean, `m2 += Σ δ·δ₂`, a plain lookup and a plain quotient.
-/
import Idealize.ShloMosaic.Lib.ValueIdx
import Idealize.ShloMosaic.PureOps.Ideal

noncomputable section

namespace Cert.PatchStats

open Idealize.ShloMosaic Idealize.ShloMosaic.ValueIdx

/-- The literals both arrangements carry, as the words the programs print. -/
abbrev c0 : EReal := Ideal.ofBits .f32 0x00000000#32
abbrev c1 : EReal := Ideal.ofBits .f32 0x3F800000#32
abbrev c2 : EReal := Ideal.ofBits .f32 0x40000000#32
abbrev c3 : EReal := Ideal.ofBits .f32 0x40400000#32
abbrev ceps : EReal := Ideal.ofBits .f32 0x358637BD#32

/-! ## The inputs as the two programs index them -/

/-- Token `t` is row `t / 1024`, column `t % 1024` of the [32, 1024] token arrays. -/
def tokB (t : Fin 32768) : Fin 32 := ⟨t.val / 1024, by omega⟩
def tokS (t : Fin 32768) : Fin 1024 := ⟨t.val % 1024, by omega⟩
/-- Position `s` is row `s / 32`, column `s % 32` of the [32, 32] grid. -/
def gridH (s : Fin 1024) : Fin 32 := ⟨s.val / 32, by omega⟩
def gridW (s : Fin 1024) : Fin 32 := ⟨s.val % 32, by omega⟩
/-- Channel `c`, value `j` of a token is feature `256 c + j` of its 768. -/
def feat (c : Fin 3) (j : Fin 256) : Fin 768 := ⟨c.val * 256 + j.val, by omega⟩

def Xof (a0 : (⟨3, ![32, 1024, 768]⟩ : Shape).Idx → EReal) (t : Fin 32768) (c : Fin 3) (j : Fin 256) : EReal :=
  a0 (ix3 (tokB t) (tokS t) (feat c j))
/-- The flat position word: row word times 32 plus column word, in 32-bit arithmetic. -/
def pfwOf (a1 a2 : (⟨2, ![32, 1024]⟩ : Shape).Idx → BitVec 32) (t : Fin 32768) : BitVec 32 :=
  a1 (ix2 (tokB t) (tokS t)) * 32#32 + a2 (ix2 (tokB t) (tokS t))
/-- The weight: the negated padding bit read as a number. -/
def wOf (a3 : (⟨2, ![32, 1024]⟩ : Shape).Idx → BitVec 1) (t : Fin 32768) : EReal :=
  (((~~~ (a3 (ix2 (tokB t) (tokS t)))).toNat : ℝ) : EReal)
def n0Of (a4 : (⟨2, ![32, 32]⟩ : Shape).Idx → EReal) (s : Fin 1024) : EReal := a4 (ix2 (gridH s) (gridW s))
def tabOf (a : (⟨3, ![32, 32, 256]⟩ : Shape).Idx → EReal) (s : Fin 1024) (j : Fin 256) : EReal :=
  a (ix3 (gridH s) (gridW s) j)

section
variable (X : Fin 32768 → Fin 3 → Fin 256 → EReal) (p : Fin 32768 → Fin 1024) (w : Fin 32768 → EReal)
  (n0 : Fin 1024 → EReal) (mean m2 : Fin 1024 → Fin 256 → EReal)

/-! ## What both arrangements share -/

/-- The weights of the tokens at position `s`. -/
def counts (s : Fin 1024) : EReal := ∑ t, if p t = s then w t else 0
def nNew (s : Fin 1024) : EReal := n0 s + counts p w s
/-- The divisor: the new count, at least one. -/
def nG (s : Fin 1024) : EReal := max (nNew p w n0 s) c1
/-- The variance from a table of squared deviations: one where fewer than two tokens were counted. -/
def varOf (m2New : Fin 1024 → Fin 256 → EReal) (s : Fin 1024) (j : Fin 256) : EReal :=
  if nNew p w n0 s < c2 then c1 else Ideal.div (m2New s j) (nG p w n0 s)

/-! ## Arrangement K -/

def xmK (t : Fin 32768) (j : Fin 256) : EReal := Ideal.div (X t 0 j + X t 1 j + X t 2 j) c3
def deltaK (t : Fin 32768) (j : Fin 256) : EReal := (xmK X t j - mean (p t) j) * w t
def dsumK (s : Fin 1024) (j : Fin 256) : EReal := ∑ t, if p t = s then deltaK X p w mean t j else 0
def sqsumK (s : Fin 1024) (j : Fin 256) : EReal :=
  ∑ t, if p t = s then deltaK X p w mean t j * deltaK X p w mean t j else 0
def mdiffK (s : Fin 1024) (j : Fin 256) : EReal := Ideal.div (dsumK X p w mean s j) (nG p w n0 s)
def meanNewK (s : Fin 1024) (j : Fin 256) : EReal := mean s j + mdiffK X p w n0 mean s j
def m2NewK (s : Fin 1024) (j : Fin 256) : EReal :=
  m2 s j + (sqsumK X p w mean s j - mdiffK X p w n0 mean s j * dsumK X p w mean s j)
def stdK (s : Fin 1024) (j : Fin 256) : EReal := Ideal.sqrt (varOf p w n0 (m2NewK X p w n0 mean m2) s j)
/-- A table entry recombined from itself and its own residual. -/
def recomb (x : EReal) : EReal := x + (x - x)
def outK (t : Fin 32768) (c : Fin 3) (j : Fin 256) : EReal :=
  (X t c j - recomb (meanNewK X p w n0 mean (p t) j))
    * Ideal.div c1 (recomb (stdK X p w n0 mean m2 (p t) j) + ceps) * w t

/-! ## Arrangement R -/

def deltaR (t : Fin 32768) (j : Fin 256) : EReal :=
  Ideal.div ((X t 0 j - mean (p t) j) + (X t 1 j - mean (p t) j) + (X t 2 j - mean (p t) j)) c3 * w t
def meanNewR (s : Fin 1024) (j : Fin 256) : EReal :=
  mean s j + ∑ t, if p t = s then Ideal.div (deltaR X p w mean t j) (nG p w n0 (p t)) else 0
def delta2R (t : Fin 32768) (j : Fin 256) : EReal :=
  Ideal.div ((X t 0 j - meanNewR X p w n0 mean (p t) j) + (X t 1 j - meanNewR X p w n0 mean (p t) j)
    + (X t 2 j - meanNewR X p w n0 mean (p t) j)) c3 * w t
def m2NewR (s : Fin 1024) (j : Fin 256) : EReal :=
  m2 s j + ∑ t, if p t = s then deltaR X p w mean t j * delta2R X p w n0 mean t j else 0
def stdR (s : Fin 1024) (j : Fin 256) : EReal := Ideal.sqrt (varOf p w n0 (m2NewR X p w n0 mean m2) s j)
def outR (t : Fin 32768) (c : Fin 3) (j : Fin 256) : EReal :=
  Ideal.div (X t c j - meanNewR X p w n0 mean (p t) j) (stdR X p w n0 mean m2 (p t) j + ceps) * w t

end

end Cert.PatchStats

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KI.HostK.lean ====
/-
  The kernel program's host stretches, read at an index.

  Between and around its two launches the kernel program runs five stretches of host operations. Each result array
  of a stretch is a term over the arrays the stretch starts from; read at an index, the prefix's arrays are the
  arguments at the token's row and column and the position's grid cell, the middle's are the new mean and standard
  deviation tables (each beside its own residual), and the suffix's is the second launch's result with the
  `[32768, 3, 256]` layout read back as `[32, 1024, 768]`. Everything is stated for an arbitrary starting valuation.
-/
import proofs.«420308_j72095321030973_2_alg».proof.Proof.Gen.KernelIdeal.Launch
import proofs.«420308_j72095321030973_2_alg».proof.Proof.Spec
import proofs.«420308_j72095321030973_2_alg».proof.Proof.LibReshape
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Cert.PatchStats
open Idealize.ShloMosaic Idealize.ShloMosaic.ValueIdx Idealize.ShloMosaic.TcCoe

variable (W : Valuation τ sig (Elt Ideal))

/-! ## The prefix: the six arrays the first launch reads, as reshapes of the arguments

A reshape keeps the row-major position. Token `t` of the flat token axis sits at row `t / 1024`, column `t % 1024` of
the `[32, 1024]` token arrays, position `s` at row `s / 32`, column `s % 32` of the `[32, 32]` grid, and value `j` of
channel `c` at feature `256 c + j`: in each case the two positions agree by arithmetic. -/

section PrefixPoints

/-- The patches: `[32, 1024, 768]` read as `[32768, 3, 256]`. Both positions are `768 t + 256 c + j`. -/
theorem reshape_X_apply (a0 : S32x1024x768.Idx → EReal) (t : Fin 32768) (ch : Fin 3) (j : Fin 256) :
    shapeCast S32768x3x256 a0 shapeCasts_S32x1024x768_S32768x3x256 (ix3 t ch j) = Xof a0 t ch j := by
  unfold Xof
  refine shapeCast_apply a0 _ (ix3 t ch j) (ix3 (tokB t) (tokS t) (feat ch j)) ?_
  rw [Shape.rowMajor_val_three, Shape.rowMajor_val_three]
  show (t.val / 1024 * 1024 + t.val % 1024) * 768 + (ch.val * 256 + j.val) = (t.val * 3 + ch.val) * 256 + j.val
  omega

/-- A `[32, 1024]` token array flattened: element `t` is the array at row `t / 1024`, column `t % 1024`. -/
theorem flatten_tok_apply {α : Type} (a : S32x1024.Idx → α) (t : Fin 32768) :
    shapeCast S32768 a shapeCasts_S32x1024_S32768 (ix1 t) = a (ix2 (tokB t) (tokS t)) := by
  refine shapeCast_apply a _ (ix1 t) (ix2 (tokB t) (tokS t)) ?_
  rw [Shape.rowMajor_val_two, Shape.rowMajor_val_one]
  show t.val / 1024 * 1024 + t.val % 1024 = t.val
  omega

/-- The flat position word: the row word times the splat 32 plus the column word, flattened and stood up as a column. -/
theorem reshape_pf_apply (a1 a2 : S32x1024.Idx → BitVec 32) (t : Fin 32768) :
    shapeCast S32768x1
        (shapeCast S32768 (addi (muli a1 (broadcastInDim S32x1024 ![] bcast_S_S32x1024 (constantI S_ 32 32#32))) a2)
          shapeCasts_S32x1024_S32768)
        shapeCasts_S32768_S32768x1 (ix2 t 0)
      = pfwOf a1 a2 t := by
  rw [Cert.Rgcn.Lib.col_of_vec_apply, flatten_tok_apply]
  rfl

/-- The weight: the negated padding bit, flattened, read as a number and stood up as a column. -/
theorem reshape_w_apply (a3 : S32x1024.Idx → BitVec 1) (t : Fin 32768) :
    shapeCast S32768x1 (uitofp (F := Ideal) .f32 (shapeCast S32768 (noti a3) shapeCasts_S32x1024_S32768))
        shapeCasts_S32768_S32768x1 (ix2 t 0)
      = wOf a3 t := by
  rw [Cert.Rgcn.Lib.col_of_vec_apply]
  show ((((shapeCast S32768 (noti a3) shapeCasts_S32x1024_S32768 (ix1 t)).toNat : ℝ)) : EReal) = _
  rw [flatten_tok_apply]
  rfl

/-- A `[32, 32, 256]` table read as `[1024, 256]`. Both positions are `256 s + j`. -/
theorem reshape_tab_apply (a : S32x32x256.Idx → EReal) (s : Fin 1024) (j : Fin 256) :
    shapeCast S1024x256 a shapeCasts_S32x32x256_S1024x256 (ix2 s j) = tabOf a s j := by
  unfold tabOf
  refine shapeCast_apply a _ (ix2 s j) (ix3 (gridH s) (gridW s) j) ?_
  rw [Shape.rowMajor_val_three, Shape.rowMajor_val_two]
  show (s.val / 32 * 32 + s.val % 32) * 256 + j.val = s.val * 256 + j.val
  omega

/-- The `[32, 32]` counts read as a `[1024, 1]` column. Both positions are `s`. -/
theorem reshape_n_apply (a4 : S32x32.Idx → EReal) (s : Fin 1024) :
    shapeCast S1024x1 a4 shapeCasts_S32x32_S1024x1 (ix2 s 0) = n0Of a4 s := by
  unfold n0Of
  refine shapeCast_apply a4 _ (ix2 s 0) (ix2 (gridH s) (gridW s)) ?_
  rw [Shape.rowMajor_val_two, Shape.rowMajor_val_two]
  show s.val / 32 * 32 + s.val % 32 = s.val * 1 + 0
  omega

end PrefixPoints

/-! ### Each array of the prefix as its operations' term over the arguments -/

theorem pre_v0_eq : (StableHlo.after (hostOps0 (F := Ideal)) W main_v0 : S32768x3x256.Idx → EReal)
    = shapeCast S32768x3x256 (W main_arg0 : S32x1024x768.Idx → EReal) shapeCasts_S32x1024x768_S32768x3x256 := by
  after_results
  rfl

theorem pre_v8_eq : (StableHlo.after (hostOps0 (F := Ideal)) W main_v8 : S32768x1.Idx → BitVec 32)
    = shapeCast S32768x1
        (shapeCast S32768
          (addi (muli (W main_arg1 : S32x1024.Idx → BitVec 32)
            (broadcastInDim S32x1024 ![] bcast_S_S32x1024 (constantI S_ 32 32#32))) (W main_arg2 : S32x1024.Idx → BitVec 32))
          shapeCasts_S32x1024_S32768)
        shapeCasts_S32768_S32768x1 := by
  after_results
  rfl

theorem pre_v9_eq : (StableHlo.after (hostOps0 (F := Ideal)) W main_v9 : S32768x1.Idx → EReal)
    = shapeCast S32768x1
        (uitofp (F := Ideal) .f32 (shapeCast S32768 (noti (W main_arg3 : S32x1024.Idx → BitVec 1)) shapeCasts_S32x1024_S32768))
        shapeCasts_S32768_S32768x1 := by
  after_results
  rfl

theorem pre_v10_eq : (StableHlo.after (hostOps0 (F := Ideal)) W main_v10 : S1024x256.Idx → EReal)
    = shapeCast S1024x256 (W main_arg5 : S32x32x256.Idx → EReal) shapeCasts_S32x32x256_S1024x256 := by
  after_results
  rfl

theorem pre_v11_eq : (StableHlo.after (hostOps0 (F := Ideal)) W main_v11 : S1024x256.Idx → EReal)
    = shapeCast S1024x256 (W main_arg6 : S32x32x256.Idx → EReal) shapeCasts_S32x32x256_S1024x256 := by
  after_results
  rfl

theorem pre_v12_eq : (StableHlo.after (hostOps0 (F := Ideal)) W main_v12 : S1024x1.Idx → EReal)
    = shapeCast S1024x1 (W main_arg4 : S32x32.Idx → EReal) shapeCasts_S32x32_S1024x1 := by
  after_results
  rfl

/-! ### The prefix read at an index -/

theorem pre_X (t : Fin 32768) (ch : Fin 3) (j : Fin 256) :
    (StableHlo.after (hostOps0 (F := Ideal)) W main_v0 : S32768x3x256.Idx → EReal) (ix3 t ch j)
      = Xof (W main_arg0) t ch j := by
  rw [pre_v0_eq]; exact reshape_X_apply _ t ch j

theorem pre_pf (t : Fin 32768) :
    (StableHlo.after (hostOps0 (F := Ideal)) W main_v8 : S32768x1.Idx → BitVec 32) (ix2 t 0)
      = pfwOf (W main_arg1) (W main_arg2) t := by
  rw [pre_v8_eq]; exact reshape_pf_apply _ _ t

theorem pre_w (t : Fin 32768) :
    (StableHlo.after (hostOps0 (F := Ideal)) W main_v9 : S32768x1.Idx → EReal) (ix2 t 0)
      = wOf (W main_arg3) t := by
  rw [pre_v9_eq]; exact reshape_w_apply _ t

theorem pre_mean (s : Fin 1024) (j : Fin 256) :
    (StableHlo.after (hostOps0 (F := Ideal)) W main_v10 : S1024x256.Idx → EReal) (ix2 s j)
      = tabOf (W main_arg5) s j := by
  rw [pre_v10_eq]; exact reshape_tab_apply _ s j

theorem pre_m2 (s : Fin 1024) (j : Fin 256) :
    (StableHlo.after (hostOps0 (F := Ideal)) W main_v11 : S1024x256.Idx → EReal) (ix2 s j)
      = tabOf (W main_arg6) s j := by
  rw [pre_v11_eq]; exact reshape_tab_apply _ s j

theorem pre_n (s : Fin 1024) :
    (StableHlo.after (hostOps0 (F := Ideal)) W main_v12 : S1024x1.Idx → EReal) (ix2 s 0)
      = n0Of (W main_arg4) s := by
  rw [pre_v12_eq]; exact reshape_n_apply _ s

/-! ## The middle: the new mean and standard deviation tables, each beside its own residual

From the first launch's per-core sums the host forms, per position `s`: the new count `n0 s + cnt s` and the divisor
(that count, at least one); per position and value `j`: the mean's change `ds / divisor`, the new mean, the new sum of
squared deviations `m2 + (qs − (ds / divisor) · ds)`, its quotient by the divisor, and the variance (one where fewer
than two tokens were counted) whose root is the standard deviation. A narrowing and a widening of format are the
identity on extended reals, so a table's residual is the table less itself. -/

/-- The new mean at `(s, j)`, from the old count and mean and the summed count and deviations. -/
def MNof (n0 : Fin 1024 → EReal) (mean : Fin 1024 → Fin 256 → EReal) (cnt : Fin 1024 → EReal)
    (ds : Fin 1024 → Fin 256 → EReal) (s : Fin 1024) (j : Fin 256) : EReal :=
  mean s j + Ideal.div (ds s j) (max (n0 s + cnt s) c1)

/-- The new standard deviation at `(s, j)`. -/
def SDof (n0 : Fin 1024 → EReal) (m2 : Fin 1024 → Fin 256 → EReal) (cnt : Fin 1024 → EReal)
    (ds qs : Fin 1024 → Fin 256 → EReal) (s : Fin 1024) (j : Fin 256) : EReal :=
  Ideal.sqrt (if n0 s + cnt s < c2 then c1
    else Ideal.div (m2 s j + (qs s j - Ideal.div (ds s j) (max (n0 s + cnt s) c1) * ds s j)) (max (n0 s + cnt s) c1))

section MiddlePoints

/-- The index a sum over the core axis inserts: core `k` in front. -/
theorem lift_core_col (h : S2x1024x1.Reduces [0] S1024x1) (s : Fin 1024) (k : Fin 2) :
    h.lift (ix2 s (0 : Fin 1)) k = ix3 k s (0 : Fin 1) := by
  funext a
  match a with
  | ⟨0, _⟩ => exact Fin.ext rfl
  | ⟨1, _⟩ => exact Fin.ext rfl
  | ⟨2, _⟩ => exact Fin.ext rfl

theorem lift_core_tab (h : S2x1024x256.Reduces [0] S1024x256) (s : Fin 1024) (j : Fin 256) (k : Fin 2) :
    h.lift (ix2 s j) k = ix3 k s j := by
  funext a
  match a with
  | ⟨0, _⟩ => exact Fin.ext rfl
  | ⟨1, _⟩ => exact Fin.ext rfl
  | ⟨2, _⟩ => exact Fin.ext rfl

/-- The host's sum over the two cores of a per-core column: zero plus the two cores' entries. -/
theorem sumCol_apply (x : FVec Ideal S2x1024x1 .f32) (s : Fin 1024) :
    Host.reduceAdd (F := Ideal) x (constant (F := Ideal) S_ .f32 0x00000000#32) reducesTo_S2x1024x1_S1024x1_d0 h_S_ (ix2 s 0)
      = x (ix3 0 s 0) + x (ix3 1 s 0) := by
  have h : S2x1024x1.Reduces [0] S1024x1 := by decide
  refine (Ideal.hostReduceAdd_single reducesTo_S2x1024x1_S1024x1_d0 h x _ (ix2 s 0)).trans ?_
  show Ideal.ofBits .f32 0x00000000#32 + ∑ k : Fin 2, x (h.lift (ix2 s 0) k) = _
  rw [Ideal.ofBits_zero_f32, zero_add, Fin.sum_univ_two, lift_core_col, lift_core_col]

/-- The host's sum over the two cores of a per-core table. -/
theorem sumTab_apply (x : FVec Ideal S2x1024x256 .f32) (s : Fin 1024) (j : Fin 256) :
    Host.reduceAdd (F := Ideal) x (constant (F := Ideal) S_ .f32 0x00000000#32) reducesTo_S2x1024x256_S1024x256_d0 h_S_ (ix2 s j)
      = x (ix3 0 s j) + x (ix3 1 s j) := by
  have h : S2x1024x256.Reduces [0] S1024x256 := by decide
  refine (Ideal.hostReduceAdd_single reducesTo_S2x1024x256_S1024x256_d0 h x _ (ix2 s j)).trans ?_
  show Ideal.ofBits .f32 0x00000000#32 + ∑ k : Fin 2, x (h.lift (ix2 s j) k) = _
  rw [Ideal.ofBits_zero_f32, zero_add, Fin.sum_univ_two, lift_core_tab, lift_core_tab]

/-- A column broadcast along the value axis reads, at `(s, j)`, the column at `s`. -/
theorem bcast_col_apply {α : Type} (v : S1024x1.Idx → α) (s : Fin 1024) (j : Fin 256) :
    broadcastInDim S1024x256 ![0, 1] bcast_S1024x1_S1024x256_0_1 v (ix2 s j) = v (ix2 s 0) := by
  refine broadcastInDim_apply _ _ v (ix2 s j) (ix2 s 0) fun a => ?_
  match a with
  | ⟨0, _⟩ => rfl
  | ⟨1, _⟩ => rfl

/-- A select on "`x` is below `y`" is the `if`. -/
theorem select_olt {α : Type} (x y : EReal) (a b : α) :
    Scalar.select (Ideal.cmp .olt x y) a b = if x < y then a else b := by
  unfold Scalar.select Ideal.cmp
  by_cases h : x < y
  · simp [h]
  · simp [h]

end MiddlePoints

/-! ### The stages of the first middle stretch, as arrays -/

section MiddleStages

variable (nv : FVec Ideal S1024x1 .f32) (mv m2v : FVec Ideal S1024x256 .f32)
  (cv : FVec Ideal S2x1024x1 .f32) (dv qv : FVec Ideal S2x1024x256 .f32)

/-- The new count: the old count plus the two cores' counts. -/
def nNewA : FVec Ideal S1024x1 .f32 :=
  addf nv (Host.reduceAdd (F := Ideal) cv (constant (F := Ideal) S_ .f32 0x00000000#32) reducesTo_S2x1024x1_S1024x1_d0 h_S_)

/-- The divisor: the new count, at least one. -/
def nGA : FVec Ideal S1024x1 .f32 :=
  maximumf (nNewA nv cv) (broadcastInDim S1024x1 ![] bcast_S_S1024x1 (constant (F := Ideal) S_ .f32 0x3F800000#32))

/-- The two cores' summed deviations (or squared deviations). -/
def sumA (xv : FVec Ideal S2x1024x256 .f32) : FVec Ideal S1024x256 .f32 :=
  Host.reduceAdd (F := Ideal) xv (constant (F := Ideal) S_ .f32 0x00000000#32) reducesTo_S2x1024x256_S1024x256_d0 h_S_

/-- The mean's change: the summed deviations over the divisor. -/
def mdiffA : FVec Ideal S1024x256 .f32 :=
  Host.divf (sumA dv) (broadcastInDim S1024x256 ![0, 1] bcast_S1024x1_S1024x256_0_1 (nGA nv cv))

/-- The new mean. -/
def meanNewA : FVec Ideal S1024x256 .f32 := addf mv (mdiffA nv cv dv)

/-- The new sum of squared deviations. -/
def m2NewA : FVec Ideal S1024x256 .f32 := addf m2v (subf (sumA qv) (mulf (mdiffA nv cv dv) (sumA dv)))

/-- "Fewer than two tokens were counted", per position. -/
def ltA : IVec S1024x1 1 :=
  cmpf .olt (nNewA nv cv) (broadcastInDim S1024x1 ![] bcast_S_S1024x1 (constant (F := Ideal) S_ .f32 0x40000000#32))

/-- The new sum of squared deviations over the divisor. -/
def quotA : FVec Ideal S1024x256 .f32 :=
  Host.divf (m2NewA nv m2v cv dv qv) (broadcastInDim S1024x256 ![0, 1] bcast_S1024x1_S1024x256_0_1 (nGA nv cv))

variable {nv mv m2v cv dv qv}
variable {n0 cnt : Fin 1024 → EReal} {mean m2 ds qs : Fin 1024 → Fin 256 → EReal}

theorem nNewA_apply (hn0 : ∀ s, nv (ix2 s 0) = n0 s) (hcnt : ∀ s, cv (ix3 0 s 0) + cv (ix3 1 s 0) = cnt s) (s : Fin 1024) :
    nNewA nv cv (ix2 s 0) = n0 s + cnt s := by
  unfold nNewA
  rw [addf_apply, sumCol_apply, hn0, hcnt]

theorem nGA_apply (hn0 : ∀ s, nv (ix2 s 0) = n0 s) (hcnt : ∀ s, cv (ix3 0 s 0) + cv (ix3 1 s 0) = cnt s) (s : Fin 1024) :
    nGA nv cv (ix2 s 0) = max (n0 s + cnt s) c1 := by
  unfold nGA
  rw [maximumf_apply, nNewA_apply hn0 hcnt]
  rfl

theorem sumA_apply {xs : Fin 1024 → Fin 256 → EReal} {xv : FVec Ideal S2x1024x256 .f32}
    (hx : ∀ s j, xv (ix3 0 s j) + xv (ix3 1 s j) = xs s j) (s : Fin 1024) (j : Fin 256) : sumA xv (ix2 s j) = xs s j := by
  unfold sumA
  rw [sumTab_apply, hx]

theorem mdiffA_apply (hn0 : ∀ s, nv (ix2 s 0) = n0 s) (hcnt : ∀ s, cv (ix3 0 s 0) + cv (ix3 1 s 0) = cnt s)
    (hds : ∀ s j, dv (ix3 0 s j) + dv (ix3 1 s j) = ds s j) (s : Fin 1024) (j : Fin 256) :
    mdiffA nv cv dv (ix2 s j) = Ideal.div (ds s j) (max (n0 s + cnt s) c1) := by
  unfold mdiffA
  show Ideal.div (sumA dv (ix2 s j)) (broadcastInDim S1024x256 ![0, 1] bcast_S1024x1_S1024x256_0_1 (nGA nv cv) (ix2 s j)) = _
  rw [sumA_apply hds, bcast_col_apply, nGA_apply hn0 hcnt]

theorem meanNewA_apply (hn0 : ∀ s, nv (ix2 s 0) = n0 s) (hmean : ∀ s j, mv (ix2 s j) = mean s j)
    (hcnt : ∀ s, cv (ix3 0 s 0) + cv (ix3 1 s 0) = cnt s) (hds : ∀ s j, dv (ix3 0 s j) + dv (ix3 1 s j) = ds s j)
    (s : Fin 1024) (j : Fin 256) : meanNewA nv mv cv dv (ix2 s j) = MNof n0 mean cnt ds s j := by
  unfold meanNewA MNof
  rw [addf_apply, hmean, mdiffA_apply hn0 hcnt hds]

theorem ltA_apply (hn0 : ∀ s, nv (ix2 s 0) = n0 s) (hcnt : ∀ s, cv (ix3 0 s 0) + cv (ix3 1 s 0) = cnt s) (s : Fin 1024) :
    ltA nv cv (ix2 s 0) = Ideal.cmp .olt (n0 s + cnt s) c2 := by
  unfold ltA
  rw [cmpf_apply, nNewA_apply hn0 hcnt]
  rfl

theorem quotA_apply (hn0 : ∀ s, nv (ix2 s 0) = n0 s) (hm2 : ∀ s j, m2v (ix2 s j) = m2 s j)
    (hcnt : ∀ s, cv (ix3 0 s 0) + cv (ix3 1 s 0) = cnt s) (hds : ∀ s j, dv (ix3 0 s j) + dv (ix3 1 s j) = ds s j)
    (hqs : ∀ s j, qv (ix3 0 s j) + qv (ix3 1 s j) = qs s j) (s : Fin 1024) (j : Fin 256) :
    quotA nv m2v cv dv qv (ix2 s j)
      = Ideal.div (m2 s j + (qs s j - Ideal.div (ds s j) (max (n0 s + cnt s) c1) * ds s j)) (max (n0 s + cnt s) c1) := by
  unfold quotA m2NewA
  show Ideal.div (addf m2v (subf (sumA qv) (mulf (mdiffA nv cv dv) (sumA dv))) (ix2 s j))
      (broadcastInDim S1024x256 ![0, 1] bcast_S1024x1_S1024x256_0_1 (nGA nv cv) (ix2 s j)) = _
  rw [addf_apply, subf_apply, mulf_apply, hm2, sumA_apply hqs, sumA_apply hds, mdiffA_apply hn0 hcnt hds, bcast_col_apply,
    nGA_apply hn0 hcnt]

end MiddleStages

/-! ### Each stretch's arrays as its operations' term over the arrays it starts from -/

theorem mid1_v22_eq : (StableHlo.after (hostOps1 (F := Ideal)) W main_v22 : S1024x256.Idx → EReal)
    = meanNewA (W main_v12) (W main_v10) (W main_v13_0) (W main_v13_1) := by
  after_results
  rfl

theorem mid1_v27_eq : (StableHlo.after (hostOps1 (F := Ideal)) W main_v27 : S1024x1.Idx → BitVec 1)
    = ltA (W main_v12) (W main_v13_0) := by
  after_results
  rfl

theorem mid1_v31_eq : (StableHlo.after (hostOps1 (F := Ideal)) W main_v31 : S1024x256.Idx → EReal)
    = quotA (W main_v12) (W main_v11) (W main_v13_0) (W main_v13_1) (W main_v13_2) := by
  after_results_simp
  rfl

theorem mid1_cst5_eq : (StableHlo.after (hostOps1 (F := Ideal)) W main_cst_5 : S_.Idx → EReal)
    = constant (F := Ideal) S_ .f32 0x3F800000#32 := by
  after_results

/-- The selecting function's four lines: the variance's two cases chosen by the per-position condition. -/
theorem where_v32_eq : (StableHlo.after (hostOps1_1 (F := Ideal)) W main_v32 : S1024x256.Idx → EReal)
    = select (broadcastInDim S1024x256 ![0, 1] bcast_S1024x1_S1024x256_0_1 (W main_v27 : S1024x1.Idx → BitVec 1))
        (broadcastInDim S1024x256 ![] bcast_S_S1024x256 (W main_cst_5 : S_.Idx → EReal))
        (W main_v31 : S1024x256.Idx → EReal) := by
  after_results
  rfl

/-- They leave the new mean as it was. -/
theorem where_v22_eq : (StableHlo.after (hostOps1_1 (F := Ideal)) W main_v22 : S1024x256.Idx → EReal)
    = (W main_v22 : S1024x256.Idx → EReal) := by
  after_results

theorem tail_v34_eq : (StableHlo.after (hostOps1_2 (F := Ideal)) W main_v34 : S1024x256.Idx → EReal)
    = truncf (F := Ideal) (s := S1024x256) .bf16 (W main_v22) bitsLt_bf16_f32 := by
  after_results

theorem tail_v37_eq : (StableHlo.after (hostOps1_2 (F := Ideal)) W main_v37 : S1024x256.Idx → EReal)
    = truncf (F := Ideal) (s := S1024x256) .bf16
        (subf (W main_v22) (extf .f32 (truncf .bf16 (W main_v22) bitsLt_bf16_f32) bitsLt_bf16_f32)) bitsLt_bf16_f32 := by
  after_results

theorem tail_v38_eq : (StableHlo.after (hostOps1_2 (F := Ideal)) W main_v38 : S1024x256.Idx → EReal)
    = truncf (F := Ideal) (s := S1024x256) .bf16 (Host.sqrt (W main_v32)) bitsLt_bf16_f32 := by
  after_results

theorem tail_v41_eq : (StableHlo.after (hostOps1_2 (F := Ideal)) W main_v41 : S1024x256.Idx → EReal)
    = truncf (F := Ideal) (s := S1024x256) .bf16
        (subf (Host.sqrt (W main_v32))
          (extf .f32 (truncf .bf16 (Host.sqrt (W main_v32)) bitsLt_bf16_f32) bitsLt_bf16_f32))
        bitsLt_bf16_f32 := by
  after_results

/-! ### The middle read at an index -/

/-- The first launch's three results, one slab per core: the counts, the deviations and the squared deviations. -/
abbrev partCnt : FVec Ideal S2x1024x1 .f32 := W main_v13_0
abbrev partDs : FVec Ideal S2x1024x256 .f32 := W main_v13_1
abbrev partQs : FVec Ideal S2x1024x256 .f32 := W main_v13_2

section Middle

variable {W}
variable {n0 cnt : Fin 1024 → EReal} {mean m2 ds qs : Fin 1024 → Fin 256 → EReal}

/-- The new mean after the first two middle stretches. -/
theorem mid_v22 (hn0 : ∀ s, (W main_v12 : S1024x1.Idx → EReal) (ix2 s 0) = n0 s)
    (hmean : ∀ s j, (W main_v10 : S1024x256.Idx → EReal) (ix2 s j) = mean s j)
    (hcnt : ∀ s, partCnt W (ix3 0 s 0) + partCnt W (ix3 1 s 0) = cnt s)
    (hds : ∀ s j, partDs W (ix3 0 s j) + partDs W (ix3 1 s j) = ds s j)
    (s : Fin 1024) (j : Fin 256) :
    (StableHlo.after (hostOps1_1 (F := Ideal)) (StableHlo.after (hostOps1 (F := Ideal)) W) main_v22 : S1024x256.Idx → EReal) (ix2 s j)
      = MNof n0 mean cnt ds s j := by
  rw [where_v22_eq, mid1_v22_eq]
  exact meanNewA_apply hn0 hmean hcnt hds s j

/-- The variance after the first two middle stretches: one where fewer than two tokens were counted. -/
theorem mid_v32 (hn0 : ∀ s, (W main_v12 : S1024x1.Idx → EReal) (ix2 s 0) = n0 s)
    (hm2 : ∀ s j, (W main_v11 : S1024x256.Idx → EReal) (ix2 s j) = m2 s j)
    (hcnt : ∀ s, partCnt W (ix3 0 s 0) + partCnt W (ix3 1 s 0) = cnt s)
    (hds : ∀ s j, partDs W (ix3 0 s j) + partDs W (ix3 1 s j) = ds s j)
    (hqs : ∀ s j, partQs W (ix3 0 s j) + partQs W (ix3 1 s j) = qs s j)
    (s : Fin 1024) (j : Fin 256) :
    (StableHlo.after (hostOps1_1 (F := Ideal)) (StableHlo.after (hostOps1 (F := Ideal)) W) main_v32 : S1024x256.Idx → EReal) (ix2 s j)
      = if n0 s + cnt s < c2 then c1
        else Ideal.div (m2 s j + (qs s j - Ideal.div (ds s j) (max (n0 s + cnt s) c1) * ds s j)) (max (n0 s + cnt s) c1) := by
  rw [where_v32_eq, mid1_v27_eq, mid1_v31_eq, mid1_cst5_eq, select_apply, bcast_col_apply, ltA_apply hn0 hcnt,
    quotA_apply hn0 hm2 hcnt hds hqs, select_olt]
  rfl

theorem mid_mh (hn0 : ∀ s, (W main_v12 : S1024x1.Idx → EReal) (ix2 s 0) = n0 s)
    (hmean : ∀ s j, (W main_v10 : S1024x256.Idx → EReal) (ix2 s j) = mean s j)
    (hcnt : ∀ s, partCnt W (ix3 0 s 0) + partCnt W (ix3 1 s 0) = cnt s)
    (hds : ∀ s j, partDs W (ix3 0 s j) + partDs W (ix3 1 s j) = ds s j)
    (s : Fin 1024) (j : Fin 256) :
    (StableHlo.after (hostOps1_2 (F := Ideal)) (StableHlo.after (hostOps1_1 (F := Ideal)) (StableHlo.after (hostOps1 (F := Ideal)) W))
        main_v34 : S1024x256.Idx → EReal) (ix2 s j)
      = MNof n0 mean cnt ds s j := by
  rw [tail_v34_eq, truncf_apply]
  exact mid_v22 hn0 hmean hcnt hds s j

theorem mid_ml (hn0 : ∀ s, (W main_v12 : S1024x1.Idx → EReal) (ix2 s 0) = n0 s)
    (hmean : ∀ s j, (W main_v10 : S1024x256.Idx → EReal) (ix2 s j) = mean s j)
    (hcnt : ∀ s, partCnt W (ix3 0 s 0) + partCnt W (ix3 1 s 0) = cnt s)
    (hds : ∀ s j, partDs W (ix3 0 s j) + partDs W (ix3 1 s j) = ds s j)
    (s : Fin 1024) (j : Fin 256) :
    (StableHlo.after (hostOps1_2 (F := Ideal)) (StableHlo.after (hostOps1_1 (F := Ideal)) (StableHlo.after (hostOps1 (F := Ideal)) W))
        main_v37 : S1024x256.Idx → EReal) (ix2 s j)
      = MNof n0 mean cnt ds s j - MNof n0 mean cnt ds s j := by
  rw [tail_v37_eq, truncf_apply, subf_apply, extf_apply, truncf_apply, mid_v22 hn0 hmean hcnt hds s j]

theorem mid_sh (hn0 : ∀ s, (W main_v12 : S1024x1.Idx → EReal) (ix2 s 0) = n0 s)
    (hm2 : ∀ s j, (W main_v11 : S1024x256.Idx → EReal) (ix2 s j) = m2 s j)
    (hcnt : ∀ s, partCnt W (ix3 0 s 0) + partCnt W (ix3 1 s 0) = cnt s)
    (hds : ∀ s j, partDs W (ix3 0 s j) + partDs W (ix3 1 s j) = ds s j)
    (hqs : ∀ s j, partQs W (ix3 0 s j) + partQs W (ix3 1 s j) = qs s j)
    (s : Fin 1024) (j : Fin 256) :
    (StableHlo.after (hostOps1_2 (F := Ideal)) (StableHlo.after (hostOps1_1 (F := Ideal)) (StableHlo.after (hostOps1 (F := Ideal)) W))
        main_v38 : S1024x256.Idx → EReal) (ix2 s j)
      = SDof n0 m2 cnt ds qs s j := by
  rw [tail_v38_eq, truncf_apply]
  show Ideal.sqrt ((StableHlo.after (hostOps1_1 (F := Ideal)) (StableHlo.after (hostOps1 (F := Ideal)) W) main_v32
    : S1024x256.Idx → EReal) (ix2 s j)) = _
  rw [mid_v32 hn0 hm2 hcnt hds hqs s j]
  rfl

theorem mid_sl (hn0 : ∀ s, (W main_v12 : S1024x1.Idx → EReal) (ix2 s 0) = n0 s)
    (hm2 : ∀ s j, (W main_v11 : S1024x256.Idx → EReal) (ix2 s j) = m2 s j)
    (hcnt : ∀ s, partCnt W (ix3 0 s 0) + partCnt W (ix3 1 s 0) = cnt s)
    (hds : ∀ s j, partDs W (ix3 0 s j) + partDs W (ix3 1 s j) = ds s j)
    (hqs : ∀ s j, partQs W (ix3 0 s j) + partQs W (ix3 1 s j) = qs s j)
    (s : Fin 1024) (j : Fin 256) :
    (StableHlo.after (hostOps1_2 (F := Ideal)) (StableHlo.after (hostOps1_1 (F := Ideal)) (StableHlo.after (hostOps1 (F := Ideal)) W))
        main_v41 : S1024x256.Idx → EReal) (ix2 s j)
      = SDof n0 m2 cnt ds qs s j - SDof n0 m2 cnt ds qs s j := by
  rw [tail_v41_eq, truncf_apply, subf_apply, extf_apply, truncf_apply]
  show Ideal.sqrt ((StableHlo.after (hostOps1_1 (F := Ideal)) (StableHlo.after (hostOps1 (F := Ideal)) W) main_v32
      : S1024x256.Idx → EReal) (ix2 s j))
    - Ideal.sqrt ((StableHlo.after (hostOps1_1 (F := Ideal)) (StableHlo.after (hostOps1 (F := Ideal)) W) main_v32
      : S1024x256.Idx → EReal) (ix2 s j)) = _
  rw [mid_v32 hn0 hm2 hcnt hds hqs s j]
  rfl

end Middle

/-! ## The suffix: the second launch's result read back as `[32, 1024, 768]`

Element `(b, s, d)` of the result is token `1024 b + s`, channel `d / 256`, value `d % 256`: both row-major positions are
`768 (1024 b + s) + d`. -/

theorem reshape_out_apply (o : S32768x3x256.Idx → EReal) (b : Fin 32) (s : Fin 1024) (d : Fin 768) :
    shapeCast S32x1024x768 o shapeCasts_S32768x3x256_S32x1024x768 (ix3 b s d)
      = o (ix3 (⟨b.val * 1024 + s.val, by omega⟩ : Fin 32768) (⟨d.val / 256, by omega⟩ : Fin 3)
          (⟨d.val % 256, by omega⟩ : Fin 256)) := by
  refine shapeCast_apply o _ (ix3 b s d) _ ?_
  rw [Shape.rowMajor_val_three, Shape.rowMajor_val_three]
  show ((b.val * 1024 + s.val) * 3 + d.val / 256) * 256 + d.val % 256 = (b.val * 1024 + s.val) * 768 + d.val
  omega

theorem suf_v43_eq : (StableHlo.after (hostOps2 (F := Ideal)) W main_v43 : S32x1024x768.Idx → EReal)
    = shapeCast S32x1024x768 (W main_v42 : S32768x3x256.Idx → EReal) shapeCasts_S32768x3x256_S32x1024x768 := by
  after_results
  rfl

theorem suf_out (b : Fin 32) (s : Fin 1024) (d : Fin 768) :
    (StableHlo.after (hostOps2 (F := Ideal)) W main_v43 : S32x1024x768.Idx → EReal) (ix3 b s d)
      = (W main_v42 : S32768x3x256.Idx → EReal)
          (ix3 (⟨b.val * 1024 + s.val, by omega⟩ : Fin 32768) (⟨d.val / 256, by omega⟩ : Fin 3)
            (⟨d.val % 256, by omega⟩ : Fin 256)) := by
  rw [suf_v43_eq]; exact reshape_out_apply _ b s d

end Cert.KernelIdeal.Hand

end
-- ==== Proof.LibMatmulRows.lean ====
/-
  A matrix product into a zero accumulator, read at an index, at the exact values.

  Two arrangements of the dimension numbers, over any extents. ROWS BY COLUMNS: `[R, K] · [K, C]`, the left
  operand contracted on its second axis and the right on its first; entry `(a, b)` is the sum over `k` of
  `l[a, k] · r[k, b]`. COLUMNS BY COLUMNS: `[K, G]ᵀ · [K, C]`, both operands contracted on their FIRST axis (a
  product with the left operand transposed, written without a transpose); entry `(g, f)` is the sum over `k` of
  `l[k, g] · r[k, f]`. In both the accumulator is the zero splat, so nothing else is added.
-/
import Idealize.ShloMosaic.Lib.ValueIdx
import Idealize.ShloMosaic.PureOps.Ideal
import Idealize.ShloMosaic.PureOps.Ideal.Laws

noncomputable section

namespace Cert.Gcn.Lib

open Idealize.ShloMosaic Idealize.ShloMosaic.ValueIdx

section RowsByColumns
variable {R K C : ℕ}

/-- The dimension numbers of `[R, K] · [K, C]`. -/
abbrev rowsDims (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

variable (wf : DotDims.WF ⟨2, ![R, K]⟩ ⟨2, ![K, C]⟩ ⟨2, ![R, C]⟩ [1] [0] [0] [1] [] [])

theorem rows_lhs_0 (i : (⟨2, ![R, C]⟩ : Shape).Idx) (q : (rowsDims wf).contr.Idx) :
    ((rowsDims wf).lhsIdx i q 0).val = (i 0).val := by
  unfold DotDims.lhsIdx
  rw [dif_neg (show ¬(0 : Fin 2) ∈ (rowsDims wf).lhsBatch from List.not_mem_nil),
    dif_pos (show (0 : Fin 2) ∈ (rowsDims wf).lhsNonContracting from List.mem_singleton.mpr rfl)]
  rfl
theorem rows_lhs_1 (i : (⟨2, ![R, C]⟩ : Shape).Idx) (q : (rowsDims wf).contr.Idx) :
    ((rowsDims wf).lhsIdx i q 1).val = (q ⟨0, Nat.one_pos⟩).val :=
  (rowsDims wf).lhsIdx_val_of_single rfl i q
theorem rows_rhs_0 (i : (⟨2, ![R, C]⟩ : Shape).Idx) (q : (rowsDims wf).contr.Idx) :
    ((rowsDims wf).rhsIdx i q 0).val = (q ⟨0, Nat.one_pos⟩).val :=
  (rowsDims wf).rhsIdx_val_of_single rfl i q
theorem rows_rhs_1 (i : (⟨2, ![R, C]⟩ : Shape).Idx) (q : (rowsDims wf).contr.Idx) :
    ((rowsDims wf).rhsIdx i q 1).val = (i 1).val := by
  unfold DotDims.rhsIdx
  rw [dif_neg (show ¬(1 : Fin 2) ∈ (rowsDims wf).rhsBatch from List.not_mem_nil),
    dif_pos (show (1 : Fin 2) ∈ (rowsDims wf).rhsNonContracting from List.mem_singleton.mpr rfl)]
  rfl

/-- ROWS BY COLUMNS, into the zero splat, read at `(a, b)`. -/
theorem matmul_rows_apply {φ₁ φ₂ : FTy} (d : DotDims ⟨2, ![R, K]⟩ ⟨2, ![K, C]⟩ ⟨2, ![R, C]⟩) (hd : d = rowsDims wf)
    (prec : Option ContractPrecision) (l : FVec Ideal ⟨2, ![R, K]⟩ φ₁) (r : FVec Ideal ⟨2, ![K, C]⟩ φ₂) (a : Fin R) (b : Fin C) :
    FloatOps.matmul d prec l r (constant ⟨2, ![R, C]⟩ .f32 0x00000000#32) (ix2 a b) = ∑ k : Fin K, l (ix2 a k) * r (ix2 k b) := by
  subst hd
  rw [Ideal.matmul_constant_zero_apply, ← Equiv.sum_comp (contrEquiv1 (rowsDims wf) K rfl rfl).symm]
  refine Finset.sum_congr rfl fun k _ => ?_
  have hk := contrEquiv1_symm_val (rowsDims wf) K rfl rfl k
  have el : (rowsDims wf).lhsIdx (ix2 a b) ((contrEquiv1 (rowsDims wf) K rfl rfl).symm k) = ix2 a k :=
    funext fun ax => Fin.ext (by
      match ax with
      | ⟨0, _⟩ => exact rows_lhs_0 wf _ _
      | ⟨1, _⟩ => exact (rows_lhs_1 wf _ _).trans hk)
  have er : (rowsDims wf).rhsIdx (ix2 a b) ((contrEquiv1 (rowsDims wf) K rfl rfl).symm k) = ix2 k b :=
    funext fun ax => Fin.ext (by
      match ax with
      | ⟨0, _⟩ => exact (rows_rhs_0 wf _ _).trans hk
      | ⟨1, _⟩ => exact rows_rhs_1 wf _ _)
  rw [el, er]

end RowsByColumns

section ColumnsByColumns
variable {K G C : ℕ}

/-- The dimension numbers of `[K, G]ᵀ · [K, C]`: both operands contracted on their first axis. -/
abbrev colsDims (wf : DotDims.WF ⟨2, ![K, G]⟩ ⟨2, ![K, C]⟩ ⟨2, ![G, C]⟩ [0] [0] [1] [1] [] []) :
    DotDims ⟨2, ![K, G]⟩ ⟨2, ![K, C]⟩ ⟨2, ![G, C]⟩ := ⟨[0], [0], [1], [1], [], [], wf⟩

variable (wf : DotDims.WF ⟨2, ![K, G]⟩ ⟨2, ![K, C]⟩ ⟨2, ![G, C]⟩ [0] [0] [1] [1] [] [])

theorem cols_lhs_0 (i : (⟨2, ![G, C]⟩ : Shape).Idx) (q : (colsDims wf).contr.Idx) :
    ((colsDims wf).lhsIdx i q 0).val = (q ⟨0, Nat.one_pos⟩).val :=
  (colsDims wf).lhsIdx_val_of_single rfl i q
theorem cols_lhs_1 (i : (⟨2, ![G, C]⟩ : Shape).Idx) (q : (colsDims wf).contr.Idx) :
    ((colsDims wf).lhsIdx i q 1).val = (i 0).val := by
  unfold DotDims.lhsIdx
  rw [dif_neg (show ¬(1 : Fin 2) ∈ (colsDims wf).lhsBatch from List.not_mem_nil),
    dif_pos (show (1 : Fin 2) ∈ (colsDims wf).lhsNonContracting from List.mem_singleton.mpr rfl)]
  rfl
theorem cols_rhs_0 (i : (⟨2, ![G, C]⟩ : Shape).Idx) (q : (colsDims wf).contr.Idx) :
    ((colsDims wf).rhsIdx i q 0).val = (q ⟨0, Nat.one_pos⟩).val :=
  (colsDims wf).rhsIdx_val_of_single rfl i q
theorem cols_rhs_1 (i : (⟨2, ![G, C]⟩ : Shape).Idx) (q : (colsDims wf).contr.Idx) :
    ((colsDims wf).rhsIdx i q 1).val = (i 1).val := by
  unfold DotDims.rhsIdx
  rw [dif_neg (show ¬(1 : Fin 2) ∈ (colsDims wf).rhsBatch from List.not_mem_nil),
    dif_pos (show (1 : Fin 2) ∈ (colsDims wf).rhsNonContracting from List.mem_singleton.mpr rfl)]
  rfl

/-- COLUMNS BY COLUMNS, into the zero splat, read at `(g, f)`. -/
theorem matmul_cols_apply {φ₁ φ₂ : FTy} (d : DotDims ⟨2, ![K, G]⟩ ⟨2, ![K, C]⟩ ⟨2, ![G, C]⟩) (hd : d = colsDims wf)
    (prec : Option ContractPrecision) (l : FVec Ideal ⟨2, ![K, G]⟩ φ₁) (r : FVec Ideal ⟨2, ![K, C]⟩ φ₂) (g : Fin G) (f : Fin C) :
    FloatOps.matmul d prec l r (constant ⟨2, ![G, C]⟩ .f32 0x00000000#32) (ix2 g f) = ∑ k : Fin K, l (ix2 k g) * r (ix2 k f) := by
  subst hd
  rw [Ideal.matmul_constant_zero_apply, ← Equiv.sum_comp (contrEquiv1 (colsDims wf) K rfl rfl).symm]
  refine Finset.sum_congr rfl fun k _ => ?_
  have hk := contrEquiv1_symm_val (colsDims wf) K rfl rfl k
  have el : (colsDims wf).lhsIdx (ix2 g f) ((contrEquiv1 (colsDims wf) K rfl rfl).symm k) = ix2 k g :=
    funext fun ax => Fin.ext (by
      match ax with
      | ⟨0, _⟩ => exact (cols_lhs_0 wf _ _).trans hk
      | ⟨1, _⟩ => exact cols_lhs_1 wf _ _)
  have er : (colsDims wf).rhsIdx (ix2 g f) ((contrEquiv1 (colsDims wf) K rfl rfl).symm k) = ix2 k f :=
    funext fun ax => Fin.ext (by
      match ax with
      | ⟨0, _⟩ => exact (cols_rhs_0 wf _ _).trans hk
      | ⟨1, _⟩ => exact cols_rhs_1 wf _ _)
  rw [el, er]

end ColumnsByColumns

end Cert.Gcn.Lib

end
-- ==== Proof.LibOneHot.lean ====
/-
  One-hot selection as a sum, on the extended reals.

  A row lookup written as a product with a one-hot row: the sum over a finite index set of an indicator of ONE
  index times a function is the function at that index, and the sum against an indicator that holds nowhere is
  zero — with no finiteness needed, because on the extended reals `0 · x = 0` and `1 · x = x` for every `x`,
  infinities included. Beside it: when a machine word `w` below the table's length is shifted down by a block
  offset `1408 k`, the shifted word equals a position `j` of the block exactly when `w` is row `j` of block `k`;
  and a value recombined from a head and a residual, `x + (x − x)`, is `x` unless `x` is `+∞`.
-/
import Mathlib.Data.EReal.Operations
import Mathlib.Algebra.BigOperators.Group.Finset.Basic

namespace Cert.OneHot

open Finset

/-- A sum against the indicator of exactly one index is the entry there. -/
theorem sum_indicator_mul_eq {ι : Type} [Fintype ι] [DecidableEq ι] (j0 : ι) (H : ι → EReal)
    (P : ι → Prop) [DecidablePred P] (hP : ∀ j, P j ↔ j = j0) :
    (∑ j, (if P j then (1 : EReal) else 0) * H j) = H j0 := by
  rw [Finset.sum_eq_single j0]
  · rw [if_pos ((hP j0).mpr rfl), one_mul]
  · intro j _ hj
    rw [if_neg (fun h => hj ((hP j).mp h)), zero_mul]
  · intro h; exact absurd (Finset.mem_univ j0) h

/-- A sum against an indicator that holds nowhere is zero. -/
theorem sum_indicator_mul_none {ι : Type} [Fintype ι] (H : ι → EReal)
    (P : ι → Prop) [DecidablePred P] (hP : ∀ j, ¬P j) :
    (∑ j, (if P j then (1 : EReal) else 0) * H j) = 0 := by
  apply Finset.sum_eq_zero
  intro j _
  rw [if_neg (hP j), zero_mul]

/-- A word below 8448 shifted down by `1408 k` (`k < 6`) is position `j < 1408` exactly when it is row `j` of block `k`. -/
theorem ofNat_eq_sub_iff (w : BitVec 32) (k j : ℕ) (hw : w.toNat < 8448) (hk : k < 6) (hj : j < 1408) :
    BitVec.ofNat 32 j = w - BitVec.ofNat 32 k * 1408#32 ↔ w.toNat = 1408 * k + j := by
  rw [← BitVec.toNat_inj]
  simp only [BitVec.toNat_sub, BitVec.toNat_mul, BitVec.toNat_ofNat]
  omega

/-- A value recombined from itself and its own residual is itself, unless it is `+∞`. -/
theorem add_sub_self_of_ne_top {x : EReal} (h : x ≠ ⊤) : x + (x - x) = x := by
  induction x using EReal.rec with
  | bot => exact EReal.bot_add _
  | coe r =>
    rw [← EReal.coe_sub, sub_self, EReal.coe_zero, add_zero]
  | top => exact absurd rfl h

/-- Zero has no residual. -/
theorem zero_sub_zero : (0 : EReal) - 0 = 0 := by simp

end Cert.OneHot
-- ==== Proof.KI.Arr0.lean ====
/-
  What the first launch leaves in its three result arrays, read at an index.

  The launch walks a 2 × 16 grid; point `n = 16 a + i` holds the 1024 tokens `1024 n … 1024 n + 1023`, so row `a`
  of the grid walks the tokens of half `a` (those with `t / 16384 = a`). At each point the body builds the one-hot
  table of the tokens' position words, looks the old mean up with it (a product of the table with the mean table:
  the sum against a one-hot row is the entry the row names), forms each token's weighted deviation — the mean of
  its three channels less the looked-up mean, times its weight — and scatters the weights, the deviations and
  their squares to the positions (products with the transposed table: at position `s`, the sum over the rows
  that name `s`). Three accumulators, zeroed at the first point of a row, add these up; the last point of the
  row writes them back as block `a` of the three [2, ·, ·] results. So entry `(a, s, ·)` of a result is the sum,
  over the tokens of half `a` at position `s`, of the weight, of the deviation, of its square; and the two halves
  together give the position's count and the two sums the new mean and variance are made from.
-/
import proofs.«420308_j72095321030973_2_alg».proof.Proof.KI.Data
import proofs.«420308_j72095321030973_2_alg».proof.Proof.Spec
import proofs.«420308_j72095321030973_2_alg».proof.Proof.LibMatmulRows
import proofs.«420308_j72095321030973_2_alg».proof.Proof.LibOneHot
import Idealize.ShloMosaic.Lib.Pipeline.Value
import Idealize.ShloMosaic.Lib.ValueIdx
import Idealize.ShloMosaic.PureOps.Ideal.Laws
import Mathlib.Algebra.BigOperators.Fin
import Mathlib.Algebra.BigOperators.Intervals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PatchStats Idealize.ShloMosaic.ValueIdx

namespace A0

/-- The one-hot table of a block of position words: row `r` holds a one in the column its word names. -/
theorem onehot_apply (pf : Vec Ideal S1024x1 .i32) (r s : Fin 1024) :
    (k0_pay11 (F := Ideal) pf : S1024x1024.Idx → EReal) (ix2 r s)
      = if pf (ix2 r (0 : Fin 1)) = BitVec.ofNat 32 s.val then 1 else 0 := by
  unfold k0_pay11
  dsimp only
  rw [truncf_apply, sitofp_apply, extui_apply]
  show FloatOps.sitofp (F := Ideal) .f32 ((IntOp.cmpi .eq
      (broadcastTo S1024x1024 (shapeCast S1024x1 pf shapeCasts_S1024x1_S1024x1) broadcasts_S1024x1_S1024x1024 (ix2 r s))
      (iota .tc S1024x1024 32 [1] iota_S1024x1024_d1_w32 (ix2 r s))).setWidth 32) = _
  rw [iota_single_apply, shapeCast_self,
    broadcastTo_apply pf broadcasts_S1024x1_S1024x1024 (ix2 r s) (ix2 r (0 : Fin 1)) (fun a => by
      match a with
      | ⟨0, _⟩ => rfl
      | ⟨1, _⟩ => rfl)]
  show (((((IntOp.cmpi .eq (pf (ix2 r (0 : Fin 1))) (BitVec.ofNat 32 s.val)).setWidth 32).toInt : ℤ) : ℝ) : EReal) = _
  by_cases h : pf (ix2 r (0 : Fin 1)) = BitVec.ofNat 32 s.val
  · rw [if_pos h, h]; simp [IntOp.cmpi]
  · have hb : (pf (ix2 r (0 : Fin 1)) == BitVec.ofNat 32 s.val) = false := beq_eq_false_iff_ne.mpr h
    rw [if_neg h]; simp [IntOp.cmpi, hb]

/-- The weight column re-laid in its own shape is itself. -/
theorem wcol_eq (w : Vec Ideal S1024x1 .f32) : k0_pay10 (F := Ideal) w = w := by
  unfold k0_pay10
  exact shapeCast_self _ _

/-- Inserting channel `k` between a row and a value index. -/
theorem lift_chan (r : Fin 1024) (j : Fin 256) (k : Fin 3) :
    reduces_S1024x3x256_S1024x256.lift (ix2 r j) k = ix3 r k j := by
  funext c; apply Fin.ext
  match c with
  | ⟨0, _⟩ => rfl
  | ⟨1, _⟩ => rfl
  | ⟨2, _⟩ => rfl

/-- The lane sum over the three channels, at a row and a value index. -/
theorem chansum_apply (x : FVec Ideal S1024x3x256 .f32) (hacc : (0x00000000#32 : BitVec 32) = 0x00000000#32) (r : Fin 1024) (j : Fin 256) :
    multiReduction (F := Ideal) .add [1] S1024x256 x 0x00000000#32 reduces_S1024x3x256_S1024x256 (.inl rfl) hacc (ix2 r j)
      = x (ix3 r 0 j) + x (ix3 r 1 j) + x (ix3 r 2 j) := by
  refine (Ideal.multiReduction_add_single x 0x00000000#32 reduces_S1024x3x256_S1024x256 (.inl rfl) hacc (ix2 r j)).trans ?_
  show ∑ k : Fin 3, x (reduces_S1024x3x256_S1024x256.lift (ix2 r j) k) = _
  rw [Fin.sum_univ_three, lift_chan, lift_chan, lift_chan]

/-- Two positions name the same 32-bit word only when they are equal. -/
theorem ofNat_inj_1024 (a b : Fin 1024) : BitVec.ofNat 32 a.val = BitVec.ofNat 32 b.val ↔ a = b := by
  constructor
  · intro h
    have h' := congrArg BitVec.toNat h
    simp only [BitVec.toNat_ofNat] at h'
    have ha := a.isLt
    have hb := b.isLt
    apply Fin.ext
    omega
  · rintro rfl; rfl

section Point
variable (x : Vec Ideal S1024x3x256 .f32) (pf : Vec Ideal S1024x1 .i32) (w : Vec Ideal S1024x1 .f32)
  (mn : Vec Ideal S1024x256 .f32) (q : Fin 1024 → Fin 1024)
  (hq : ∀ r, pf (ix2 r (0 : Fin 1)) = BitVec.ofNat 32 (q r).val)

/-- Row `r`'s weighted deviation at value index `j`: the mean of its three channels less the old mean at the
    position it names, times its weight. -/
def devAt (r : Fin 1024) (j : Fin 256) : EReal :=
  (Ideal.div (x (ix3 r 0 j) + x (ix3 r 1 j) + x (ix3 r 2 j)) c3 - mn (ix2 (q r) j)) * w (ix2 r (0 : Fin 1))

include hq in
/-- The gather: the product of the one-hot table with the mean table picks, in row `r`, the mean at the position the
    row names. -/
theorem gather_apply (r : Fin 1024) (j : Fin 256) :
    (∑ k : Fin 1024, (k0_pay11 (F := Ideal) pf : S1024x1024.Idx → EReal) (ix2 r k) * mn (ix2 k j)) = mn (ix2 (q r) j) := by
  have e : ∀ k : Fin 1024, (k0_pay11 (F := Ideal) pf : S1024x1024.Idx → EReal) (ix2 r k) * mn (ix2 k j)
      = (if k = q r then (1 : EReal) else 0) * mn (ix2 k j) := fun k => by
    rw [onehot_apply, hq r]
    by_cases h : k = q r
    · rw [if_pos h, if_pos (by rw [h])]
    · rw [if_neg h, if_neg (fun e => h ((ofNat_inj_1024 _ _).mp e).symm)]
  rw [Finset.sum_congr rfl fun k _ => e k]
  exact Cert.OneHot.sum_indicator_mul_eq (q r) (fun k => mn (ix2 k j)) (fun k => k = q r) (fun _ => Iff.rfl)

include hq in
/-- The deviation table of a point, at a row and a value index. -/
theorem dev_apply (r : Fin 1024) (j : Fin 256) :
    (k0_pay12 (F := Ideal) x pf w mn : S1024x256.Idx → EReal) (ix2 r j) = devAt x w mn q r j := by
  unfold k0_pay12 devAt
  dsimp only
  rw [mulf_apply, subf_apply, divf_apply, broadcast_apply, shapeCast_self, shapeCast_self, wcol_eq]
  refine congrArg₂ (· * ·) (congrArg₂ (· - ·) (congrArg₂ Ideal.div (chansum_apply x rfl r j) rfl) ?_) ?_
  · refine (Cert.Gcn.Lib.matmul_rows_apply dot_S1024x1024_S1024x256_S1024x256_1_0_0_1_n_n_wf _ rfl none _ _ r j).trans ?_
    exact gather_apply pf mn q hq r j
  · exact broadcastTo_apply w broadcasts_S1024x1_S1024x256 (ix2 r j) (ix2 r (0 : Fin 1)) (fun a => by
      match a with
      | ⟨0, _⟩ => rfl
      | ⟨1, _⟩ => rfl)

include hq in
/-- The scatter: the product of the transposed one-hot table with any table `v` sums, at position `s`, the rows of
    `v` whose word names `s`. -/
theorem scatter_apply {C : ℕ} {φ : FTy}
    (wf : DotDims.WF ⟨2, ![1024, 1024]⟩ ⟨2, ![1024, C]⟩ ⟨2, ![1024, C]⟩ [0] [0] [1] [1] [] [])
    (d : DotDims ⟨2, ![1024, 1024]⟩ ⟨2, ![1024, C]⟩ ⟨2, ![1024, C]⟩) (hd : d = Cert.Gcn.Lib.colsDims wf)
    (v : FVec Ideal ⟨2, ![1024, C]⟩ φ) (s : Fin 1024) (f : Fin C) :
    FloatOps.matmul d none (k0_pay11 (F := Ideal) pf) v (constant (F := Ideal) ⟨2, ![1024, C]⟩ .f32 0x00000000#32) (ix2 s f)
      = ∑ r : Fin 1024, if q r = s then v (ix2 r f) else 0 := by
  rw [Cert.Gcn.Lib.matmul_cols_apply wf d hd]
  refine Finset.sum_congr rfl fun r _ => ?_
  rw [onehot_apply, hq r]
  by_cases h : q r = s
  · rw [if_pos h, if_pos (by rw [h]), one_mul]
  · rw [if_neg h, if_neg (fun e => h ((ofNat_inj_1024 _ _).mp e)), zero_mul]

include hq in
/-- The count column after a point: what it held plus the weights of the point's rows at each position. -/
theorem step_cnt (acc : Acc Ideal) (s : Fin 1024) :
    ((stepAcc x pf w mn acc).1 : S1024x1.Idx → EReal) (ix2 s (0 : Fin 1))
      = (acc.1 : S1024x1.Idx → EReal) (ix2 s (0 : Fin 1)) + ∑ r : Fin 1024, if q r = s then w (ix2 r (0 : Fin 1)) else 0 := by
  unfold stepAcc
  dsimp only
  unfold k0_pay1 k0_pay15
  dsimp only
  rw [shapeCast_self, addf_apply, wcol_eq]
  refine congrArg (acc.1 (ix2 s (0 : Fin 1)) + ·) ?_
  exact scatter_apply pf q hq dot_S1024x1024_S1024x1_S1024x1_0_0_1_1_n_n_wf _ rfl _ s (0 : Fin 1)

include hq in
/-- The sum table after a point: what it held plus the deviations of the point's rows at each position. -/
theorem step_dsum (acc : Acc Ideal) (s : Fin 1024) (j : Fin 256) :
    ((stepAcc x pf w mn acc).2.1 : S1024x256.Idx → EReal) (ix2 s j)
      = (acc.2.1 : S1024x256.Idx → EReal) (ix2 s j) + ∑ r : Fin 1024, if q r = s then devAt x w mn q r j else 0 := by
  unfold stepAcc
  dsimp only
  unfold k0_pay2 k0_pay13
  dsimp only
  rw [shapeCast_self, addf_apply]
  refine congrArg (acc.2.1 (ix2 s j) + ·) ?_
  refine (scatter_apply pf q hq dot_S1024x1024_S1024x256_S1024x256_0_0_1_1_n_n_wf _ rfl _ s j).trans ?_
  refine Finset.sum_congr rfl fun r _ => ?_
  rw [truncf_apply, dev_apply x pf w mn q hq r j]

include hq in
/-- The sum-of-squares table after a point: what it held plus the squared deviations of the point's rows. -/
theorem step_sq (acc : Acc Ideal) (s : Fin 1024) (j : Fin 256) :
    ((stepAcc x pf w mn acc).2.2 : S1024x256.Idx → EReal) (ix2 s j)
      = (acc.2.2 : S1024x256.Idx → EReal) (ix2 s j)
        + ∑ r : Fin 1024, if q r = s then devAt x w mn q r j * devAt x w mn q r j else 0 := by
  unfold stepAcc
  dsimp only
  unfold k0_pay3 k0_pay14
  dsimp only
  rw [shapeCast_self, addf_apply]
  refine congrArg (acc.2.2 (ix2 s j) + ·) ?_
  refine (scatter_apply pf q hq dot_S1024x1024_S1024x256_S1024x256_0_0_1_1_n_n_wf _ rfl _ s j).trans ?_
  refine Finset.sum_congr rfl fun r _ => ?_
  rw [truncf_apply, mulf_apply, dev_apply x pf w mn q hq r j]

end Point

/-- The reset accumulators hold zero everywhere. -/
theorem zero_cnt (s : Fin 1024) : ((zeroAcc (F := Ideal)).1 : S1024x1.Idx → EReal) (ix2 s (0 : Fin 1)) = 0 := by
  unfold zeroAcc k0_pay7
  dsimp only
  rw [shapeCast_self, broadcast_apply]
  exact Ideal.ofBits_zero_f32
theorem zero_dsum (s : Fin 1024) (j : Fin 256) : ((zeroAcc (F := Ideal)).2.1 : S1024x256.Idx → EReal) (ix2 s j) = 0 := by
  unfold zeroAcc k0_pay8
  dsimp only
  rw [shapeCast_self, broadcast_apply]
  exact Ideal.ofBits_zero_f32
theorem zero_sq (s : Fin 1024) (j : Fin 256) : ((zeroAcc (F := Ideal)).2.2 : S1024x256.Idx → EReal) (ix2 s j) = 0 := by
  unfold zeroAcc k0_pay9
  dsimp only
  rw [shapeCast_self, broadcast_apply]
  exact Ideal.ofBits_zero_f32

/-! ## The blocks of a point, and the fold over a row of the grid -/

/-- Row `r` of point `n`'s block is token `1024 n + r` (reduced into range, so that it is a token for every `n`). -/
def tokAt (n : ℕ) (r : Fin 1024) : Fin 32768 := ⟨(1024 * n + r.val) % 32768, Nat.mod_lt _ (by norm_num)⟩

/-- Where the windows' blocks sit at a point: the three token windows at block `t` of their first axis, the mean
    table whole, the three results at block `t / 16` of their first axis. -/
theorem idx_in : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem idx_out : ∀ t : Fin cfg0.N,
    win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0
    ∧ win0_6.index t (0 : Fin 3) = t.val / 16 ∧ win0_6.index t (1 : Fin 3) = 0 ∧ win0_6.index t (2 : Fin 3) = 0 :=
  (by decide +kernel : ∀ t : Fin grid0.N, _)

theorem lt32 (t : Fin cfg0.N) : t.val < 32 := lt_of_lt_of_eq t.isLt N_0

section Arrays
variable (V : (c : Dev nD) → (b : Ref sig .tc) → Buf (Elt Ideal) ((c : Thread nD τ).loc b)) (c : Dev nD)
  (X : Fin 32768 → Fin 3 → Fin 256 → EReal) (p : Fin 32768 → Fin 1024) (w : Fin 32768 → EReal)
  (mean : Fin 1024 → Fin 256 → EReal)
  (hX : ∀ t ch j, (V c main_v0 : S32768x3x256.Idx → EReal) (ix3 t ch j) = X t ch j)
  (hp : ∀ t, (V c main_v8 : S32768x1.Idx → BitVec 32) (ix2 t (0 : Fin 1)) = BitVec.ofNat 32 (p t).val)
  (hw : ∀ t, (V c main_v9 : S32768x1.Idx → EReal) (ix2 t (0 : Fin 1)) = w t)
  (hmean : ∀ s j, (V c main_v10 : S1024x256.Idx → EReal) (ix2 s j) = mean s j)

include hX in
/-- The value block of a point holds its tokens' values. -/
theorem xblk_apply (t : Fin cfg0.N) (r : Fin 1024) (ch : Fin 3) (j : Fin 256) :
    (iblk0 V c 0 t : Vec Ideal S1024x3x256 .f32) (ix3 r ch j) = X (tokAt t.val r) ch j := by
  obtain ⟨e0, e1, e2, -⟩ := idx_in t
  have hN := lt32 t
  rw [← hX]
  unfold iblk0
  rw [View.read_apply]
  show (V c main_v0 : S32768x3x256.Idx → EReal) _ = (V c main_v0 : S32768x3x256.Idx → EReal) _
  congr 1
  funext a
  apply Fin.ext
  match a with
  | ⟨0, _⟩ => show win0_0.index t (0 : Fin 3) * 1024 + 1 * r.val = (1024 * t.val + r.val) % 32768; rw [e0]; omega
  | ⟨1, _⟩ => show win0_0.index t (1 : Fin 3) * 3 + 1 * ch.val = ch.val; rw [e1]; omega
  | ⟨2, _⟩ => show win0_0.index t (2 : Fin 3) * 256 + 1 * j.val = j.val; rw [e2]; omega

include hp in
/-- The position block of a point holds its tokens' position words. -/
theorem pblk_apply (t : Fin cfg0.N) (r : Fin 1024) :
    (iblk0 V c 1 t : Vec Ideal S1024x1 .i32) (ix2 r (0 : Fin 1)) = BitVec.ofNat 32 (p (tokAt t.val r)).val := by
  obtain ⟨-, -, -, e0, e1, -⟩ := idx_in t
  have hN := lt32 t
  rw [← hp]
  unfold iblk0
  rw [View.read_apply]
  show (V c main_v8 : S32768x1.Idx → BitVec 32) _ = (V c main_v8 : S32768x1.Idx → BitVec 32) _
  congr 1
  funext a
  apply Fin.ext
  match a with
  | ⟨0, _⟩ => show win0_1.index t (0 : Fin 2) * 1024 + 1 * r.val = (1024 * t.val + r.val) % 32768; rw [e0]; omega
  | ⟨1, _⟩ => show win0_1.index t (1 : Fin 2) * 1 + 1 * 0 = 0; rw [e1]

include hw in
/-- The weight block of a point holds its tokens' weights. -/
theorem wblk_apply (t : Fin cfg0.N) (r : Fin 1024) :
    (iblk0 V c 2 t : Vec Ideal S1024x1 .f32) (ix2 r (0 : Fin 1)) = w (tokAt t.val r) := by
  obtain ⟨-, -, -, -, -, e0, e1, -⟩ := idx_in t
  have hN := lt32 t
  rw [← hw]
  unfold iblk0
  rw [View.read_apply]
  show (V c main_v9 : S32768x1.Idx → EReal) _ = (V c main_v9 : S32768x1.Idx → EReal) _
  congr 1
  funext a
  apply Fin.ext
  match a with
  | ⟨0, _⟩ => show win0_2.index t (0 : Fin 2) * 1024 + 1 * r.val = (1024 * t.val + r.val) % 32768; rw [e0]; omega
  | ⟨1, _⟩ => show win0_2.index t (1 : Fin 2) * 1 + 1 * 0 = 0; rw [e1]

include hmean in
/-- The mean block of every point is the whole old mean table. -/
theorem mblk_apply (t : Fin cfg0.N) (s : Fin 1024) (j : Fin 256) :
    (iblk0 V c 3 t : Vec Ideal S1024x256 .f32) (ix2 s j) = mean s j := by
  obtain ⟨-, -, -, -, -, -, -, e0, e1⟩ := idx_in t
  rw [← hmean]
  unfold iblk0
  rw [View.read_apply]
  show (V c main_v10 : S1024x256.Idx → EReal) _ = (V c main_v10 : S1024x256.Idx → EReal) _
  congr 1
  funext a
  apply Fin.ext
  match a with
  | ⟨0, _⟩ => show win0_3.index t (0 : Fin 2) * 1024 + 1 * s.val = s.val; rw [e0]; omega
  | ⟨1, _⟩ => show win0_3.index t (1 : Fin 2) * 256 + 1 * j.val = j.val; rw [e1]; omega

end Arrays

/-! ## What a row of the grid accumulates -/

/-- A row of the grid walks the tokens of one half: summing over its sixteen points and their 1024 rows is summing
    over the tokens of that half. -/
theorem regroup (a : Fin 2) (f : Fin 32768 → EReal) :
    (∑ i' ∈ Finset.range 16, ∑ r : Fin 1024, f (tokAt (16 * a.val + i') r))
      = ∑ t : Fin 32768, if t.val / 16384 = a.val then f t else 0 := by
  rw [Finset.sum_range (fun i' => ∑ r : Fin 1024, f (tokAt (16 * a.val + i') r)), ← Finset.sum_filter]
  refine (Fintype.sum_prod_type' (fun (i : Fin 16) (r : Fin 1024) => f (tokAt (16 * a.val + i.val) r))).symm.trans ?_
  have ha := a.isLt
  refine Finset.sum_bij (fun x _ => tokAt (16 * a.val + x.1.val) x.2) ?_ ?_ ?_ ?_
  · intro x _
    rw [Finset.mem_filter]
    refine ⟨Finset.mem_univ _, ?_⟩
    show (1024 * (16 * a.val + x.1.val) + x.2.val) % 32768 / 16384 = a.val
    have h1 := x.1.isLt
    have h2 := x.2.isLt
    omega
  · intro x _ y _ hxy
    have h := congrArg Fin.val hxy
    change (1024 * (16 * a.val + x.1.val) + x.2.val) % 32768 = (1024 * (16 * a.val + y.1.val) + y.2.val) % 32768 at h
    have h1 := x.1.isLt
    have h2 := x.2.isLt
    have h3 := y.1.isLt
    have h4 := y.2.isLt
    exact Prod.ext (Fin.ext (by omega)) (Fin.ext (by omega))
  · intro t ht
    rw [Finset.mem_filter] at ht
    have h1 := t.isLt
    have h2 := ht.2
    refine ⟨(⟨t.val / 1024 % 16, by omega⟩, ⟨t.val % 1024, by omega⟩), Finset.mem_univ _, Fin.ext ?_⟩
    show (1024 * (16 * a.val + t.val / 1024 % 16) + t.val % 1024) % 32768 = t.val
    omega
  · intro x _
    rfl

section Fold
variable (V : (c : Dev nD) → (b : Ref sig .tc) → Buf (Elt Ideal) ((c : Thread nD τ).loc b)) (c : Dev nD)
  (X : Fin 32768 → Fin 3 → Fin 256 → EReal) (p : Fin 32768 → Fin 1024) (w : Fin 32768 → EReal)
  (mean : Fin 1024 → Fin 256 → EReal)
  (hX : ∀ t ch j, (V c main_v0 : S32768x3x256.Idx → EReal) (ix3 t ch j) = X t ch j)
  (hp : ∀ t, (V c main_v8 : S32768x1.Idx → BitVec 32) (ix2 t (0 : Fin 1)) = BitVec.ofNat 32 (p t).val)
  (hw : ∀ t, (V c main_v9 : S32768x1.Idx → EReal) (ix2 t (0 : Fin 1)) = w t)
  (hmean : ∀ s j, (V c main_v10 : S1024x256.Idx → EReal) (ix2 s j) = mean s j)

/-- What token `t` adds at position `s` to the count, to the sum of deviations and to the sum of their squares. -/
def cntAt (s : Fin 1024) (t : Fin 32768) : EReal := if p t = s then w t else 0
def dsumAt (s : Fin 1024) (j : Fin 256) (t : Fin 32768) : EReal := if p t = s then deltaK X p w mean t j else 0
def sqAt (s : Fin 1024) (j : Fin 256) (t : Fin 32768) : EReal :=
  if p t = s then deltaK X p w mean t j * deltaK X p w mean t j else 0

include hX hw hmean in
/-- A row's weighted deviation, read off the point's blocks, is its token's. -/
theorem dev_tok (t : Fin cfg0.N) (r : Fin 1024) (j : Fin 256) :
    devAt (iblk0 V c 0 t) (iblk0 V c 2 t) (iblk0 V c 3 t) (fun r => p (tokAt t.val r)) r j
      = deltaK X p w mean (tokAt t.val r) j := by
  unfold devAt deltaK xmK
  rw [xblk_apply V c X hX, xblk_apply V c X hX, xblk_apply V c X hX, mblk_apply V c mean hmean, wblk_apply V c w hw]

include hp hw in
theorem point_cnt (t : Fin cfg0.N) (acc : Acc Ideal) (s : Fin 1024) :
    ((stepAcc (iblk0 V c 0 t) (iblk0 V c 1 t) (iblk0 V c 2 t) (iblk0 V c 3 t) acc).1 : S1024x1.Idx → EReal) (ix2 s (0 : Fin 1))
      = (acc.1 : S1024x1.Idx → EReal) (ix2 s (0 : Fin 1)) + ∑ r : Fin 1024, cntAt p w s (tokAt t.val r) := by
  refine (step_cnt (iblk0 V c 0 t) (iblk0 V c 1 t) (iblk0 V c 2 t) (iblk0 V c 3 t) (fun r => p (tokAt t.val r))
    (fun r => pblk_apply V c p hp t r) acc s).trans ?_
  refine congrArg (acc.1 (ix2 s (0 : Fin 1)) + ·) (Finset.sum_congr rfl fun r _ => ?_)
  unfold cntAt
  rw [wblk_apply V c w hw]

include hX hp hw hmean in
theorem point_dsum (t : Fin cfg0.N) (acc : Acc Ideal) (s : Fin 1024) (j : Fin 256) :
    ((stepAcc (iblk0 V c 0 t) (iblk0 V c 1 t) (iblk0 V c 2 t) (iblk0 V c 3 t) acc).2.1 : S1024x256.Idx → EReal) (ix2 s j)
      = (acc.2.1 : S1024x256.Idx → EReal) (ix2 s j) + ∑ r : Fin 1024, dsumAt X p w mean s j (tokAt t.val r) := by
  refine (step_dsum (iblk0 V c 0 t) (iblk0 V c 1 t) (iblk0 V c 2 t) (iblk0 V c 3 t) (fun r => p (tokAt t.val r))
    (fun r => pblk_apply V c p hp t r) acc s j).trans ?_
  refine congrArg (acc.2.1 (ix2 s j) + ·) (Finset.sum_congr rfl fun r _ => ?_)
  unfold dsumAt
  rw [dev_tok V c X p w mean hX hw hmean]

include hX hp hw hmean in
theorem point_sq (t : Fin cfg0.N) (acc : Acc Ideal) (s : Fin 1024) (j : Fin 256) :
    ((stepAcc (iblk0 V c 0 t) (iblk0 V c 1 t) (iblk0 V c 2 t) (iblk0 V c 3 t) acc).2.2 : S1024x256.Idx → EReal) (ix2 s j)
      = (acc.2.2 : S1024x256.Idx → EReal) (ix2 s j) + ∑ r : Fin 1024, sqAt X p w mean s j (tokAt t.val r) := by
  refine (step_sq (iblk0 V c 0 t) (iblk0 V c 1 t) (iblk0 V c 2 t) (iblk0 V c 3 t) (fun r => p (tokAt t.val r))
    (fun r => pblk_apply V c p hp t r) acc s j).trans ?_
  refine congrArg (acc.2.2 (ix2 s j) + ·) (Finset.sum_congr rfl fun r _ => ?_)
  unfold sqAt
  rw [dev_tok V c X p w mean hX hw hmean]

include hX hp hw hmean in
/-- THE FOLD: after point `16 a + i` of row `a` the three accumulators hold, at each position, what the tokens of
    the points `16 a … 16 a + i` add there. -/
theorem fold_row (a : Fin 2) : ∀ (i : ℕ) (_ : i < 16) (h : 16 * a.val + i < cfg0.N),
    (∀ s : Fin 1024, ((accAt0 V c (16 * a.val + i) h).1 : S1024x1.Idx → EReal) (ix2 s (0 : Fin 1))
        = ∑ i' ∈ Finset.range (i + 1), ∑ r : Fin 1024, cntAt p w s (tokAt (16 * a.val + i') r))
    ∧ (∀ (s : Fin 1024) (j : Fin 256), ((accAt0 V c (16 * a.val + i) h).2.1 : S1024x256.Idx → EReal) (ix2 s j)
        = ∑ i' ∈ Finset.range (i + 1), ∑ r : Fin 1024, dsumAt X p w mean s j (tokAt (16 * a.val + i') r))
    ∧ (∀ (s : Fin 1024) (j : Fin 256), ((accAt0 V c (16 * a.val + i) h).2.2 : S1024x256.Idx → EReal) (ix2 s j)
        = ∑ i' ∈ Finset.range (i + 1), ∑ r : Fin 1024, sqAt X p w mean s j (tokAt (16 * a.val + i') r))
  | 0, _, h => by
    have e : accAt0 V c (16 * a.val + 0) h
        = stepAcc (iblk0 V c 0 ⟨16 * a.val + 0, h⟩) (iblk0 V c 1 ⟨16 * a.val + 0, h⟩) (iblk0 V c 2 ⟨16 * a.val + 0, h⟩)
            (iblk0 V c 3 ⟨16 * a.val + 0, h⟩) zeroAcc :=
      accAt0_reset V c ⟨16 * a.val + 0, h⟩ (by show (16 * a.val + 0) % 16 = 0; omega)
    refine ⟨fun s => ?_, fun s j => ?_, fun s j => ?_⟩
    · rw [e, point_cnt V c p w hp hw, zero_cnt, zero_add, Finset.sum_range_one]
    · rw [e, point_dsum V c X p w mean hX hp hw hmean, zero_dsum, zero_add, Finset.sum_range_one]
    · rw [e, point_sq V c X p w mean hX hp hw hmean, zero_sq, zero_add, Finset.sum_range_one]
  | i + 1, hi, h => by
    obtain ⟨ih1, ih2, ih3⟩ := fold_row a i (by omega) (by omega)
    have e : accAt0 V c (16 * a.val + (i + 1)) h
        = stepAcc (iblk0 V c 0 ⟨16 * a.val + (i + 1), h⟩) (iblk0 V c 1 ⟨16 * a.val + (i + 1), h⟩)
            (iblk0 V c 2 ⟨16 * a.val + (i + 1), h⟩) (iblk0 V c 3 ⟨16 * a.val + (i + 1), h⟩)
            (accAt0 V c (16 * a.val + i) (by omega)) := by
      have e' := accAt0_succ V c (16 * a.val + i) h
      rw [if_neg (by omega)] at e'
      exact e'
    refine ⟨fun s => ?_, fun s j => ?_, fun s j => ?_⟩
    · rw [e, point_cnt V c p w hp hw, ih1, Finset.sum_range_succ _ (i + 1)]
    · rw [e, point_dsum V c X p w mean hX hp hw hmean, ih2, Finset.sum_range_succ _ (i + 1)]
    · rw [e, point_sq V c X p w mean hX hp hw hmean, ih3, Finset.sum_range_succ _ (i + 1)]

end Fold

/-! ## From the flushed blocks to the result arrays -/

/-- The two halves of the tokens together are all of them. -/
theorem halves (p : Fin 32768 → Fin 1024) (s : Fin 1024) (f : Fin 32768 → EReal) :
    (∑ t : Fin 32768, if t.val / 16384 = (0 : Fin 2).val ∧ p t = s then f t else 0)
      + (∑ t : Fin 32768, if t.val / 16384 = (1 : Fin 2).val ∧ p t = s then f t else 0)
      = ∑ t : Fin 32768, if p t = s then f t else 0 := by
  rw [← Finset.sum_add_distrib]
  refine Finset.sum_congr rfl fun t _ => ?_
  have ht := t.isLt
  have h01 : t.val / 16384 = 0 ∨ t.val / 16384 = 1 := by omega
  show (if t.val / 16384 = 0 ∧ p t = s then f t else 0) + (if t.val / 16384 = 1 ∧ p t = s then f t else 0) = _
  by_cases hps : p t = s
  · rcases h01 with h | h
    · rw [if_pos ⟨h, hps⟩, if_neg (fun hh => by have := hh.1; omega), if_pos hps, add_zero]
    · rw [if_neg (fun hh => by have := hh.1; omega), if_pos ⟨h, hps⟩, if_pos hps, zero_add]
  · rw [if_neg (fun hh => hps hh.2), if_neg (fun hh => hps hh.2), if_neg hps, add_zero]

/-- A count block is the count column with a unit axis in front. -/
theorem blk4_at (v : Vec Ideal S1024x1 .f32) (y : S1x1024x1.Idx) :
    (k0_pay4 (F := Ideal) v : S1x1024x1.Idx → EReal) y = v (ix2 (⟨(y 1).val, (y 1).isLt⟩ : Fin 1024) (0 : Fin 1)) := by
  unfold k0_pay4
  dsimp only
  refine (shapeCast_addUnit_apply ![1024, 1] v shapeCasts_S1024x1_S1x1024x1 y).trans ?_
  congr 1
  funext a
  apply Fin.ext
  match a with
  | ⟨0, _⟩ => rfl
  | ⟨1, _⟩ =>
    have h2 : (y 2).val < 1 := (y 2).isLt
    show (y 2).val = 0
    omega

/-- A table block is the table with a unit axis in front. -/
theorem blk5_at (v : Vec Ideal S1024x256 .f32) (y : S1x1024x256.Idx) :
    (k0_pay5 (F := Ideal) v : S1x1024x256.Idx → EReal) y
      = v (ix2 (⟨(y 1).val, (y 1).isLt⟩ : Fin 1024) (⟨(y 2).val, (y 2).isLt⟩ : Fin 256)) := by
  unfold k0_pay5
  dsimp only
  refine (shapeCast_addUnit_apply ![1024, 256] v shapeCasts_S1024x256_S1x1024x256 y).trans ?_
  congr 1
  funext a
  apply Fin.ext
  match a with
  | ⟨0, _⟩ => rfl
  | ⟨1, _⟩ => rfl
theorem blk6_at (v : Vec Ideal S1024x256 .f32) (y : S1x1024x256.Idx) :
    (k0_pay6 (F := Ideal) v : S1x1024x256.Idx → EReal) y
      = v (ix2 (⟨(y 1).val, (y 1).isLt⟩ : Fin 1024) (⟨(y 2).val, (y 2).isLt⟩ : Fin 256)) := by
  unfold k0_pay6
  dsimp only
  refine (shapeCast_addUnit_apply ![1024, 256] v shapeCasts_S1024x256_S1x1024x256 y).trans ?_
  congr 1
  funext a
  apply Fin.ext
  match a with
  | ⟨0, _⟩ => rfl
  | ⟨1, _⟩ => rfl

section Final
variable (V : (c : Dev nD) → (b : Ref sig .tc) → Buf (Elt Ideal) ((c : Thread nD τ).loc b)) (c : Dev nD)
  (X : Fin 32768 → Fin 3 → Fin 256 → EReal) (p : Fin 32768 → Fin 1024) (w : Fin 32768 → EReal)
  (mean : Fin 1024 → Fin 256 → EReal)
  (hX : ∀ t ch j, (V c main_v0 : S32768x3x256.Idx → EReal) (ix3 t ch j) = X t ch j)
  (hp : ∀ t, (V c main_v8 : S32768x1.Idx → BitVec 32) (ix2 t (0 : Fin 1)) = BitVec.ofNat 32 (p t).val)
  (hw : ∀ t, (V c main_v9 : S32768x1.Idx → EReal) (ix2 t (0 : Fin 1)) = w t)
  (hmean : ∀ s j, (V c main_v10 : S1024x256.Idx → EReal) (ix2 s j) = mean s j)

/-- The accumulators at a point depend on the point's number only. -/
theorem accAt0_congr (n m : ℕ) (e : n = m) (hn : n < cfg0.N) (hm : m < cfg0.N) :
    accAt0 (F := Ideal) V c n hn = accAt0 V c m hm := by
  subst e; rfl

/-- Half `a`'s totals at position `s`: the weights, the deviations and the squared deviations of its tokens there. -/
def cntRow (a : Fin 2) (s : Fin 1024) : EReal :=
  ∑ t : Fin 32768, if t.val / 16384 = a.val ∧ p t = s then w t else 0
def dsumRow (a : Fin 2) (s : Fin 1024) (j : Fin 256) : EReal :=
  ∑ t : Fin 32768, if t.val / 16384 = a.val ∧ p t = s then deltaK X p w mean t j else 0
def sqRow (a : Fin 2) (s : Fin 1024) (j : Fin 256) : EReal :=
  ∑ t : Fin 32768, if t.val / 16384 = a.val ∧ p t = s then deltaK X p w mean t j * deltaK X p w mean t j else 0

/-- The three result arrays as functions of the index. -/
def G4 : S2x1024x1.Idx → EReal := fun i => cntRow p w ⟨(i 0).val, (i 0).isLt⟩ ⟨(i 1).val, (i 1).isLt⟩
def G5 : S2x1024x256.Idx → EReal := fun i =>
  dsumRow X p w mean ⟨(i 0).val, (i 0).isLt⟩ ⟨(i 1).val, (i 1).isLt⟩ ⟨(i 2).val, (i 2).isLt⟩
def G6 : S2x1024x256.Idx → EReal := fun i =>
  sqRow X p w mean ⟨(i 0).val, (i 0).isLt⟩ ⟨(i 1).val, (i 1).isLt⟩ ⟨(i 2).val, (i 2).isLt⟩

include hX hp hw hmean in
/-- At the last point of a row of the grid the accumulators hold that half's totals. -/
theorem row_end (t : Fin cfg0.N) (h15 : t.val % 16 = 15) :
    (∀ s : Fin 1024, ((accAt0 V c t.val t.isLt).1 : S1024x1.Idx → EReal) (ix2 s (0 : Fin 1))
        = cntRow p w ⟨t.val / 16, by have := lt32 t; omega⟩ s)
    ∧ (∀ (s : Fin 1024) (j : Fin 256), ((accAt0 V c t.val t.isLt).2.1 : S1024x256.Idx → EReal) (ix2 s j)
        = dsumRow X p w mean ⟨t.val / 16, by have := lt32 t; omega⟩ s j)
    ∧ (∀ (s : Fin 1024) (j : Fin 256), ((accAt0 V c t.val t.isLt).2.2 : S1024x256.Idx → EReal) (ix2 s j)
        = sqRow X p w mean ⟨t.val / 16, by have := lt32 t; omega⟩ s j) := by
  have hN := lt32 t
  have e : t.val = 16 * (t.val / 16) + 15 := by omega
  have h : 16 * (t.val / 16) + 15 < cfg0.N := lt_of_eq_of_lt e.symm t.isLt
  rw [accAt0_congr V c _ _ e t.isLt h]
  obtain ⟨f1, f2, f3⟩ := fold_row V c X p w mean hX hp hw hmean ⟨t.val / 16, by omega⟩ 15 (by norm_num) h
  refine ⟨fun s => ?_, fun s j => ?_, fun s j => ?_⟩
  · rw [f1 s, regroup ⟨t.val / 16, by omega⟩ (cntAt p w s)]
    unfold cntRow cntAt
    refine Finset.sum_congr rfl fun u _ => ?_
    rw [ite_and]
  · rw [f2 s j, regroup ⟨t.val / 16, by omega⟩ (dsumAt X p w mean s j)]
    unfold dsumRow dsumAt
    refine Finset.sum_congr rfl fun u _ => ?_
    rw [ite_and]
  · rw [f3 s j, regroup ⟨t.val / 16, by omega⟩ (sqAt X p w mean s j)]
    unfold sqRow sqAt
    refine Finset.sum_congr rfl fun u _ => ?_
    rw [ite_and]

/-- The three result arrays after the launch. -/
abbrev arr4 : S2x1024x1.Idx → EReal := (dat0 (F := Ideal) V c).arrAt 4 cfg0.N
abbrev arr5 : S2x1024x256.Idx → EReal := (dat0 (F := Ideal) V c).arrAt 5 cfg0.N
abbrev arr6 : S2x1024x256.Idx → EReal := (dat0 (F := Ideal) V c).arrAt 6 cfg0.N

include hX hp hw hmean in
/-- What a point that writes back writes of the counts is its block of `G4`. -/
theorem flushed4_eq (t : Fin cfg0.N) (hf : (cfg0.win 4).flush t = true) :
    (dat0 (F := Ideal) V c).flushed 4 t = ((cfg0.win 4).blk t).view.read (Elt Ideal) (G4 p w) := by
  have h15 : t.val % 16 = 15 := (flush0_4 t).mp hf
  have hN := lt32 t
  obtain ⟨e0, e1, e2, -⟩ := idx_out t
  show (cfg0.win 4).cut (grid0.coords t) ((dat0 (F := Ideal) V c).after 4 t) = _
  rw [after0_4]
  funext y
  rw [View.read_apply]
  refine Eq.trans ?_ (cast_eq _ _).symm
  show k0_pay4 (F := Ideal) (accAt0 V c t.val t.isLt).1 ((cfg0.win 4).xinj (grid0.coords t) y) = _
  refine (blk4_at _ _).trans ?_
  rw [(row_end V c X p w mean hX hp hw hmean t h15).1]
  unfold G4
  refine congrArg₂ (cntRow p w) (Fin.ext ?_) (Fin.ext ?_)
  · show t.val / 16 = win0_4.index t (0 : Fin 3) * 1 + 1 * (y 0).val
    have h0 : (y 0).val < 1 := (y 0).isLt
    rw [e0]; omega
  · show (y 1).val = win0_4.index t (1 : Fin 3) * 1024 + 1 * (y 1).val
    rw [e1]; omega

include hX hp hw hmean in
/-- What a point that writes back writes of the deviation sums is its block of `G5`. -/
theorem flushed5_eq (t : Fin cfg0.N) (hf : (cfg0.win 5).flush t = true) :
    (dat0 (F := Ideal) V c).flushed 5 t = ((cfg0.win 5).blk t).view.read (Elt Ideal) (G5 X p w mean) := by
  have h15 : t.val % 16 = 15 := (flush0_5 t).mp hf
  have hN := lt32 t
  obtain ⟨-, -, -, e0, e1, e2, -⟩ := idx_out t
  show (cfg0.win 5).cut (grid0.coords t) ((dat0 (F := Ideal) V c).after 5 t) = _
  rw [after0_5]
  funext y
  rw [View.read_apply]
  refine Eq.trans ?_ (cast_eq _ _).symm
  show k0_pay5 (F := Ideal) (accAt0 V c t.val t.isLt).2.1 ((cfg0.win 5).xinj (grid0.coords t) y) = _
  refine (blk5_at _ _).trans ?_
  rw [(row_end V c X p w mean hX hp hw hmean t h15).2.1]
  unfold G5
  refine congr (congrArg₂ (dsumRow X p w mean) (Fin.ext ?_) (Fin.ext ?_)) (Fin.ext ?_)
  · show t.val / 16 = win0_5.index t (0 : Fin 3) * 1 + 1 * (y 0).val
    have h0 : (y 0).val < 1 := (y 0).isLt
    rw [e0]; omega
  · show (y 1).val = win0_5.index t (1 : Fin 3) * 1024 + 1 * (y 1).val
    rw [e1]; omega
  · show (y 2).val = win0_5.index t (2 : Fin 3) * 256 + 1 * (y 2).val
    rw [e2]; omega

include hX hp hw hmean in
/-- What a point that writes back writes of the squared-deviation sums is its block of `G6`. -/
theorem flushed6_eq (t : Fin cfg0.N) (hf : (cfg0.win 6).flush t = true) :
    (dat0 (F := Ideal) V c).flushed 6 t = ((cfg0.win 6).blk t).view.read (Elt Ideal) (G6 X p w mean) := by
  have h15 : t.val % 16 = 15 := (flush0_6 t).mp hf
  have hN := lt32 t
  obtain ⟨-, -, -, -, -, -, e0, e1, e2⟩ := idx_out t
  show (cfg0.win 6).cut (grid0.coords t) ((dat0 (F := Ideal) V c).after 6 t) = _
  rw [after0_6]
  funext y
  rw [View.read_apply]
  refine Eq.trans ?_ (cast_eq _ _).symm
  show k0_pay6 (F := Ideal) (accAt0 V c t.val t.isLt).2.2 ((cfg0.win 6).xinj (grid0.coords t) y) = _
  refine (blk6_at _ _).trans ?_
  rw [(row_end V c X p w mean hX hp hw hmean t h15).2.2]
  unfold G6
  refine congr (congrArg₂ (sqRow X p w mean) (Fin.ext ?_) (Fin.ext ?_)) (Fin.ext ?_)
  · show t.val / 16 = win0_6.index t (0 : Fin 3) * 1 + 1 * (y 0).val
    have h0 : (y 0).val < 1 := (y 0).isLt
    rw [e0]; omega
  · show (y 1).val = win0_6.index t (1 : Fin 3) * 1024 + 1 * (y 1).val
    rw [e1]; omega
  · show (y 2).val = win0_6.index t (2 : Fin 3) * 256 + 1 * (y 2).val
    rw [e2]; omega

/-- Half `a`'s entries of a result array lie in the block the last point of row `a` writes back. -/
theorem mem4 (a : Fin 2) (s : Fin 1024) (t : Fin cfg0.N) (ht : t.val = 16 * a.val + 15) :
    (ix3 a s (0 : Fin 1) : S2x1024x1.Idx) ∈ ((cfg0.win 4).blk t).view.set := by
  obtain ⟨e0, e1, e2, -⟩ := idx_out t
  have ha := a.isLt
  have hs := s.isLt
  show (ix3 a s (0 : Fin 1) : S2x1024x1.Idx) ∈ ((View.whole main_v13_0).slice (win0_4.rect t)).set
  rw [View.set_slice_whole, Rect.mem_set_unit]
  intro ax
  match ax with
  | ⟨0, _⟩ =>
    show win0_4.index t (0 : Fin 3) * 1 ≤ a.val ∧ a.val < win0_4.index t (0 : Fin 3) * 1 + 1
    rw [e0]; omega
  | ⟨1, _⟩ =>
    show win0_4.index t (1 : Fin 3) * 1024 ≤ s.val ∧ s.val < win0_4.index t (1 : Fin 3) * 1024 + 1024
    rw [e1]; omega
  | ⟨2, _⟩ =>
    show win0_4.index t (2 : Fin 3) * 1 ≤ 0 ∧ 0 < win0_4.index t (2 : Fin 3) * 1 + 1
    rw [e2]; omega

theorem mem5 (a : Fin 2) (s : Fin 1024) (j : Fin 256) (t : Fin cfg0.N) (ht : t.val = 16 * a.val + 15) :
    (ix3 a s j : S2x1024x256.Idx) ∈ ((cfg0.win 5).blk t).view.set := by
  obtain ⟨-, -, -, e0, e1, e2, -⟩ := idx_out t
  have ha := a.isLt
  have hs := s.isLt
  have hj := j.isLt
  show (ix3 a s j : S2x1024x256.Idx) ∈ ((View.whole main_v13_1).slice (win0_5.rect t)).set
  rw [View.set_slice_whole, Rect.mem_set_unit]
  intro ax
  match ax with
  | ⟨0, _⟩ =>
    show win0_5.index t (0 : Fin 3) * 1 ≤ a.val ∧ a.val < win0_5.index t (0 : Fin 3) * 1 + 1
    rw [e0]; omega
  | ⟨1, _⟩ =>
    show win0_5.index t (1 : Fin 3) * 1024 ≤ s.val ∧ s.val < win0_5.index t (1 : Fin 3) * 1024 + 1024
    rw [e1]; omega
  | ⟨2, _⟩ =>
    show win0_5.index t (2 : Fin 3) * 256 ≤ j.val ∧ j.val < win0_5.index t (2 : Fin 3) * 256 + 256
    rw [e2]; omega

theorem mem6 (a : Fin 2) (s : Fin 1024) (j : Fin 256) (t : Fin cfg0.N) (ht : t.val = 16 * a.val + 15) :
    (ix3 a s j : S2x1024x256.Idx) ∈ ((cfg0.win 6).blk t).view.set := by
  obtain ⟨-, -, -, -, -, -, e0, e1, e2⟩ := idx_out t
  have ha := a.isLt
  have hs := s.isLt
  have hj := j.isLt
  show (ix3 a s j : S2x1024x256.Idx) ∈ ((View.whole main_v13_2).slice (win0_6.rect t)).set
  rw [View.set_slice_whole, Rect.mem_set_unit]
  intro ax
  match ax with
  | ⟨0, _⟩ =>
    show win0_6.index t (0 : Fin 3) * 1 ≤ a.val ∧ a.val < win0_6.index t (0 : Fin 3) * 1 + 1
    rw [e0]; omega
  | ⟨1, _⟩ =>
    show win0_6.index t (1 : Fin 3) * 1024 ≤ s.val ∧ s.val < win0_6.index t (1 : Fin 3) * 1024 + 1024
    rw [e1]; omega
  | ⟨2, _⟩ =>
    show win0_6.index t (2 : Fin 3) * 256 ≤ j.val ∧ j.val < win0_6.index t (2 : Fin 3) * 256 + 256
    rw [e2]; omega

/-- The last point of row `a` of the grid is one of its 32 points. -/
theorem last_lt (a : Fin 2) : 16 * a.val + 15 < cfg0.N :=
  lt_of_lt_of_eq (by have := a.isLt; omega : 16 * a.val + 15 < 32) N_0.symm

end Final

end A0

open A0

section Results
variable (V : (c : Dev nD) → (b : Ref sig .tc) → Buf (Elt Ideal) ((c : Thread nD τ).loc b)) (c : Dev nD)
  (X : Fin 32768 → Fin 3 → Fin 256 → EReal) (p : Fin 32768 → Fin 1024) (w : Fin 32768 → EReal)
  (mean : Fin 1024 → Fin 256 → EReal)
  (hX : ∀ t ch j, (V c main_v0 : S32768x3x256.Idx → EReal) (ix3 t ch j) = X t ch j)
  (hp : ∀ t, (V c main_v8 : S32768x1.Idx → BitVec 32) (ix2 t (0 : Fin 1)) = BitVec.ofNat 32 (p t).val)
  (hw : ∀ t, (V c main_v9 : S32768x1.Idx → EReal) (ix2 t (0 : Fin 1)) = w t)
  (hmean : ∀ s j, (V c main_v10 : S1024x256.Idx → EReal) (ix2 s j) = mean s j)

include hX hp hw hmean in
/-- THE COUNTS: entry `(a, s)` of the first result is the weights of half `a`'s tokens at position `s`. -/
theorem arr0_counts (a : Fin 2) (s : Fin 1024) :
    ((dat0 (F := Ideal) V c).arrAt 4 cfg0.N : S2x1024x1.Idx → EReal) (ix3 a s (0 : Fin 1))
      = ∑ t : Fin 32768, if t.val / 16384 = a.val ∧ p t = s then w t else 0 :=
  (dat0 (F := Ideal) V c).arrAt_apply_of_mem 4 (G4 p w) (flushed4_eq V c X p w mean hX hp hw hmean) cfg0.N
    ⟨16 * a.val + 15, last_lt a⟩ (ix3 a s (0 : Fin 1)) (last_lt a)
    ((flush0_4 _).mpr (by show (16 * a.val + 15) % 16 = 15; omega)) (mem4 a s _ rfl)

include hX hp hw hmean in
/-- THE DEVIATION SUMS: entry `(a, s, j)` of the second result is the deviations of half `a`'s tokens at `s`. -/
theorem arr0_dsum (a : Fin 2) (s : Fin 1024) (j : Fin 256) :
    ((dat0 (F := Ideal) V c).arrAt 5 cfg0.N : S2x1024x256.Idx → EReal) (ix3 a s j)
      = ∑ t : Fin 32768, if t.val / 16384 = a.val ∧ p t = s then deltaK X p w mean t j else 0 :=
  (dat0 (F := Ideal) V c).arrAt_apply_of_mem 5 (G5 X p w mean) (flushed5_eq V c X p w mean hX hp hw hmean) cfg0.N
    ⟨16 * a.val + 15, last_lt a⟩ (ix3 a s j) (last_lt a)
    ((flush0_5 _).mpr (by show (16 * a.val + 15) % 16 = 15; omega)) (mem5 a s j _ rfl)

include hX hp hw hmean in
/-- THE SQUARED-DEVIATION SUMS: entry `(a, s, j)` of the third result. -/
theorem arr0_sqsum (a : Fin 2) (s : Fin 1024) (j : Fin 256) :
    ((dat0 (F := Ideal) V c).arrAt 6 cfg0.N : S2x1024x256.Idx → EReal) (ix3 a s j)
      = ∑ t : Fin 32768, if t.val / 16384 = a.val ∧ p t = s
          then deltaK X p w mean t j * deltaK X p w mean t j else 0 :=
  (dat0 (F := Ideal) V c).arrAt_apply_of_mem 6 (G6 X p w mean) (flushed6_eq V c X p w mean hX hp hw hmean) cfg0.N
    ⟨16 * a.val + 15, last_lt a⟩ (ix3 a s j) (last_lt a)
    ((flush0_6 _).mpr (by show (16 * a.val + 15) % 16 = 15; omega)) (mem6 a s j _ rfl)

include hX hp hw hmean in
/-- The two halves' counts together are the position's count. -/
theorem arr0_counts_total (s : Fin 1024) :
    arr4 V c (ix3 (0 : Fin 2) s (0 : Fin 1)) + arr4 V c (ix3 (1 : Fin 2) s (0 : Fin 1)) = counts p w s := by
  unfold arr4
  rw [arr0_counts V c X p w mean hX hp hw hmean, arr0_counts V c X p w mean hX hp hw hmean]
  exact halves p s w

include hX hp hw hmean in
/-- The two halves' deviation sums together are the position's. -/
theorem arr0_dsum_total (s : Fin 1024) (j : Fin 256) :
    arr5 V c (ix3 (0 : Fin 2) s j) + arr5 V c (ix3 (1 : Fin 2) s j) = dsumK X p w mean s j := by
  unfold arr5
  rw [arr0_dsum V c X p w mean hX hp hw hmean, arr0_dsum V c X p w mean hX hp hw hmean]
  exact halves p s (fun t => deltaK X p w mean t j)

include hX hp hw hmean in
/-- The two halves' squared-deviation sums together are the position's. -/
theorem arr0_sqsum_total (s : Fin 1024) (j : Fin 256) :
    arr6 V c (ix3 (0 : Fin 2) s j) + arr6 V c (ix3 (1 : Fin 2) s j) = sqsumK X p w mean s j := by
  unfold arr6
  rw [arr0_sqsum V c X p w mean hX hp hw hmean, arr0_sqsum V c X p w mean hX hp hw hmean]
  exact halves p s (fun t => deltaK X p w mean t j * deltaK X p w mean t j)

end Results

end Cert.KernelIdeal.Hand

end
-- ==== Proof.KI.Arr1.lean ====
/-
  The second launch's result array, read at an index, at the exact values.

  The launch walks 32 points. At point t its body sees rows 1024 t … 1024 t + 1023 of the tokens' values
  [32768, 3, 256], of their position words and of their weights, and all of four [1024, 256] tables: the mean and
  the deviation, each as a head and a residual. It builds the [1024, 1024] table of ones and zeros whose row r has
  its one at the position row r's word names, multiplies it with each table into zero — so row r of a product is the
  table's row at r's position: a sum over the table's rows against the indicator of one row —, adds head and
  residual, and stores, for every channel, the value less the mean, times one over the deviation plus a small
  constant, times the weight. The block is written back at every point, and the 32 blocks tile the result array:
  index (T, ch, j) lies in the block of point T / 1024, at row T % 1024. So the array ends holding one function of
  the launch's inputs, index by index.

  First the body's stored block read at (r, ch, j), over any seven input blocks; then each input block as rows of
  its array; then what a point writes back as that point's block of the whole-array function, the tiling, and the
  array.
-/
import proofs.«420308_j72095321030973_2_alg».proof.Proof.KI.Data
import proofs.«420308_j72095321030973_2_alg».proof.Proof.Spec
import proofs.«420308_j72095321030973_2_alg».proof.Proof.LibMatmulRows
import proofs.«420308_j72095321030973_2_alg».proof.Proof.LibOneHot
import Idealize.ShloMosaic.Lib.Pipeline.Value
import Idealize.ShloMosaic.Lib.ValueIdx
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PatchStats Idealize.ShloMosaic.ValueIdx

/-! Everything but the last theorem is auxiliary and lives in its own namespace. -/
namespace A1

/-! ## The table of ones and zeros -/

/-- The table of ones and zeros the position words spell: entry (r, s) is one exactly when row r's word is s. -/
def onehot (pf : Vec Ideal S1024x1 .i32) : FVec Ideal S1024x1024 .bf16 :=
  truncf .bf16 (sitofp .f32 (extui 32 (cmpi .eq (broadcastTo S1024x1024 (shapeCast S1024x1 pf shapeCasts_S1024x1_S1024x1) broadcasts_S1024x1_S1024x1024) (iota .tc S1024x1024 32 [1] iota_S1024x1024_d1_w32)) natLt_1_32) : FVec Ideal S1024x1024 .f32) bitsLt_bf16_f32

theorem onehot_apply (pf : Vec Ideal S1024x1 .i32) (r s : Fin 1024) :
    onehot pf (ix2 r s) = if pf (ix2 r (0 : Fin 1)) = BitVec.ofNat 32 s.val then (1 : EReal) else 0 := by
  unfold onehot
  rw [truncf_apply, sitofp_apply, extui_apply]
  show FloatOps.sitofp (F := Ideal) .f32 ((IntOp.cmpi .eq (broadcastTo S1024x1024 (shapeCast S1024x1 pf shapeCasts_S1024x1_S1024x1) broadcasts_S1024x1_S1024x1024 (ix2 r s)) (iota .tc S1024x1024 32 [1] iota_S1024x1024_d1_w32 (ix2 r s))).setWidth 32) = _
  rw [iota_single_apply, shapeCast_self]
  have eb : broadcastTo S1024x1024 pf broadcasts_S1024x1_S1024x1024 (ix2 r s) = pf (ix2 r (0 : Fin 1)) := by
    refine broadcastTo_apply pf _ (ix2 r s) (ix2 r (0 : Fin 1)) fun a => ?_
    match a with
    | ⟨0, _⟩ => rfl
    | ⟨1, _⟩ => rfl
  rw [eb]
  show FloatOps.sitofp (F := Ideal) .f32 ((IntOp.cmpi .eq (pf (ix2 r (0 : Fin 1))) (BitVec.ofNat 32 s.val)).setWidth 32) = _
  by_cases h : pf (ix2 r (0 : Fin 1)) = BitVec.ofNat 32 s.val
  · rw [if_pos h, StableHlo.Predicate.cmpi_eq_iff.mpr h]
    show ((((BitVec.setWidth 32 1#1).toInt : ℤ) : ℝ) : EReal) = 1
    rw [show (BitVec.setWidth 32 1#1).toInt = 1 from by decide, Int.cast_one, EReal.coe_one]
  · rw [if_neg h, eq_zero_of_ne_one (fun e => h (StableHlo.Predicate.cmpi_eq_iff.mp e))]
    show ((((BitVec.setWidth 32 0#1).toInt : ℤ) : ℝ) : EReal) = 0
    rw [show (BitVec.setWidth 32 0#1).toInt = 0 from by decide, Int.cast_zero, EReal.coe_zero]

/-- Two positions below 1024 with one 32-bit word are one position. -/
theorem ofNat_eq_iff (s k : Fin 1024) : BitVec.ofNat 32 s.val = BitVec.ofNat 32 k.val ↔ k = s := by
  constructor
  · intro h
    have h' := congrArg BitVec.toNat h
    rw [BitVec.toNat_ofNat, BitVec.toNat_ofNat] at h'
    have hs := s.isLt
    have hk := k.isLt
    exact Fin.ext (by omega)
  · rintro rfl; rfl

/-- A table looked up as a product: the one-hot table of the position words times the table, into zero. -/
def look (pf : Vec Ideal S1024x1 .i32) (tb : FVec Ideal S1024x256 .bf16) : FVec Ideal S1024x256 .f32 :=
  matmul dot_S1024x1024_S1024x256_S1024x256_1_0_0_1_n_n none (onehot pf) (shapeCast S1024x256 tb shapeCasts_S1024x256_S1024x256) (constant S1024x256 .f32 0x00000000#32)

/-- Row r of the lookup is the table's row s when r's word is s: the sum over the table's rows against the
    indicator of one row. -/
theorem look_apply (pf : Vec Ideal S1024x1 .i32) (tb : FVec Ideal S1024x256 .bf16) (r s : Fin 1024) (j : Fin 256)
    (hpf : pf (ix2 r (0 : Fin 1)) = BitVec.ofNat 32 s.val) :
    look pf tb (ix2 r j) = tb (ix2 s j) := by
  unfold look
  rw [shapeCast_self]
  refine (Cert.Gcn.Lib.matmul_rows_apply dot_S1024x1024_S1024x256_S1024x256_1_0_0_1_n_n_wf dot_S1024x1024_S1024x256_S1024x256_1_0_0_1_n_n rfl none (onehot pf) tb r j).trans ?_
  simp only [onehot_apply, hpf]
  exact Cert.OneHot.sum_indicator_mul_eq s (fun k : Fin 1024 => tb (ix2 k j)) (fun k : Fin 1024 => BitVec.ofNat 32 s.val = BitVec.ofNat 32 k.val) (ofNat_eq_iff s)

/-! ## The two ways a table or a column is spread over the three channels -/

/-- A [1024, 256] table viewed [1024, 1, 256] and repeated over the middle axis reads (r, ·, j) at (r, j). -/
theorem spread_tab_apply (v : FVec Ideal S1024x256 .f32) (r : Fin 1024) (ch : Fin 3) (j : Fin 256) :
    broadcastTo S1024x3x256 (shapeCast S1024x1x256 v shapeCasts_S1024x256_S1024x1x256) broadcasts_S1024x1x256_S1024x3x256 (ix3 r ch j) = v (ix2 r j) := by
  refine (broadcastTo_apply _ _ (ix3 r ch j) (ix3 r (0 : Fin 1) j) fun a => ?_).trans ?_
  · match a with
    | ⟨0, _⟩ => rfl
    | ⟨1, _⟩ => rfl
    | ⟨2, _⟩ => rfl
  · refine shapeCast_apply v _ (ix3 r (0 : Fin 1) j) (ix2 r j) ?_
    rw [Shape.rowMajor_val_two, Shape.rowMajor_val_three]
    show r.val * 256 + j.val = (r.val * 1 + 0) * 256 + j.val
    omega

/-- A [1024, 1] column viewed [1024, 1, 1] and repeated over the two trailing axes reads (r, ·, ·) at (r, 0). -/
theorem spread_col_apply (v : FVec Ideal S1024x1 .f32) (r : Fin 1024) (ch : Fin 3) (j : Fin 256) :
    broadcastTo S1024x3x256 (shapeCast S1024x1x1 v shapeCasts_S1024x1_S1024x1x1) broadcasts_S1024x1x1_S1024x3x256 (ix3 r ch j) = v (ix2 r (0 : Fin 1)) := by
  refine (broadcastTo_apply _ _ (ix3 r ch j) (ix3 r (0 : Fin 1) (0 : Fin 1)) fun a => ?_).trans ?_
  · match a with
    | ⟨0, _⟩ => rfl
    | ⟨1, _⟩ => rfl
    | ⟨2, _⟩ => rfl
  · refine shapeCast_apply v _ (ix3 r (0 : Fin 1) (0 : Fin 1)) (ix2 r (0 : Fin 1)) ?_
    rw [Shape.rowMajor_val_two, Shape.rowMajor_val_three]
    show r.val * 1 + 0 = (r.val * 1 + 0) * 1 + 0
    omega

/-! ## What the body stores, read at a row, a channel and a value index -/

/-- The stored block as the tree of its operations over the one-hot lookups. -/
theorem val1_fold (x : Vec Ideal S1024x3x256 .f32) (pf : Vec Ideal S1024x1 .i32) (wv : Vec Ideal S1024x1 .f32)
    (mh ml sh sl : Vec Ideal S1024x256 .bf16) :
    (val1 x pf wv mh ml sh sl : FVec Ideal S1024x3x256 .f32)
      = mulf (mulf (subf (shapeCast S1024x3x256 x shapeCasts_S1024x3x256_S1024x3x256)
            (broadcastTo S1024x3x256 (shapeCast S1024x1x256 (addf (look pf mh) (look pf ml)) shapeCasts_S1024x256_S1024x1x256) broadcasts_S1024x1x256_S1024x3x256))
          (broadcastTo S1024x3x256 (shapeCast S1024x1x256
            (divf (broadcast S1024x256 (FloatOps.ofBits (F := Ideal) .f32 0x3F800000#32))
              (addf (addf (look pf sh) (look pf sl)) (broadcast S1024x256 (FloatOps.ofBits (F := Ideal) .f32 0x358637BD#32))))
            shapeCasts_S1024x256_S1024x1x256) broadcasts_S1024x1x256_S1024x3x256))
        (broadcastTo S1024x3x256 (shapeCast S1024x1x1 (shapeCast S1024x1 wv shapeCasts_S1024x1_S1024x1) shapeCasts_S1024x1_S1024x1x1) broadcasts_S1024x1x1_S1024x3x256) := rfl

/-- THE STORED BLOCK AT (r, ch, j), for a row whose position word is s: the value less the looked-up mean (its two
    halves added), times one over the looked-up deviation (its two halves added) plus the small constant, times
    the row's weight. -/
theorem val1_apply (x : Vec Ideal S1024x3x256 .f32) (pf : Vec Ideal S1024x1 .i32) (wv : Vec Ideal S1024x1 .f32)
    (mh ml sh sl : Vec Ideal S1024x256 .bf16) (r s : Fin 1024) (ch : Fin 3) (j : Fin 256)
    (hpf : pf (ix2 r (0 : Fin 1)) = BitVec.ofNat 32 s.val) :
    (val1 x pf wv mh ml sh sl : FVec Ideal S1024x3x256 .f32) (ix3 r ch j)
      = (x (ix3 r ch j) - (mh (ix2 s j) + ml (ix2 s j))) * Ideal.div c1 ((sh (ix2 s j) + sl (ix2 s j)) + ceps) * wv (ix2 r (0 : Fin 1)) := by
  rw [val1_fold]
  rw [mulf_apply, mulf_apply, subf_apply, spread_tab_apply, spread_tab_apply, spread_col_apply, shapeCast_self, shapeCast_self,
    divf_apply, addf_apply, addf_apply, addf_apply, broadcast_apply, broadcast_apply,
    look_apply pf mh r s j hpf, look_apply pf ml r s j hpf, look_apply pf sh r s j hpf, look_apply pf sl r s j hpf]
  rfl

/-! ## From the blocks to the array -/

/-- The printed index maps over the grid: the token windows' blocks (the values, the position words, the weights, the
    result) sit at block row t, the four tables' at block 0. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- The grid has 32 points. -/
theorem N1 : cfg1.N = 32 := rfl

section
variable (V : (c : Dev nD) → (b : Ref sig .tc) → Buf (Elt Ideal) ((c : Thread nD τ).loc b)) (c : Dev nD)

/-! ### The input blocks as rows of their arrays

A block's coordinate on an axis is its block index times the block's extent plus the coordinate inside. -/

/-- Row r, channel ch, value j of the values' block at point t is token 1024 t + r of the array. -/
theorem iblk1_0_apply (t : Fin cfg1.N) (r : Fin 1024) (ch : Fin 3) (j : Fin 256) (T : Fin 32768)
    (hT : T.val = 1024 * t.val + r.val) :
    (iblk1 (F := Ideal) V c 0 t : Vec Ideal S1024x3x256 .f32) (ix3 r ch j) = (V c main_v0 : S32768x3x256.Idx → EReal) (ix3 T ch j) := by
  obtain ⟨e0, e1, e2, -⟩ := idx_facts1 t
  unfold iblk1
  rw [View.read_apply]
  show V c main_v0 _ = V c main_v0 _
  congr 1
  funext a
  apply Fin.ext
  match a with
  | ⟨0, _⟩ => show win1_0.index t (0 : Fin 3) * 1024 + 1 * r.val = T.val; rw [e0, hT]; omega
  | ⟨1, _⟩ => show win1_0.index t (1 : Fin 3) * 3 + 1 * ch.val = ch.val; rw [e1]; omega
  | ⟨2, _⟩ => show win1_0.index t (2 : Fin 3) * 256 + 1 * j.val = j.val; rw [e2]; omega

/-- Row r of the position words' block at point t is token 1024 t + r of the array. -/
theorem iblk1_1_apply (t : Fin cfg1.N) (r : Fin 1024) (T : Fin 32768) (hT : T.val = 1024 * t.val + r.val) :
    (iblk1 (F := Ideal) V c 1 t : Vec Ideal S1024x1 .i32) (ix2 r (0 : Fin 1)) = (V c main_v8 : S32768x1.Idx → BitVec 32) (ix2 T (0 : Fin 1)) := by
  obtain ⟨-, -, -, e0, e1, -⟩ := idx_facts1 t
  unfold iblk1
  rw [View.read_apply]
  show V c main_v8 _ = V c main_v8 _
  congr 1
  funext a
  apply Fin.ext
  match a with
  | ⟨0, _⟩ => show win1_1.index t (0 : Fin 2) * 1024 + 1 * r.val = T.val; rw [e0, hT]; omega
  | ⟨1, _⟩ => show win1_1.index t (1 : Fin 2) * 1 + 1 * 0 = 0; rw [e1]

/-- Row r of the weights' block at point t is token 1024 t + r of the array. -/
theorem iblk1_2_apply (t : Fin cfg1.N) (r : Fin 1024) (T : Fin 32768) (hT : T.val = 1024 * t.val + r.val) :
    (iblk1 (F := Ideal) V c 2 t : Vec Ideal S1024x1 .f32) (ix2 r (0 : Fin 1)) = (V c main_v9 : S32768x1.Idx → EReal) (ix2 T (0 : Fin 1)) := by
  obtain ⟨-, -, -, -, -, e0, e1, -⟩ := idx_facts1 t
  unfold iblk1
  rw [View.read_apply]
  show V c main_v9 _ = V c main_v9 _
  congr 1
  funext a
  apply Fin.ext
  match a with
  | ⟨0, _⟩ => show win1_2.index t (0 : Fin 2) * 1024 + 1 * r.val = T.val; rw [e0, hT]; omega
  | ⟨1, _⟩ => show win1_2.index t (1 : Fin 2) * 1 + 1 * 0 = 0; rw [e1]

/-- Each table's block at every point is the table. -/
theorem iblk1_3_apply (t : Fin cfg1.N) (s : Fin 1024) (j : Fin 256) :
    (iblk1 (F := Ideal) V c 3 t : Vec Ideal S1024x256 .bf16) (ix2 s j) = (V c main_v34 : S1024x256.Idx → EReal) (ix2 s j) := by
  obtain ⟨-, -, -, -, -, -, -, e0, e1, -⟩ := idx_facts1 t
  unfold iblk1
  rw [View.read_apply]
  show V c main_v34 _ = V c main_v34 _
  congr 1
  funext a
  apply Fin.ext
  match a with
  | ⟨0, _⟩ => show win1_3.index t (0 : Fin 2) * 1024 + 1 * s.val = s.val; rw [e0]; omega
  | ⟨1, _⟩ => show win1_3.index t (1 : Fin 2) * 256 + 1 * j.val = j.val; rw [e1]; omega

theorem iblk1_4_apply (t : Fin cfg1.N) (s : Fin 1024) (j : Fin 256) :
    (iblk1 (F := Ideal) V c 4 t : Vec Ideal S1024x256 .bf16) (ix2 s j) = (V c main_v37 : S1024x256.Idx → EReal) (ix2 s j) := by
  obtain ⟨-, -, -, -, -, -, -, -, -, e0, e1, -⟩ := idx_facts1 t
  unfold iblk1
  rw [View.read_apply]
  show V c main_v37 _ = V c main_v37 _
  congr 1
  funext a
  apply Fin.ext
  match a with
  | ⟨0, _⟩ => show win1_4.index t (0 : Fin 2) * 1024 + 1 * s.val = s.val; rw [e0]; omega
  | ⟨1, _⟩ => show win1_4.index t (1 : Fin 2) * 256 + 1 * j.val = j.val; rw [e1]; omega

theorem iblk1_5_apply (t : Fin cfg1.N) (s : Fin 1024) (j : Fin 256) :
    (iblk1 (F := Ideal) V c 5 t : Vec Ideal S1024x256 .bf16) (ix2 s j) = (V c main_v38 : S1024x256.Idx → EReal) (ix2 s j) := by
  obtain ⟨-, -, -, -, -, -, -, -, -, -, -, e0, e1, -⟩ := idx_facts1 t
  unfold iblk1
  rw [View.read_apply]
  show V c main_v38 _ = V c main_v38 _
  congr 1
  funext a
  apply Fin.ext
  match a with
  | ⟨0, _⟩ => show win1_5.index t (0 : Fin 2) * 1024 + 1 * s.val = s.val; rw [e0]; omega
  | ⟨1, _⟩ => show win1_5.index t (1 : Fin 2) * 256 + 1 * j.val = j.val; rw [e1]; omega

theorem iblk1_6_apply (t : Fin cfg1.N) (s : Fin 1024) (j : Fin 256) :
    (iblk1 (F := Ideal) V c 6 t : Vec Ideal S1024x256 .bf16) (ix2 s j) = (V c main_v41 : S1024x256.Idx → EReal) (ix2 s j) := by
  obtain ⟨-, -, -, -, -, -, -, -, -, -, -, -, -, e0, e1, -⟩ := idx_facts1 t
  unfold iblk1
  rw [View.read_apply]
  show V c main_v41 _ = V c main_v41 _
  congr 1
  funext a
  apply Fin.ext
  match a with
  | ⟨0, _⟩ => show win1_6.index t (0 : Fin 2) * 1024 + 1 * s.val = s.val; rw [e0]; omega
  | ⟨1, _⟩ => show win1_6.index t (1 : Fin 2) * 256 + 1 * j.val = j.val; rw [e1]; omega

/-! ### The result's blocks tile the array -/

/-- An index of the result array is in point t's block iff each coordinate is in the block's range on its axis. -/
theorem mem_blk1 (t : Fin cfg1.N) (i : S32768x3x256.Idx) :
    i ∈ ((cfg1.win 7).blk t).view.set ↔ ∀ a : Fin 3, win1_7.index t a * S1024x3x256.size a ≤ (i a).val ∧ (i a).val < win1_7.index t a * S1024x3x256.size a + S1024x3x256.size a := by
  show i ∈ ((View.whole main_v42).slice (win1_7.rect t)).set ↔ _
  rw [View.set_slice_whole, Rect.mem_set_unit]
  exact Iff.rfl

/-- Every index (T, ch, j) of the result array lies in the block of point T / 1024. -/
theorem cover1 (i : S32768x3x256.Idx) :
    ∃ t : Fin cfg1.N, (cfg1.win 7).flush t = true ∧ i ∈ ((cfg1.win 7).blk t).view.set := by
  have h0 : (i 0).val < 32768 := (i 0).isLt
  have h1 : (i 1).val < 3 := (i 1).isLt
  have h2 : (i 2).val < 256 := (i 2).isLt
  obtain ⟨t, ht⟩ : ∃ t : Fin cfg1.N, t.val = (i 0).val / 1024 := ⟨⟨(i 0).val / 1024, by rw [N1]; omega⟩, rfl⟩
  refine ⟨t, flush1_7 t, ?_⟩
  rw [mem_blk1]
  have hf := idx_facts1 t
  obtain ⟨e0, e1, e2⟩ := hf.2.2.2.2.2.2.2.2.2.2.2.2.2.2.2
  intro a
  match a with
  | ⟨0, _⟩ => show win1_7.index t (0 : Fin 3) * 1024 ≤ (i 0).val ∧ (i 0).val < win1_7.index t (0 : Fin 3) * 1024 + 1024; rw [e0, ht]; omega
  | ⟨1, _⟩ => show win1_7.index t (1 : Fin 3) * 3 ≤ (i 1).val ∧ (i 1).val < win1_7.index t (1 : Fin 3) * 3 + 3; rw [e1]; omega
  | ⟨2, _⟩ => show win1_7.index t (2 : Fin 3) * 256 ≤ (i 2).val ∧ (i 2).val < win1_7.index t (2 : Fin 3) * 256 + 256; rw [e2]; omega

/-! ### The result array -/

variable (X : Fin 32768 → Fin 3 → Fin 256 → EReal) (p : Fin 32768 → Fin 1024) (w : Fin 32768 → EReal)
  (mh ml sh sl : Fin 1024 → Fin 256 → EReal)

/-- The whole result array as one function of the launch's inputs: each token's value less its position's mean,
    times one over its position's deviation plus the small constant, times its weight. -/
def out1 : S32768x3x256.Idx → EReal := fun i =>
  (X (i 0) (i 1) (i 2) - (mh (p (i 0)) (i 2) + ml (p (i 0)) (i 2)))
    * Ideal.div c1 ((sh (p (i 0)) (i 2) + sl (p (i 0)) (i 2)) + ceps) * w (i 0)

variable (hX : ∀ t ch j, (V c main_v0 : S32768x3x256.Idx → EReal) (ix3 t ch j) = X t ch j)
  (hp : ∀ t, (V c main_v8 : S32768x1.Idx → BitVec 32) (ix2 t (0 : Fin 1)) = BitVec.ofNat 32 (p t).val)
  (hw : ∀ t, (V c main_v9 : S32768x1.Idx → EReal) (ix2 t (0 : Fin 1)) = w t)
  (hmh : ∀ s j, (V c main_v34 : S1024x256.Idx → EReal) (ix2 s j) = mh s j)
  (hml : ∀ s j, (V c main_v37 : S1024x256.Idx → EReal) (ix2 s j) = ml s j)
  (hsh : ∀ s j, (V c main_v38 : S1024x256.Idx → EReal) (ix2 s j) = sh s j)
  (hsl : ∀ s j, (V c main_v41 : S1024x256.Idx → EReal) (ix2 s j) = sl s j)

include hX hp hw hmh hml hsh hsl

/-- WHAT POINT t WRITES BACK is block t of the whole-array function. -/
theorem flushed1_eq (t : Fin cfg1.N) :
    (dat1 (F := Ideal) V c).flushed 7 t = ((cfg1.win 7).blk t).view.read (Elt Ideal) (out1 X p w mh ml sh sl) := by
  show (cfg1.win 7).cut (grid1.coords t) ((dat1 (F := Ideal) V c).after 7 t) = _
  rw [after1_7]
  funext y
  obtain ⟨r, ch, j, rfl⟩ : ∃ (r : Fin 1024) (ch : Fin 3) (j : Fin 256), y = ix3 r ch j := ⟨y 0, y 1, y 2, eq_ix3 y⟩
  have ht : t.val < 32 := t.isLt
  have hr : r.val < 1024 := r.isLt
  obtain ⟨T, hT⟩ : ∃ T : Fin 32768, T.val = 1024 * t.val + r.val := ⟨⟨1024 * t.val + r.val, by omega⟩, rfl⟩
  obtain ⟨e0, e1, e2⟩ := (idx_facts1 t).2.2.2.2.2.2.2.2.2.2.2.2.2.2.2
  have hemb : ((cfg1.win 7).blk t).view.emb (ix3 r ch j) = (ix3 T ch j : S32768x3x256.Idx) := by
    funext a
    apply Fin.ext
    match a with
    | ⟨0, _⟩ => show win1_7.index t (0 : Fin 3) * 1024 + 1 * r.val = T.val; rw [e0, hT]; omega
    | ⟨1, _⟩ => show win1_7.index t (1 : Fin 3) * 3 + 1 * ch.val = ch.val; rw [e1]; omega
    | ⟨2, _⟩ => show win1_7.index t (2 : Fin 3) * 256 + 1 * j.val = j.val; rw [e2]; omega
  show (val1 (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) : FVec Ideal S1024x3x256 .f32) (ix3 r ch j)
    = out1 X p w mh ml sh sl (((cfg1.win 7).blk t).view.emb (ix3 r ch j))
  rw [hemb]
  refine (val1_apply (iblk1 (F := Ideal) V c 0 t) (iblk1 (F := Ideal) V c 1 t) (iblk1 (F := Ideal) V c 2 t) (iblk1 (F := Ideal) V c 3 t) (iblk1 (F := Ideal) V c 4 t) (iblk1 (F := Ideal) V c 5 t) (iblk1 (F := Ideal) V c 6 t) r (p T) ch j ?_).trans ?_
  · exact (iblk1_1_apply V c t r T hT).trans (hp T)
  · rw [iblk1_0_apply V c t r ch j T hT, iblk1_2_apply V c t r T hT, iblk1_3_apply V c t (p T) j, iblk1_4_apply V c t (p T) j,
      iblk1_5_apply V c t (p T) j, iblk1_6_apply V c t (p T) j, hX, hw, hmh, hml, hsh, hsl]
    rfl

end

end A1

/-! ## The result array -/

section
variable (V : (c : Dev nD) → (b : Ref sig .tc) → Buf (Elt Ideal) ((c : Thread nD τ).loc b)) (c : Dev nD)
  (X : Fin 32768 → Fin 3 → Fin 256 → EReal) (p : Fin 32768 → Fin 1024) (w : Fin 32768 → EReal)
  (mh ml sh sl : Fin 1024 → Fin 256 → EReal)
  (hX : ∀ t ch j, (V c main_v0 : S32768x3x256.Idx → EReal) (ix3 t ch j) = X t ch j)
  (hp : ∀ t, (V c main_v8 : S32768x1.Idx → BitVec 32) (ix2 t (0 : Fin 1)) = BitVec.ofNat 32 (p t).val)
  (hw : ∀ t, (V c main_v9 : S32768x1.Idx → EReal) (ix2 t (0 : Fin 1)) = w t)
  (hmh : ∀ s j, (V c main_v34 : S1024x256.Idx → EReal) (ix2 s j) = mh s j)
  (hml : ∀ s j, (V c main_v37 : S1024x256.Idx → EReal) (ix2 s j) = ml s j)
  (hsh : ∀ s j, (V c main_v38 : S1024x256.Idx → EReal) (ix2 s j) = sh s j)
  (hsl : ∀ s j, (V c main_v41 : S1024x256.Idx → EReal) (ix2 s j) = sl s j)

include hX hp hw hmh hml hsh hsl

/-- THE RESULT ARRAY of launch 1, read at a token, a channel and a value index: every point writes its block of the
    whole-array function and the blocks tile the array. -/
theorem arr1_out (t : Fin 32768) (ch : Fin 3) (j : Fin 256) :
    ((dat1 (F := Ideal) V c).arrAt 7 cfg1.N : S32768x3x256.Idx → EReal) (ix3 t ch j)
      = (X t ch j - (mh (p t) j + ml (p t) j)) * Ideal.div c1 ((sh (p t) j + sl (p t) j) + ceps) * w t := by
  rw [(dat1 (F := Ideal) V c).arrAt_eq_of_cover 7 (A1.out1 X p w mh ml sh sl)
    (fun t _ => A1.flushed1_eq V c X p w mh ml sh sl hX hp hw hmh hml hsh hsl t) A1.cover1]
  rfl

end

end Cert.KernelIdeal.Hand

end
-- ==== Proof.KI.Value.lean ====
/-
  The kernel program's result, read at an index, is arrangement K of the statistics.

  The run's last valuation at the result is the last stretch's reshape of launch 1's output array; that array,
  block by block, is the tokens' values less the looked-up new mean, times the reciprocal of the looked-up new
  deviation plus the small constant, times the weight, the two tables each looked up beside its own residual;
  the tables are the middle stretches' functions of launch 0's three sums over the two halves of the tokens,
  which are the counts, the sums of deviations and the sums of their squares per position; and everything launch
  0 and launch 1 read of the arguments is the prefix's reshapes of them.
-/
import proofs.«420308_j72095321030973_2_alg».proof.Proof.KI.Run
import proofs.«420308_j72095321030973_2_alg».proof.Proof.KI.HostK
import proofs.«420308_j72095321030973_2_alg».proof.Proof.KI.Arr0
import proofs.«420308_j72095321030973_2_alg».proof.Proof.KI.Arr1
import proofs.«420308_j72095321030973_2_alg».proof.Proof.Spec

set_option maxRecDepth 16384

noncomputable section

namespace Cert.KernelIdeal.Hand

open Cert.KernelIdeal Cert.KernelIdeal.Gen Cert.PatchStats
open Idealize.ShloMosaic Idealize.ShloMosaic.ValueIdx Idealize.ShloMosaic.TcCoe
open Idealize.ShloMosaic.Pipeline (Dat)

variable (m : (ℓ : Loc nD τ sig) → Buf (Elt Ideal) ℓ) (c : Dev nD)

/-! ## What the launches and the middle stretches leave alone -/

/-- An input array of launch 0 leaves the launch as it entered. -/
theorem W2_input (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- A buffer none of the three stretches between the launches writes enters launch 1 as it left launch 0. -/
theorem W5_keep (r : Ref sig .tc) (h1 : r ∉ hostOps1_W) (h2 : r ∉ hostOps1_1_W) (h3 : r ∉ hostOps1_2_W) :
    W5 m c (Proc.devRef .tc r) = W2 m c (Proc.devRef .tc r) :=
  (StableHlo.after_of_writes_sub hostOps1_2 _ hostOps1_2_writes h3).trans
    ((StableHlo.after_of_writes_sub hostOps1_1 _ hostOps1_1_writes h2).trans
      (StableHlo.after_of_writes_sub hostOps1 _ hostOps1_writes h1))

/-! ## The inputs, as the specification names them -/

abbrev aX : Fin 32768 → Fin 3 → Fin 256 → EReal := Xof (W0 m c main_arg0)
abbrev aW : Fin 32768 → EReal := wOf (W0 m c main_arg3)
abbrev aN : Fin 1024 → EReal := n0Of (W0 m c main_arg4)
abbrev aMean : Fin 1024 → Fin 256 → EReal := tabOf (W0 m c main_arg5)
abbrev aM2 : Fin 1024 → Fin 256 → EReal := tabOf (W0 m c main_arg6)

section
variable (p : Fin 32768 → Fin 1024)
  (hp : ∀ t, pfwOf (W0 m c main_arg1) (W0 m c main_arg2) t = BitVec.ofNat 32 (p t).val)

/-! ## What launch 0 enters with -/

theorem in0_X (t : Fin 32768) (ch : Fin 3) (j : Fin 256) :
    (V1 m c main_v0 : S32768x3x256.Idx → EReal) (ix3 t ch j) = aX m c t ch j := pre_X (W0 m c) t ch j
include hp in
theorem in0_p (t : Fin 32768) :
    (V1 m c main_v8 : S32768x1.Idx → BitVec 32) (ix2 t (0 : Fin 1)) = BitVec.ofNat 32 (p t).val :=
  (pre_pf (W0 m c) t).trans (hp t)
theorem in0_w (t : Fin 32768) :
    (V1 m c main_v9 : S32768x1.Idx → EReal) (ix2 t (0 : Fin 1)) = aW m c t := pre_w (W0 m c) t
theorem in0_mean (s : Fin 1024) (j : Fin 256) :
    (V1 m c main_v10 : S1024x256.Idx → EReal) (ix2 s j) = aMean m c s j := pre_mean (W0 m c) s j

/-! ## What the middle stretches start from -/

theorem mid_n (s : Fin 1024) : (W2 m c main_v12 : S1024x1.Idx → EReal) (ix2 s (0 : Fin 1)) = aN m c s := by
  rw [show W2 m c main_v12 = W1 m c main_v12 from W2_of_ne m c main_v12 (by decide)]
  exact pre_n (W0 m c) s
theorem mid_mean (s : Fin 1024) (j : Fin 256) : (W2 m c main_v10 : S1024x256.Idx → EReal) (ix2 s j) = aMean m c s j := by
  rw [show W2 m c main_v10 = W1 m c main_v10 from W2_input m c 3 rfl]
  exact pre_mean (W0 m c) s j
theorem mid_m2 (s : Fin 1024) (j : Fin 256) : (W2 m c main_v11 : S1024x256.Idx → EReal) (ix2 s j) = aM2 m c s j := by
  rw [show W2 m c main_v11 = W1 m c main_v11 from W2_of_ne m c main_v11 (by decide)]
  exact pre_m2 (W0 m c) s j
include hp in
theorem mid_cnt (s : Fin 1024) :
    partCnt (W2 m c) (ix3 (0 : Fin 2) s (0 : Fin 1)) + partCnt (W2 m c) (ix3 (1 : Fin 2) s (0 : Fin 1)) = counts p (aW m c) s := by
  have e : partCnt (W2 m c) = A0.arr4 (V1 m) c := W2_arr m c 4
  rw [e]
  exact arr0_counts_total (V1 m) c (aX m c) p (aW m c) (aMean m c) (in0_X m c) (in0_p m c p hp) (in0_w m c) (in0_mean m c) s
include hp in
theorem mid_ds (s : Fin 1024) (j : Fin 256) :
    partDs (W2 m c) (ix3 (0 : Fin 2) s j) + partDs (W2 m c) (ix3 (1 : Fin 2) s j) = dsumK (aX m c) p (aW m c) (aMean m c) s j := by
  have e : partDs (W2 m c) = A0.arr5 (V1 m) c := W2_arr m c 5
  rw [e]
  exact arr0_dsum_total (V1 m) c (aX m c) p (aW m c) (aMean m c) (in0_X m c) (in0_p m c p hp) (in0_w m c) (in0_mean m c) s j
include hp in
theorem mid_qs (s : Fin 1024) (j : Fin 256) :
    partQs (W2 m c) (ix3 (0 : Fin 2) s j) + partQs (W2 m c) (ix3 (1 : Fin 2) s j) = sqsumK (aX m c) p (aW m c) (aMean m c) s j := by
  have e : partQs (W2 m c) = A0.arr6 (V1 m) c := W2_arr m c 6
  rw [e]
  exact arr0_sqsum_total (V1 m) c (aX m c) p (aW m c) (aMean m c) (in0_X m c) (in0_p m c p hp) (in0_w m c) (in0_mean m c) s j

/-- The middle stretches' mean table is arrangement K's new mean. -/
theorem MNof_eq (s : Fin 1024) (j : Fin 256) :
    MNof (aN m c) (aMean m c) (counts p (aW m c)) (dsumK (aX m c) p (aW m c) (aMean m c)) s j
      = meanNewK (aX m c) p (aW m c) (aN m c) (aMean m c) s j := rfl
/-- Their deviation table is arrangement K's new deviation. -/
theorem SDof_eq (s : Fin 1024) (j : Fin 256) :
    SDof (aN m c) (aM2 m c) (counts p (aW m c)) (dsumK (aX m c) p (aW m c) (aMean m c)) (sqsumK (aX m c) p (aW m c) (aMean m c)) s j
      = stdK (aX m c) p (aW m c) (aN m c) (aMean m c) (aM2 m c) s j := rfl

/-! ## What launch 1 enters with -/

theorem in1_X (t : Fin 32768) (ch : Fin 3) (j : Fin 256) :
    (V5 m c main_v0 : S32768x3x256.Idx → EReal) (ix3 t ch j) = aX m c t ch j := by
  rw [show V5 m c main_v0 = W1 m c main_v0 from (W5_keep m c main_v0 (by decide) (by decide) (by decide)).trans (W2_input m c 0 rfl)]
  exact pre_X (W0 m c) t ch j
include hp in
theorem in1_p (t : Fin 32768) :
    (V5 m c main_v8 : S32768x1.Idx → BitVec 32) (ix2 t (0 : Fin 1)) = BitVec.ofNat 32 (p t).val := by
  rw [show V5 m c main_v8 = W1 m c main_v8 from (W5_keep m c main_v8 (by decide) (by decide) (by decide)).trans (W2_input m c 1 rfl)]
  exact (pre_pf (W0 m c) t).trans (hp t)
theorem in1_w (t : Fin 32768) :
    (V5 m c main_v9 : S32768x1.Idx → EReal) (ix2 t (0 : Fin 1)) = aW m c t := by
  rw [show V5 m c main_v9 = W1 m c main_v9 from (W5_keep m c main_v9 (by decide) (by decide) (by decide)).trans (W2_input m c 2 rfl)]
  exact pre_w (W0 m c) t
include hp in
theorem in1_mh (s : Fin 1024) (j : Fin 256) :
    (V5 m c main_v34 : S1024x256.Idx → EReal) (ix2 s j) = meanNewK (aX m c) p (aW m c) (aN m c) (aMean m c) s j :=
  (mid_mh (W := W2 m c) (mid_n m c) (mid_mean m c) (mid_cnt m c p hp) (mid_ds m c p hp) s j).trans (MNof_eq m c p s j)
include hp in
theorem in1_ml (s : Fin 1024) (j : Fin 256) :
    (V5 m c main_v37 : S1024x256.Idx → EReal) (ix2 s j)
      = meanNewK (aX m c) p (aW m c) (aN m c) (aMean m c) s j - meanNewK (aX m c) p (aW m c) (aN m c) (aMean m c) s j :=
  (mid_ml (W := W2 m c) (mid_n m c) (mid_mean m c) (mid_cnt m c p hp) (mid_ds m c p hp) s j).trans
    (by rw [MNof_eq m c p s j])
include hp in
theorem in1_sh (s : Fin 1024) (j : Fin 256) :
    (V5 m c main_v38 : S1024x256.Idx → EReal) (ix2 s j) = stdK (aX m c) p (aW m c) (aN m c) (aMean m c) (aM2 m c) s j :=
  (mid_sh (W := W2 m c) (mid_n m c) (mid_m2 m c) (mid_cnt m c p hp) (mid_ds m c p hp) (mid_qs m c p hp) s j).trans (SDof_eq m c p s j)
include hp in
theorem in1_sl (s : Fin 1024) (j : Fin 256) :
    (V5 m c main_v41 : S1024x256.Idx → EReal) (ix2 s j)
      = stdK (aX m c) p (aW m c) (aN m c) (aMean m c) (aM2 m c) s j - stdK (aX m c) p (aW m c) (aN m c) (aMean m c) (aM2 m c) s j :=
  (mid_sl (W := W2 m c) (mid_n m c) (mid_m2 m c) (mid_cnt m c p hp) (mid_ds m c p hp) (mid_qs m c p hp) s j).trans
    (by rw [SDof_eq m c p s j])

/-! ## The result -/

include hp in
/-- THE KERNEL'S RESULT AT AN INDEX: element `(b, s, d)` is arrangement K's output for token `1024 b + s`,
    channel `d / 256`, value `d % 256`. -/
theorem kernel_out (b : Fin 32) (s : Fin 1024) (d : Fin 768) :
    (W7 m c main_v43 : S32x1024x768.Idx → EReal) (ix3 b s d)
      = outK (aX m c) p (aW m c) (aN m c) (aMean m c) (aM2 m c)
          (⟨b.val * 1024 + s.val, by omega⟩ : Fin 32768) (⟨d.val / 256, by omega⟩ : Fin 3) (⟨d.val % 256, by omega⟩ : Fin 256) := by
  refine (suf_out (W6 m c) b s d).trans ?_
  rw [show W6 m c main_v42 = (dat1 (V5 m) c).arrAt 7 cfg1.N from W6_arr m c 7]
  rw [arr1_out (V5 m) c (aX m c) p (aW m c)
    (meanNewK (aX m c) p (aW m c) (aN m c) (aMean m c))
    (fun s j => meanNewK (aX m c) p (aW m c) (aN m c) (aMean m c) s j - meanNewK (aX m c) p (aW m c) (aN m c) (aMean m c) s j)
    (stdK (aX m c) p (aW m c) (aN m c) (aMean m c) (aM2 m c))
    (fun s j => stdK (aX m c) p (aW m c) (aN m c) (aMean m c) (aM2 m c) s j - stdK (aX m c) p (aW m c) (aN m c) (aMean m c) (aM2 m c) s j)
    (in1_X m c) (in1_p m c p hp) (in1_w m c) (in1_mh m c p hp) (in1_ml m c p hp) (in1_sh m c p hp) (in1_sl m c p hp)]
  rfl

end

end Cert.KernelIdeal.Hand

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.LibGatherElem.lean ====
/-
  A `stablehlo.gather` that picks single ELEMENTS, read at an index.

  Two shapes of it, both with every operand axis collapsed (slice sizes all 1, no offset axis, no batching axis) and
  the index vector on the last axis of the start indices.  From a vector `[N]` at start indices `[R, 1]`: result
  element `r` is the vector at the start index `idx[r, 0]`, read as a signed integer and clamped into `[0, N - 1]`.
  From a table `[N, K]` at start indices `[R, 2]`: result element `r` is the table at row `idx[r, 0]` and column
  `idx[r, 1]`, each read signed and clamped into its axis.  (StableHLO clamps every start index so that the slice
  lies inside the operand; with slices of one element that is the clamp of the index itself.)
-/
import Idealize.ShloMosaic.Lib.ValueIdx

noncomputable section

namespace Cert.LibGatherElem

open Idealize.ShloMosaic Idealize.ShloMosaic.ValueIdx

variable {α : Type}

/-- The dimension numbers of an element gather from a vector `[N]` at start indices `[R, 1]` into `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the vector gather: the vector at the clamped signed start index `idx[r, 0]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r ⟨0, Nat.one_pos⟩)).toInt.toNat (N - 1), by omega⟩) := by
  -- the gather reads the operand at its operand index; compare the two indices on the operand's one axis
  show x ((vecDims N R wf).operandIdx (ix1 r) idx) = _
  refine congrArg x (funext fun a => ?_)
  have ha : a = (0 : Fin 1) := Subsingleton.elim _ _
  subst ha
  apply Fin.ext
  show (vecDims N R wf).start (ix1 r) idx 0 + (vecDims N R wf).batchCoord (ix1 r) 0
      + (vecDims N R wf).offCoord (ix1 r) 0 = _
  -- no batching axis, and axis 0 is collapsed: only the clamped start is left
  have hb : (vecDims N R wf).batchCoord (ix1 r) 0 = 0 :=
    GatherDims.batchCoord_eq_zero _ _ _ List.not_mem_nil
  have ho : (vecDims N R wf).offCoord (ix1 r) 0 = 0 :=
    GatherDims.offCoord_eq_zero _ _ _ fun h =>
      ((GatherDims.mem_sKept _ _).mp h).1 (List.mem_singleton.mpr rfl)
  simp only [hb, ho, Nat.add_zero]
  -- axis 0 is the start index map's entry 0, so its start index is read at `(r, 0)`
  have hm : (0 : Fin 1) ∈ (vecDims N R wf).startIndexMap := List.mem_singleton.mpr rfl
  have hsi : (vecDims N R wf).siIdx (ix1 r)
      ⟨List.idxOf (0 : Fin 1) (vecDims N R wf).startIndexMap, List.idxOf_lt_length_iff.2 hm⟩
        = ix2 r ⟨0, Nat.one_pos⟩ := by
    funext b
    apply Fin.ext
    match b with
    | ⟨0, _⟩ => rfl
    | ⟨1, _⟩ => rfl
  unfold GatherDims.start
  rw [dif_pos hm, hsi]
  -- the clamp's upper end is the extent `N` less the slice size `1`
  rfl

/-- The dimension numbers of an element gather from a table `[N, K]` at start indices `[R, 2]` into `[R]`. -/
abbrev pairDims (N K R : Nat) (wf : GatherDims.WF ⟨2, ![N, K]⟩ ⟨2, ![R, 2]⟩ ⟨1, ![R]⟩ [] [0, 1] [] [0, 1] [] 1 ![1, 1]) :
    GatherDims ⟨2, ![N, K]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Result element `r` of the table gather: the table at the clamped signed start indices `idx[r, 0]`, `idx[r, 1]`. -/
theorem gather_pair_apply {N K R w : Nat} (hN : 0 < N) (hK : 0 < K)
    (wf : GatherDims.WF ⟨2, ![N, K]⟩ ⟨2, ![R, 2]⟩ ⟨1, ![R]⟩ [] [0, 1] [] [0, 1] [] 1 ![1, 1])
    (x : (⟨2, ![N, K]⟩ : Shape).Idx → α) (idx : IVec ⟨2, ![R, 2]⟩ w) (r : Fin R) :
    Host.gather (pairDims N K R wf) x idx (ix1 r)
      = x (ix2 ⟨min (idx (ix2 r ⟨0, by omega⟩)).toInt.toNat (N - 1), by omega⟩
               ⟨min (idx (ix2 r ⟨1, by omega⟩)).toInt.toNat (K - 1), by omega⟩) := by
  -- the gather reads the operand at its operand index; compare the two indices axis by axis
  show x ((pairDims N K R wf).operandIdx (ix1 r) idx) = _
  refine congrArg x (funext fun a => ?_)
  apply Fin.ext
  show (pairDims N K R wf).start (ix1 r) idx a + (pairDims N K R wf).batchCoord (ix1 r) a
      + (pairDims N K R wf).offCoord (ix1 r) a = _
  -- no batching axis, and both axes are collapsed: only the clamped start is left
  have hb : (pairDims N K R wf).batchCoord (ix1 r) a = 0 :=
    GatherDims.batchCoord_eq_zero _ _ _ List.not_mem_nil
  have hc : a ∈ (pairDims N K R wf).collapsedSliceDims := by
    match a with
    | ⟨0, _⟩ => exact List.mem_cons_self
    | ⟨1, _⟩ => exact List.mem_cons_of_mem _ List.mem_cons_self
  have ho : (pairDims N K R wf).offCoord (ix1 r) a = 0 :=
    GatherDims.offCoord_eq_zero _ _ _ fun h => ((GatherDims.mem_sKept _ _).mp h).1 hc
  simp only [hb, ho, Nat.add_zero]
  -- axis `a` is the start index map's entry `a`, so its start index is read at `(r, a)`
  have hm : a ∈ (pairDims N K R wf).startIndexMap := hc
  unfold GatherDims.start
  rw [dif_pos hm]
  match a, hm with
  | ⟨0, _⟩, hm =>
    have hsi : (pairDims N K R wf).siIdx (ix1 r)
        ⟨List.idxOf (⟨0, by omega⟩ : Fin 2) (pairDims N K R wf).startIndexMap, List.idxOf_lt_length_iff.2 hm⟩
          = ix2 r ⟨0, by omega⟩ := by
      funext b
      apply Fin.ext
      match b with
      | ⟨0, _⟩ => rfl
      | ⟨1, _⟩ => rfl
    rw [hsi]
    rfl
  | ⟨1, _⟩, hm =>
    have hsi : (pairDims N K R wf).siIdx (ix1 r)
        ⟨List.idxOf (⟨1, by omega⟩ : Fin 2) (pairDims N K R wf).startIndexMap, List.idxOf_lt_length_iff.2 hm⟩
          = ix2 r ⟨1, by omega⟩ := by
      funext b
      apply Fin.ext
      match b with
      | ⟨0, _⟩ => rfl
      | ⟨1, _⟩ => rfl
    rw [hsi]
    rfl

end Cert.LibGatherElem

end
-- ==== Proof.Ref.lean ====
/-
  The reference program's result, read at an index, is arrangement R.

  The reference computes, per grid position, the count of the tokens that name it, the new mean as the old mean plus
  the sum of the tokens' mean channel deviations over the new count, a second deviation against the new mean, the sum
  of squared deviations, the variance and its root, and last each token's value less its position's new mean over the
  root plus a small constant, times the token's weight. Each stage of the program is read at an index in turn; the
  stages whose element depends on the VALUES of an index array (five row lookups, three accumulating scatters) are read
  under the hypothesis that every token's flat position word is a position `p t` below 1024: a lookup then reads row
  `p t`, and an accumulating scatter adds up the updates of the tokens `t` with `p t = s`.
-/
import proofs.«420308_j72095321030973_2_alg».proof.Proof.Gen.ReferenceIdeal.Read
import proofs.«420308_j72095321030973_2_alg».proof.Proof.Spec
import proofs.«420308_j72095321030973_2_alg».proof.Proof.LibIndexed
import proofs.«420308_j72095321030973_2_alg».proof.Proof.LibGatherElem

noncomputable section

namespace Cert.RefValue

open Cert.ReferenceIdeal Cert.ReferenceIdeal.Gen Cert.ReferenceIdeal.Read Cert.PatchStats
open Idealize.ShloMosaic Idealize.ShloMosaic.ValueIdx

/-! ## Position words -/

/-- A position below 1024, as a 32-bit word, reads signed as itself. -/
theorem toInt_pos (n : Nat) (hn : n < 1024) : (BitVec.ofNat 32 n).toInt = (n : ℤ) := by
  rw [BitVec.toInt_eq_toNat_cond, BitVec.toNat_ofNat]
  have h : n % 2 ^ 32 = n := Nat.mod_eq_of_lt (by omega)
  rw [h, if_pos (by omega)]

/-- The reference's wrap of a negative index (add the extent when the word is negative) leaves a position as it is. -/
theorem wrap_pos (n : Nat) (hn : n < 1024) :
    Scalar.select (IntOp.cmpi .slt (BitVec.ofNat 32 n) 0#32) (IntOp.addi (BitVec.ofNat 32 n) 1024#32) (BitVec.ofNat 32 n)
      = BitVec.ofNat 32 n := by
  unfold Scalar.select
  rw [if_neg]
  intro h
  have h' := (IntOp.cmpi_slt (x := BitVec.ofNat 32 n) (y := 0#32)).mp h
  rw [toInt_pos n hn] at h'
  have h0 : (0#32 : BitVec 32).toInt = 0 := rfl
  omega

/-- The clamp of a position's signed reading into the rows of a 1024-row table is the position. -/
theorem clamp_pos (n : Nat) (hn : n < 1024) : min (BitVec.ofNat 32 n).toInt.toNat (1024 - 1) = n := by
  rw [toInt_pos n hn]
  omega

/-! ## The lookups and the accumulating scatters of this program, read under positions -/

/-- A row lookup in a [1024, 256] table whose start word at token `t` is the position `q` reads row `q`. -/
theorem lookup_rows (x : (⟨S1024x256, .f32⟩ : BufTy).Contents (Elt Ideal)) (idx : (⟨S32768x1, .i32⟩ : BufTy).Contents (Elt Ideal))
    (t : Fin 32768) (j : Fin 256) (q : Fin 1024) (h : idx (ix2 t (0 : Fin 1)) = BitVec.ofNat 32 q.val) :
    Host.gather gather_S1024x256_S32768x1_S32768x256_1_0_n_n_0_1_1256 x idx (ix2 t j) = x (ix2 q j) := by
  rw [Cert.Rgcn.Lib.gather_rows_apply (by decide) gather_S1024x256_S32768x1_S32768x256_1_0_n_n_0_1_1256
    Facts₀.gather_S1024x256_S32768x1_S32768x256_1_0_n_n_0_1_1256_wf rfl x idx t j]
  refine congrArg x (congrArg (fun r => ix2 r j) (Fin.ext ?_))
  show min (idx (ix2 t (0 : Fin 1))).toInt.toNat (1024 - 1) = q.val
  rw [h]
  exact clamp_pos _ q.isLt

/-- An element lookup in a [1024] vector whose start word at token `t` is the position `q` reads element `q`. -/
theorem lookup_vec (x : (⟨S1024, .f32⟩ : BufTy).Contents (Elt Ideal)) (idx : (⟨S32768x1, .i32⟩ : BufTy).Contents (Elt Ideal))
    (t : Fin 32768) (q : Fin 1024) (h : idx (ix2 t (0 : Fin 1)) = BitVec.ofNat 32 q.val) :
    Host.gather gather_S1024_S32768x1_S32768_n_0_n_n_0_1_1 x idx (ix1 t) = x (ix1 q) := by
  show Host.gather (Cert.LibGatherElem.vecDims 1024 32768 Facts₀.gather_S1024_S32768x1_S32768_n_0_n_n_0_1_1_wf) x idx (ix1 t) = _
  rw [Cert.LibGatherElem.gather_vec_apply (by decide) _ x idx t]
  refine congrArg x (congrArg (fun r => ix1 r) (Fin.ext ?_))
  show min (idx (ix2 t (0 : Fin 1))).toInt.toNat (1024 - 1) = q.val
  rw [h]
  exact clamp_pos _ q.isLt

/-- Two positions are equal when their signed words are. -/
theorem pos_word_eq (q s : Fin 1024) : (BitVec.ofNat 32 q.val).toInt = (s.val : ℤ) ↔ q = s := by
  rw [toInt_pos _ q.isLt, Nat.cast_inj, Fin.val_inj]

/-- An accumulating scatter into a [1024] vector whose start word at token `t` is the position `p t`: the operand
    plus the updates of the tokens at the position. -/
theorem scatter_vec (x : (⟨S1024, .f32⟩ : BufTy).Contents (Elt Ideal)) (idx : (⟨S32768x1, .i32⟩ : BufTy).Contents (Elt Ideal))
    (upd : (⟨S32768, .f32⟩ : BufTy).Contents (Elt Ideal)) (p : Fin 32768 → Fin 1024)
    (h : ∀ t, idx (ix2 t (0 : Fin 1)) = BitVec.ofNat 32 (p t).val) (s : Fin 1024) :
    Host.scatterAdd (F := Ideal) (φ := .f32) scatter_S1024_S32768x1_S32768_n_0_0_1 x idx upd (ix1 s)
      = x (ix1 s) + ∑ t, if p t = s then upd (ix1 t) else 0 := by
  rw [Cert.Rgcn.Lib.scatterAdd_vec_apply scatter_S1024_S32768x1_S32768_n_0_0_1
    Facts₀.scatter_S1024_S32768x1_S32768_n_0_0_1_wf rfl x idx upd s, Finset.sum_filter]
  refine congrArg (x (ix1 s) + ·) (Finset.sum_congr rfl fun t _ => ?_)
  rw [h t]
  simp only [pos_word_eq]

/-- An accumulating scatter into the rows of a [1024, 256] table whose start word at token `t` is the position
    `p t`: the operand plus the updates of the tokens at the position, column by column. -/
theorem scatter_rows (x : (⟨S1024x256, .f32⟩ : BufTy).Contents (Elt Ideal)) (idx : (⟨S32768x1, .i32⟩ : BufTy).Contents (Elt Ideal))
    (upd : (⟨S32768x256, .f32⟩ : BufTy).Contents (Elt Ideal)) (p : Fin 32768 → Fin 1024)
    (h : ∀ t, idx (ix2 t (0 : Fin 1)) = BitVec.ofNat 32 (p t).val) (s : Fin 1024) (j : Fin 256) :
    Host.scatterAdd (F := Ideal) (φ := .f32) scatter_S1024x256_S32768x1_S32768x256_1_0_0_1 x idx upd (ix2 s j)
      = x (ix2 s j) + ∑ t, if p t = s then upd (ix2 t j) else 0 := by
  rw [Cert.Rgcn.Lib.scatterAdd_rows_apply scatter_S1024x256_S32768x1_S32768x256_1_0_0_1
    Facts₀.scatter_S1024x256_S32768x1_S32768x256_1_0_0_1_wf rfl x idx upd s j, Finset.sum_filter]
  refine congrArg (x (ix2 s j) + ·) (Finset.sum_congr rfl fun t _ => ?_)
  rw [h t]
  simp only [pos_word_eq]
section
variable (x0 : (⟨S32x1024x768, .f32⟩ : BufTy).Contents (Elt Ideal))
  (x1 x2 : (⟨S32x1024, .i32⟩ : BufTy).Contents (Elt Ideal))
  (x3 : (⟨S32x1024, .i1⟩ : BufTy).Contents (Elt Ideal))
  (x4 : (⟨S32x32, .f32⟩ : BufTy).Contents (Elt Ideal))
  (x5 x6 : (⟨S32x32x256, .f32⟩ : BufTy).Contents (Elt Ideal))
  (p : Fin 32768 → Fin 1024)

/-! ## The inputs as the reference lays them out -/

/-- The token values as [32768, 3, 256]: token `t`, channel `c`, value `j`. -/
theorem tokens_at (t : Fin 32768) (c : Fin 3) (j : Fin 256) :
    val_main_v0 (F := Ideal) x0 (ix3 t c j) = Xof x0 t c j := by
  rw [val_main_v0_apply]
  unfold Xof
  refine congrArg x0 (funext fun a => Fin.ext ?_)
  have ht := t.isLt; have hc := c.isLt; have hj := j.isLt
  match a with
  | ⟨0, _⟩ => show ((t.val * 3 + c.val) * 256 + j.val) / 786432 = t.val / 1024; omega
  | ⟨1, _⟩ => show ((t.val * 3 + c.val) * 256 + j.val) / 768 % 1024 = t.val % 1024; omega
  | ⟨2, _⟩ => show ((t.val * 3 + c.val) * 256 + j.val) % 768 = c.val * 256 + j.val; omega

/-- The flat position word of token `t`. -/
theorem posword_at (t : Fin 32768) : val_main_v4 (F := Ideal) x1 x2 (ix1 t) = pfwOf x1 x2 t := by
  rw [val_main_v4_apply, val_main_v3_apply, val_main_v2_apply, val_main_v1_apply, val_main_c_apply]
  have e : idx_main_v4 (ix1 t) = ix2 (tokB t) (tokS t) := by
    funext a; match a with | ⟨0, _⟩ => rfl | ⟨1, _⟩ => rfl
  rw [e]
  rfl

/-- The weight of token `t`. -/
theorem weight_at (t : Fin 32768) : val_main_v7 (F := Ideal) x3 (ix1 t) = wOf x3 t := by
  rw [val_main_v7_apply, val_main_v6_apply, val_main_v5_apply]
  have e : idx_main_v6 (ix1 t) = ix2 (tokB t) (tokS t) := by
    funext a; match a with | ⟨0, _⟩ => rfl | ⟨1, _⟩ => rfl
  rw [e]
  rfl

/-- The old mean as a [1024, 256] table: position `s`, value `j`. -/
theorem table5_at (s : Fin 1024) (j : Fin 256) : val_main_v13 (F := Ideal) x5 (ix2 s j) = tabOf x5 s j := by
  rw [val_main_v13_apply]
  unfold tabOf
  refine congrArg x5 (funext fun a => Fin.ext ?_)
  have hs := s.isLt; have hj := j.isLt
  match a with
  | ⟨0, _⟩ => show (s.val * 256 + j.val) / 8192 = s.val / 32; omega
  | ⟨1, _⟩ => show (s.val * 256 + j.val) / 256 % 32 = s.val % 32; omega
  | ⟨2, _⟩ => show (s.val * 256 + j.val) % 256 = j.val; omega

/-! ## The index arrays under the hypothesis on the position words -/

section
variable (hp : ∀ t, pfwOf x1 x2 t = BitVec.ofNat 32 (p t).val)
include hp

/-- The start word of token `t` in each accumulating scatter. -/
theorem start9 (t : Fin 32768) : val_main_v9 (F := Ideal) x1 x2 (ix2 t (0 : Fin 1)) = BitVec.ofNat 32 (p t).val := by
  rw [val_main_v9_apply, ← hp t, ← posword_at]
  exact congrArg _ (funext fun a => match a with | ⟨0, _⟩ => rfl)
theorem start44 (t : Fin 32768) : val_main_v44 (F := Ideal) x1 x2 (ix2 t (0 : Fin 1)) = BitVec.ofNat 32 (p t).val := by
  rw [val_main_v44_apply, ← hp t, ← posword_at]
  exact congrArg _ (funext fun a => match a with | ⟨0, _⟩ => rfl)
theorem start66 (t : Fin 32768) : val_main_v66 (F := Ideal) x1 x2 (ix2 t (0 : Fin 1)) = BitVec.ofNat 32 (p t).val := by
  rw [val_main_v66_apply, ← hp t, ← posword_at]
  exact congrArg _ (funext fun a => match a with | ⟨0, _⟩ => rfl)

/-- The start word of token `t` in each row lookup: the position word, wrapped. -/
theorem start19 (t : Fin 32768) : val_main_v19 (F := Ideal) x1 x2 (ix2 t (0 : Fin 1)) = BitVec.ofNat 32 (p t).val := by
  have e : idx_main_v19 (ix2 t (0 : Fin 1)) = ix1 t := funext fun a => match a with | ⟨0, _⟩ => rfl
  rw [val_main_v19_apply, e, val_main_v18_apply, val_main_v15_apply, val_main_v17_apply, val_main_v14_apply,
    val_main_v16_apply, val_main_c_0_apply, val_main_c_1_apply, posword_at, hp t]
  exact wrap_pos _ (p t).isLt
theorem start36 (t : Fin 32768) : val_main_v36 (F := Ideal) x1 x2 (ix2 t (0 : Fin 1)) = BitVec.ofNat 32 (p t).val := by
  have e : idx_main_v36 (ix2 t (0 : Fin 1)) = ix1 t := funext fun a => match a with | ⟨0, _⟩ => rfl
  rw [val_main_v36_apply, e, val_main_v35_apply, val_main_v32_apply, val_main_v34_apply, val_main_v31_apply,
    val_main_v33_apply, val_main_c_4_apply, val_main_c_5_apply, posword_at, hp t]
  exact wrap_pos _ (p t).isLt
theorem start53 (t : Fin 32768) : val_main_v53 (F := Ideal) x1 x2 (ix2 t (0 : Fin 1)) = BitVec.ofNat 32 (p t).val := by
  have e : idx_main_v53 (ix2 t (0 : Fin 1)) = ix1 t := funext fun a => match a with | ⟨0, _⟩ => rfl
  rw [val_main_v53_apply, e, val_main_v52_apply, val_main_v49_apply, val_main_v51_apply, val_main_v48_apply,
    val_main_v50_apply, val_main_c_8_apply, val_main_c_9_apply, posword_at, hp t]
  exact wrap_pos _ (p t).isLt
theorem start86 (t : Fin 32768) : val_main_v86 (F := Ideal) x1 x2 (ix2 t (0 : Fin 1)) = BitVec.ofNat 32 (p t).val := by
  have e : idx_main_v86 (ix2 t (0 : Fin 1)) = ix1 t := funext fun a => match a with | ⟨0, _⟩ => rfl
  rw [val_main_v86_apply, e, val_main_v85_apply, val_main_v82_apply, val_main_v84_apply, val_main_v81_apply,
    val_main_v83_apply, val_main_c_16_apply, val_main_c_17_apply, posword_at, hp t]
  exact wrap_pos _ (p t).isLt
theorem start95 (t : Fin 32768) : val_main_v95 (F := Ideal) x1 x2 (ix2 t (0 : Fin 1)) = BitVec.ofNat 32 (p t).val := by
  have e : idx_main_v95 (ix2 t (0 : Fin 1)) = ix1 t := funext fun a => match a with | ⟨0, _⟩ => rfl
  rw [val_main_v95_apply, e, val_main_v94_apply, val_main_v91_apply, val_main_v93_apply, val_main_v90_apply,
    val_main_v92_apply, val_main_c_18_apply, val_main_c_19_apply, posword_at, hp t]
  exact wrap_pos _ (p t).isLt

end

/-! ## The stages of the reference, each read at an index -/

/-- A select on "`a` is less than `b`" is the `if`. -/
theorem select_lt (a b A B : EReal) : Scalar.select (Ideal.cmp .olt a b) A B = if a < b then A else B := by
  unfold Scalar.select Ideal.cmp
  by_cases h : a < b
  · simp [h]
  · simp [h]

section
variable (hp : ∀ t, pfwOf x1 x2 t = BitVec.ofNat 32 (p t).val)
include hp

/-- The weights of the tokens at position `s`: the accumulating scatter of the weights into zeros. -/
theorem counts_at (s : Fin 1024) : val_main_v10 (F := Ideal) x1 x2 x3 (ix1 s) = counts p (wOf x3) s := by
  unfold val_main_v10
  rw [scatter_vec _ _ _ p (start9 x1 x2 p hp) s, val_main_v8_apply, val_main_cst_apply]
  unfold counts
  show Ideal.ofBits .f32 0x00000000#32 + _ = _
  rw [Ideal.ofBits_zero_f32, zero_add]
  refine Finset.sum_congr rfl fun t _ => ?_
  rw [weight_at]

/-- The new count of position `s`, on the [32, 32] grid. -/
theorem nNew_at (s : Fin 1024) :
    val_main_v12 (F := Ideal) x1 x2 x3 x4 (ix2 (gridH s) (gridW s)) = nNew p (wOf x3) (n0Of x4) s := by
  have e : idx_main_v11 (ix2 (gridH s) (gridW s)) = ix1 s :=
    funext fun a => match a with
      | ⟨0, _⟩ => Fin.ext (by have hs := s.isLt; show s.val / 32 * 32 + s.val % 32 = s.val; omega)
  rw [val_main_v12_apply, val_main_v11_apply, e, counts_at x1 x2 x3 p hp s]
  rfl

/-- The new count of position `s`, flat. -/
theorem nNew_flat_at (s : Fin 1024) :
    val_main_v30 (F := Ideal) x1 x2 x3 x4 (ix1 s) = nNew p (wOf x3) (n0Of x4) s := by
  have e : idx_main_v30 (ix1 s) = ix2 (gridH s) (gridW s) :=
    funext fun a => match a with | ⟨0, _⟩ => rfl | ⟨1, _⟩ => rfl
  rw [val_main_v30_apply, e, nNew_at x1 x2 x3 x4 p hp s]

/-- The old mean at token `t`'s position. -/
theorem oldmean_at (t : Fin 32768) (j : Fin 256) :
    val_main_v20 (F := Ideal) x1 x2 x5 (ix2 t j) = tabOf x5 (p t) j := by
  unfold val_main_v20
  rw [lookup_rows _ _ t j (p t) (start19 x1 x2 p hp t), table5_at]

/-- A channel's deviation from the old mean. -/
theorem dev_at (t : Fin 32768) (c : Fin 3) (j : Fin 256) :
    val_main_v23 (F := Ideal) x0 x1 x2 x5 (ix3 t c j) = Xof x0 t c j - tabOf x5 (p t) j := by
  have e : idx_main_v21 (idx_main_v22 (ix3 t c j)) = ix2 t j :=
    funext fun a => match a with | ⟨0, _⟩ => rfl | ⟨1, _⟩ => rfl
  rw [val_main_v23_apply, val_main_v22_apply, val_main_v21_apply, e, tokens_at, oldmean_at x1 x2 x5 p hp]
  rfl

/-- The weighted mean over the three channels of the deviations from the old mean. -/
theorem deltaR_at (t : Fin 32768) (j : Fin 256) :
    val_main_v29 (F := Ideal) x0 x1 x2 x3 x5 (ix2 t j) = deltaR (Xof x0) p (wOf x3) (tabOf x5) t j := by
  have e : ∀ k : Fin 3, idx_main_v24 (ix2 t j) k = ix3 t k j := fun k =>
    funext fun a => match a with | ⟨0, _⟩ => rfl | ⟨1, _⟩ => rfl | ⟨2, _⟩ => rfl
  have ew : idx_main_v27 (idx_main_v28 (ix2 t j)) = ix1 t :=
    funext fun a => match a with | ⟨0, _⟩ => rfl
  rw [val_main_v29_apply, val_main_v26_apply, val_main_v24_apply, val_main_v25_apply, val_main_cst_3_apply,
    val_main_cst_2_apply, val_main_v28_apply, val_main_v27_apply, ew, weight_at]
  simp only [e, dev_at x0 x1 x2 x5 p hp]
  rw [Fin.sum_univ_three]
  unfold deltaR
  show Ideal.div (Ideal.ofBits .f32 0x00000000#32 + _) c3 * _ = _
  rw [Ideal.ofBits_zero_f32, zero_add]

/-- The divisor at token `t`'s position. -/
theorem nG_tok_at (t : Fin 32768) (j : Fin 256) :
    val_main_v41 (F := Ideal) x1 x2 x3 x4 (ix2 t j) = nG p (wOf x3) (n0Of x4) (p t) := by
  have e : idx_main_v40 (idx_main_v41 (ix2 t j)) = ix1 t :=
    funext fun a => match a with | ⟨0, _⟩ => rfl
  rw [val_main_v41_apply, val_main_v40_apply, e, val_main_v39_apply, val_main_v38_apply, val_main_cst_6_apply]
  unfold val_main_v37
  rw [lookup_vec _ _ t (p t) (start36 x1 x2 p hp t), nNew_flat_at x1 x2 x3 x4 p hp]
  rfl

/-- The new mean: the old one plus the sum over the tokens at the position of their deviation over the divisor. -/
theorem meanNew_at (s : Fin 1024) (j : Fin 256) :
    val_main_v46 (F := Ideal) x0 x1 x2 x3 x4 x5 (ix2 s j)
      = meanNewR (Xof x0) p (wOf x3) (n0Of x4) (tabOf x5) s j := by
  rw [val_main_v46_apply, table5_at]
  unfold val_main_v45
  rw [scatter_rows _ _ _ p (start44 x1 x2 p hp) s j, val_main_v43_apply, val_main_cst_7_apply]
  unfold meanNewR
  show tabOf x5 s j + (Ideal.ofBits .f32 0x00000000#32 + _) = _
  rw [Ideal.ofBits_zero_f32, zero_add]
  refine congrArg (tabOf x5 s j + ·) (Finset.sum_congr rfl fun t _ => ?_)
  rw [val_main_v42_apply, deltaR_at x0 x1 x2 x3 x5 p hp, nG_tok_at x1 x2 x3 x4 p hp]
  rfl

/-- The new mean at token `t`'s position, looked up for the second deviation. -/
theorem meanNew_tok_at (t : Fin 32768) (j : Fin 256) :
    val_main_v54 (F := Ideal) x0 x1 x2 x3 x4 x5 (ix2 t j)
      = meanNewR (Xof x0) p (wOf x3) (n0Of x4) (tabOf x5) (p t) j := by
  unfold val_main_v54
  rw [lookup_rows _ _ t j (p t) (start53 x1 x2 p hp t), meanNew_at x0 x1 x2 x3 x4 x5 p hp]

/-- A channel's deviation from the new mean. -/
theorem dev2_at (t : Fin 32768) (c : Fin 3) (j : Fin 256) :
    val_main_v57 (F := Ideal) x0 x1 x2 x3 x4 x5 (ix3 t c j)
      = Xof x0 t c j - meanNewR (Xof x0) p (wOf x3) (n0Of x4) (tabOf x5) (p t) j := by
  have e : idx_main_v55 (idx_main_v56 (ix3 t c j)) = ix2 t j :=
    funext fun a => match a with | ⟨0, _⟩ => rfl | ⟨1, _⟩ => rfl
  rw [val_main_v57_apply, val_main_v56_apply, val_main_v55_apply, e, tokens_at,
    meanNew_tok_at x0 x1 x2 x3 x4 x5 p hp]
  rfl

/-- The weighted mean over the three channels of the deviations from the new mean. -/
theorem delta2R_at (t : Fin 32768) (j : Fin 256) :
    val_main_v63 (F := Ideal) x0 x1 x2 x3 x4 x5 (ix2 t j)
      = delta2R (Xof x0) p (wOf x3) (n0Of x4) (tabOf x5) t j := by
  have e : ∀ k : Fin 3, idx_main_v58 (ix2 t j) k = ix3 t k j := fun k =>
    funext fun a => match a with | ⟨0, _⟩ => rfl | ⟨1, _⟩ => rfl | ⟨2, _⟩ => rfl
  have ew : idx_main_v61 (idx_main_v62 (ix2 t j)) = ix1 t :=
    funext fun a => match a with | ⟨0, _⟩ => rfl
  rw [val_main_v63_apply, val_main_v60_apply, val_main_v58_apply, val_main_v59_apply, val_main_cst_11_apply,
    val_main_cst_10_apply, val_main_v62_apply, val_main_v61_apply, ew, weight_at]
  simp only [e, dev2_at x0 x1 x2 x3 x4 x5 p hp]
  rw [Fin.sum_univ_three]
  unfold delta2R
  show Ideal.div (Ideal.ofBits .f32 0x00000000#32 + _) c3 * _ = _
  rw [Ideal.ofBits_zero_f32, zero_add]

/-- The new sum of squared deviations: the old one plus the sum over the tokens at the position of the product of
    the two deviations. -/
theorem m2New_at (s : Fin 1024) (j : Fin 256) :
    val_main_v69 (F := Ideal) x0 x1 x2 x3 x4 x5 x6 (ix3 (gridH s) (gridW s) j)
      = m2NewR (Xof x0) p (wOf x3) (n0Of x4) (tabOf x5) (tabOf x6) s j := by
  have e : idx_main_v68 (ix3 (gridH s) (gridW s) j) = ix2 s j :=
    funext fun a => Fin.ext (by
      have hs := s.isLt; have hj := j.isLt
      match a with
      | ⟨0, _⟩ => show ((s.val / 32 * 32 + s.val % 32) * 256 + j.val) / 256 = s.val; omega
      | ⟨1, _⟩ => show ((s.val / 32 * 32 + s.val % 32) * 256 + j.val) % 256 = j.val; omega)
  rw [val_main_v69_apply, val_main_v68_apply, e]
  unfold val_main_v67
  rw [scatter_rows _ _ _ p (start66 x1 x2 p hp) s j, val_main_v65_apply, val_main_cst_12_apply]
  unfold m2NewR
  show tabOf x6 s j + (Ideal.ofBits .f32 0x00000000#32 + _) = _
  rw [Ideal.ofBits_zero_f32, zero_add]
  refine congrArg (tabOf x6 s j + ·) (Finset.sum_congr rfl fun t _ => ?_)
  rw [val_main_v64_apply, deltaR_at x0 x1 x2 x3 x5 p hp, delta2R_at x0 x1 x2 x3 x4 x5 p hp]
  rfl

/-- The divisor of position `s`, on the [32, 32, 256] grid. -/
theorem nG_grid_at (s : Fin 1024) (j : Fin 256) :
    val_main_v76 (F := Ideal) x1 x2 x3 x4 (ix3 (gridH s) (gridW s) j) = nG p (wOf x3) (n0Of x4) s := by
  have e : idx_main_v75 (idx_main_v76 (ix3 (gridH s) (gridW s) j)) = ix2 (gridH s) (gridW s) :=
    funext fun a => match a with | ⟨0, _⟩ => rfl | ⟨1, _⟩ => rfl
  rw [val_main_v76_apply, val_main_v75_apply, e, val_main_v74_apply, val_main_v73_apply, val_main_cst_14_apply,
    nNew_at x1 x2 x3 x4 p hp]
  rfl

/-- The variance: one where fewer than two tokens were counted, else the sum of squared deviations over the divisor. -/
theorem var_at (s : Fin 1024) (j : Fin 256) :
    val_main_v78 (F := Ideal) x0 x1 x2 x3 x4 x5 x6 (ix3 (gridH s) (gridW s) j)
      = varOf p (wOf x3) (n0Of x4) (m2NewR (Xof x0) p (wOf x3) (n0Of x4) (tabOf x5) (tabOf x6)) s j := by
  have e : idx_main_v72 (idx_main_call0_v1 (ix3 (gridH s) (gridW s) j)) = ix2 (gridH s) (gridW s) :=
    funext fun a => match a with | ⟨0, _⟩ => rfl | ⟨1, _⟩ => rfl
  rw [val_main_v78_apply, val_main_call0_v1_apply, val_main_v72_apply, e, val_main_v71_apply, val_main_v70_apply,
    val_main_cst_13_apply, nNew_at x1 x2 x3 x4 p hp, val_main_call0_v2_apply, val_main_call0_v0_apply,
    val_main_cst_15_apply, val_main_v77_apply, m2New_at x0 x1 x2 x3 x4 x5 x6 p hp, nG_grid_at x1 x2 x3 x4 p hp]
  exact select_lt _ _ _ _

/-- The standard deviation, as a [1024, 256] table. -/
theorem std_at (s : Fin 1024) (j : Fin 256) :
    val_main_v89 (F := Ideal) x0 x1 x2 x3 x4 x5 x6 (ix2 s j)
      = stdR (Xof x0) p (wOf x3) (n0Of x4) (tabOf x5) (tabOf x6) s j := by
  have e : idx_main_v89 (ix2 s j) = ix3 (gridH s) (gridW s) j :=
    funext fun a => Fin.ext (by
      have hs := s.isLt; have hj := j.isLt
      match a with
      | ⟨0, _⟩ => show (s.val * 256 + j.val) / 8192 = s.val / 32; omega
      | ⟨1, _⟩ => show (s.val * 256 + j.val) / 256 % 32 = s.val % 32; omega
      | ⟨2, _⟩ => show (s.val * 256 + j.val) % 256 = j.val; omega)
  rw [val_main_v89_apply, e, val_main_v79_apply, var_at x0 x1 x2 x3 x4 x5 x6 p hp]
  rfl

/-- The new mean once more as a [1024, 256] table, through the [32, 32, 256] grid and back. -/
theorem meanNew_back_at (s : Fin 1024) (j : Fin 256) :
    val_main_v80 (F := Ideal) x0 x1 x2 x3 x4 x5 (ix2 s j)
      = meanNewR (Xof x0) p (wOf x3) (n0Of x4) (tabOf x5) s j := by
  have e : idx_main_v47 (idx_main_v80 (ix2 s j)) = ix2 s j :=
    funext fun a => Fin.ext (by
      have hs := s.isLt; have hj := j.isLt
      match a with
      | ⟨0, _⟩ =>
        show (((s.val * 256 + j.val) / 8192 * 32 + (s.val * 256 + j.val) / 256 % 32) * 256
          + (s.val * 256 + j.val) % 256) / 256 = s.val
        omega
      | ⟨1, _⟩ =>
        show (((s.val * 256 + j.val) / 8192 * 32 + (s.val * 256 + j.val) / 256 % 32) * 256
          + (s.val * 256 + j.val) % 256) % 256 = j.val
        omega)
  rw [val_main_v80_apply, val_main_v47_apply, e, meanNew_at x0 x1 x2 x3 x4 x5 p hp]

/-- The result per token, channel and value: the value less the position's new mean, over the position's standard
    deviation plus the small constant, times the weight. -/
theorem out_at (t : Fin 32768) (c : Fin 3) (j : Fin 256) :
    val_main_v106 (F := Ideal) x0 x1 x2 x3 x4 x5 x6 (ix3 t c j)
      = outR (Xof x0) p (wOf x3) (n0Of x4) (tabOf x5) (tabOf x6) t c j := by
  have em : idx_main_v88 (idx_main_v98 (ix3 t c j)) = ix2 t j :=
    funext fun a => match a with | ⟨0, _⟩ => rfl | ⟨1, _⟩ => rfl
  have es : idx_main_v97 (idx_main_v102 (ix3 t c j)) = ix2 t j :=
    funext fun a => match a with | ⟨0, _⟩ => rfl | ⟨1, _⟩ => rfl
  have ew : idx_main_v104 (idx_main_v105 (ix3 t c j)) = ix1 t :=
    funext fun a => match a with | ⟨0, _⟩ => rfl
  rw [val_main_v106_apply, val_main_v103_apply, val_main_v99_apply, tokens_at, val_main_v98_apply,
    val_main_v88_apply, em, val_main_v102_apply, val_main_v101_apply, val_main_v97_apply, es,
    val_main_v100_apply, val_main_cst_20_apply, val_main_v105_apply, val_main_v104_apply, ew, weight_at]
  unfold val_main_v87 val_main_v96
  rw [lookup_rows _ _ t j (p t) (start86 x1 x2 p hp t), lookup_rows _ _ t j (p t) (start95 x1 x2 p hp t),
    meanNew_back_at x0 x1 x2 x3 x4 x5 p hp, std_at x0 x1 x2 x3 x4 x5 x6 p hp]
  rfl

/-- THE REFERENCE'S RESULT at row `b`, column `s`, feature `d` of the [32, 1024, 768] array: arrangement R at token
    `1024 b + s`, channel `d / 256`, value `d % 256`. -/
theorem ref_out (b : Fin 32) (s : Fin 1024) (d : Fin 768) :
    Cert.ReferenceIdeal.Read.val_main_v107 (F := Ideal) x0 x1 x2 x3 x4 x5 x6 (ix3 b s d)
      = outR (Xof x0) p (wOf x3) (n0Of x4) (tabOf x5) (tabOf x6)
          ⟨b.val * 1024 + s.val, by omega⟩ ⟨d.val / 256, by omega⟩ ⟨d.val % 256, by omega⟩ := by
  have e : idx_main_v107 (ix3 b s d)
      = ix3 (⟨b.val * 1024 + s.val, by omega⟩ : Fin 32768) (⟨d.val / 256, by omega⟩ : Fin 3)
          (⟨d.val % 256, by omega⟩ : Fin 256) :=
    funext fun a => Fin.ext (by
      have hb := b.isLt; have hs := s.isLt; have hd := d.isLt
      match a with
      | ⟨0, _⟩ => show ((b.val * 1024 + s.val) * 768 + d.val) / 768 = b.val * 1024 + s.val; omega
      | ⟨1, _⟩ => show ((b.val * 1024 + s.val) * 768 + d.val) / 256 % 3 = d.val / 256; omega
      | ⟨2, _⟩ => show ((b.val * 1024 + s.val) * 768 + d.val) % 256 = d.val % 256; omega)
  rw [val_main_v107_apply, e, out_at x0 x1 x2 x3 x4 x5 x6 p hp]

end

end

end Cert.RefValue

end
-- ==== Proof.Algebra.lean ====
/-
  The two arrangements of the per-position running statistics agree.

  With real inputs and weights that are 0 or 1, every intermediate quantity up to the variance is a real number,
  so both arrangements can be read in a model over the reals. There the identities are those of a field:
  the mean of three deviations from one centre is the mean of the three values less the centre; a sum of
  quotients by a divisor that is constant on the summed set is the quotient of the sum; and, because a weight
  equals its own square, the sum of products of the first and second deviations is the sum of squared first
  deviations less the mean shift times the sum of first deviations. Past the variance the square root may leave
  the reals only downwards (to the bottom element, never to the top), where the recombination `x + (x - x)`
  is still the identity and a product with a reciprocal is still the quotient, the divisor not being zero.
-/
import proofs.«420308_j72095321030973_2_alg».proof.Proof.Spec
import proofs.«420308_j72095321030973_2_alg».proof.Proof.LibOneHot
import Idealize.ShloMosaic.Lib.IdealHost
import Mathlib.Data.EReal.Inv
import Mathlib.Analysis.SpecialFunctions.Pow.Real
import Mathlib.Tactic.Ring
import Mathlib.Tactic.LinearCombination
import Mathlib.Tactic.FieldSimp
import Mathlib.Tactic.NormNum

noncomputable section

namespace Cert.PatchStats

open Idealize.ShloMosaic Finset

/-! ## The literals are reals -/

theorem c1_eq : c1 = ((1 : ℝ) : EReal) := by
  rw [c1, Ideal.ofBits_one_f32, EReal.coe_one]

theorem c2_eq : c2 = ((2 : ℝ) : EReal) := by
  simp [c2, Ideal.ofBits, Ideal.ieee, -EReal.coe_mul]; norm_num

theorem c3_eq : c3 = ((3 : ℝ) : EReal) := by
  simp [c3, Ideal.ofBits, Ideal.ieee, -EReal.coe_mul]; norm_num

/-- The small constant is a positive real. -/
theorem ceps_eq : ∃ e : ℝ, 0 < e ∧ ceps = (e : EReal) := by
  refine ⟨8796093 * (2 : ℝ) ^ (-43 : ℤ), by positivity, ?_⟩
  simp [ceps, Ideal.ofBits, Ideal.ieee, -EReal.coe_mul]

/-! ## Elementary laws on the extended reals -/

/-- The coercion of a finite sum of reals is the sum of the coercions. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of reals selected by a condition, coerced term by term. -/
theorem coe_sum_ite {ι : Type} [Fintype ι] (P : ι → Prop) [DecidablePred P] (f : ι → ℝ) :
    (∑ t, if P t then (f t : EReal) else 0) = ((∑ t, if P t then f t else 0 : ℝ) : EReal) := by
  rw [coe_sum]
  refine Finset.sum_congr rfl fun t _ => ?_
  split_ifs
  · rfl
  · exact EReal.coe_zero.symm

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The larger of two reals, coerced. -/
theorem coe_max (a b : ℝ) : max (a : EReal) (b : EReal) = ((max a b : ℝ) : EReal) :=
  (EReal.coe_strictMono.monotone.map_max).symm

/-- A product with the reciprocal of a divisor that is not zero is the quotient. -/
theorem mul_div_one (y : EReal) {b : EReal} (hb : b ≠ 0) : y * Ideal.div c1 b = Ideal.div y b := by
  rw [c1_eq, EReal.coe_one, Ideal.div, Ideal.div, if_neg hb, if_neg hb, one_mul]

/-- The recombination of a real from itself and its own residual. -/
theorem recomb_coe (r : ℝ) : recomb (r : EReal) = (r : EReal) :=
  Cert.OneHot.add_sub_self_of_ne_top (EReal.coe_ne_top r)

/-- The square root of a real is the bottom element or a real that is not negative. -/
theorem sqrt_coe_cases (r : ℝ) : Ideal.sqrt (r : EReal) = ⊥ ∨ ∃ u : ℝ, 0 ≤ u ∧ Ideal.sqrt (r : EReal) = (u : EReal) := by
  rw [Ideal.sqrt_coe]
  split_ifs
  · exact Or.inl rfl
  · exact Or.inr ⟨Real.sqrt r, Real.sqrt_nonneg r, rfl⟩

/-! ## The model over the reals -/

section Model
variable (x : Fin 32768 → Fin 3 → Fin 256 → ℝ) (p : Fin 32768 → Fin 1024) (v : Fin 32768 → ℝ)
  (k0 : Fin 1024 → ℝ) (μ q : Fin 1024 → Fin 256 → ℝ)

/-- The weights at a position, the new count, the divisor. -/
def cntM (s : Fin 1024) : ℝ := ∑ t, if p t = s then v t else 0
def nNewM (s : Fin 1024) : ℝ := k0 s + cntM p v s
def nGM (s : Fin 1024) : ℝ := max (nNewM p v k0 s) 1

theorem nGM_pos (s : Fin 1024) : 0 < nGM p v k0 s := lt_of_lt_of_le one_pos (le_max_right _ _)
theorem nGM_ne (s : Fin 1024) : nGM p v k0 s ≠ 0 := (nGM_pos p v k0 s).ne'

/-- The first arrangement over the reals. -/
def dKM (t : Fin 32768) (j : Fin 256) : ℝ := ((x t 0 j + x t 1 j + x t 2 j) / 3 - μ (p t) j) * v t
def dsumM (s : Fin 1024) (j : Fin 256) : ℝ := ∑ t, if p t = s then dKM x p v μ t j else 0
def sqsumM (s : Fin 1024) (j : Fin 256) : ℝ := ∑ t, if p t = s then dKM x p v μ t j * dKM x p v μ t j else 0
def mdiffM (s : Fin 1024) (j : Fin 256) : ℝ := dsumM x p v μ s j / nGM p v k0 s
def meanKM (s : Fin 1024) (j : Fin 256) : ℝ := μ s j + mdiffM x p v k0 μ s j
def m2KM (s : Fin 1024) (j : Fin 256) : ℝ :=
  q s j + (sqsumM x p v μ s j - mdiffM x p v k0 μ s j * dsumM x p v μ s j)

/-- The second arrangement over the reals. -/
def dRM (t : Fin 32768) (j : Fin 256) : ℝ :=
  ((x t 0 j - μ (p t) j) + (x t 1 j - μ (p t) j) + (x t 2 j - μ (p t) j)) / 3 * v t
def meanRM (s : Fin 1024) (j : Fin 256) : ℝ :=
  μ s j + ∑ t, if p t = s then dRM x p v μ t j / nGM p v k0 (p t) else 0
def d2RM (t : Fin 32768) (j : Fin 256) : ℝ :=
  ((x t 0 j - meanRM x p v k0 μ (p t) j) + (x t 1 j - meanRM x p v k0 μ (p t) j)
    + (x t 2 j - meanRM x p v k0 μ (p t) j)) / 3 * v t
def m2RM (s : Fin 1024) (j : Fin 256) : ℝ :=
  q s j + ∑ t, if p t = s then dRM x p v μ t j * d2RM x p v k0 μ t j else 0

/-- The mean of three deviations from one centre is the mean of the three values less the centre. -/
theorem dRM_eq (t : Fin 32768) (j : Fin 256) : dRM x p v μ t j = dKM x p v μ t j := by
  unfold dRM dKM; ring

/-- Inside the sum over the tokens at `s` the divisor is the one of `s`: the sum of quotients is the quotient of the sum. -/
theorem meanRM_eq (s : Fin 1024) (j : Fin 256) : meanRM x p v k0 μ s j = meanKM x p v k0 μ s j := by
  unfold meanRM meanKM mdiffM dsumM
  rw [Finset.sum_div, add_right_inj]
  refine Finset.sum_congr rfl fun t _ => ?_
  split_ifs with h
  · rw [h, dRM_eq]
  · rw [zero_div]

/-- The second deviation is the first less the weighted mean shift. -/
theorem d2RM_eq (t : Fin 32768) (j : Fin 256) :
    d2RM x p v k0 μ t j = ((x t 0 j + x t 1 j + x t 2 j) / 3 - μ (p t) j - mdiffM x p v k0 μ (p t) j) * v t := by
  unfold d2RM
  rw [meanRM_eq]
  unfold meanKM
  ring

/-- A weight being its own square, the sum of products of the two deviations is the sum of squares less the
    mean shift times the sum. -/
theorem m2RM_eq (hv : ∀ t, v t = 0 ∨ v t = 1) (s : Fin 1024) (j : Fin 256) :
    m2RM x p v k0 μ q s j = m2KM x p v k0 μ q s j := by
  unfold m2RM m2KM sqsumM dsumM
  rw [add_right_inj, Finset.mul_sum, ← Finset.sum_sub_distrib]
  refine Finset.sum_congr rfl fun t _ => ?_
  split_ifs with h
  · rw [dRM_eq, d2RM_eq, h]
    unfold dKM
    rw [h]
    rcases hv t with h0 | h1
    · rw [h0]; ring
    · rw [h1]; ring
  · ring

end Model

/-! ## The two arrangements read in the model -/

section Read
variable (X : Fin 32768 → Fin 3 → Fin 256 → EReal) (p : Fin 32768 → Fin 1024) (w : Fin 32768 → EReal)
  (n0 : Fin 1024 → EReal) (mean m2 : Fin 1024 → Fin 256 → EReal)
  (x : Fin 32768 → Fin 3 → Fin 256 → ℝ) (v : Fin 32768 → ℝ)
  (k0 : Fin 1024 → ℝ) (μ q : Fin 1024 → Fin 256 → ℝ)
  (hX : ∀ t c j, X t c j = (x t c j : EReal)) (hw : ∀ t, w t = (v t : EReal))
  (hn0 : ∀ s, n0 s = (k0 s : EReal)) (hmean : ∀ s j, mean s j = (μ s j : EReal))
  (hm2 : ∀ s j, m2 s j = (q s j : EReal))

include hw in
theorem counts_coe (s : Fin 1024) : counts p w s = (cntM p v s : EReal) := by
  unfold counts cntM
  simp only [hw]
  exact coe_sum_ite _ _

include hw hn0 in
theorem nNew_coe (s : Fin 1024) : nNew p w n0 s = (nNewM p v k0 s : EReal) := by
  unfold nNew nNewM
  rw [hn0, counts_coe p w v hw, EReal.coe_add]

include hw hn0 in
theorem nG_coe (s : Fin 1024) : nG p w n0 s = (nGM p v k0 s : EReal) := by
  unfold nG nGM
  rw [nNew_coe p w n0 v k0 hw hn0, c1_eq, coe_max]

include hX in
theorem xmK_coe (t : Fin 32768) (j : Fin 256) :
    xmK X t j = (((x t 0 j + x t 1 j + x t 2 j) / 3 : ℝ) : EReal) := by
  unfold xmK
  rw [hX, hX, hX, c3_eq, ← EReal.coe_add, ← EReal.coe_add, div_coe_coe _ (by norm_num)]

include hX hw hmean in
theorem deltaK_coe (t : Fin 32768) (j : Fin 256) : deltaK X p w mean t j = (dKM x p v μ t j : EReal) := by
  unfold deltaK dKM
  rw [xmK_coe X x hX, hmean, hw, ← EReal.coe_sub, ← EReal.coe_mul]

include hX hw hmean in
theorem dsumK_coe (s : Fin 1024) (j : Fin 256) : dsumK X p w mean s j = (dsumM x p v μ s j : EReal) := by
  unfold dsumK dsumM
  simp only [deltaK_coe X p w mean x v μ hX hw hmean]
  exact coe_sum_ite _ _

include hX hw hmean in
theorem sqsumK_coe (s : Fin 1024) (j : Fin 256) : sqsumK X p w mean s j = (sqsumM x p v μ s j : EReal) := by
  unfold sqsumK sqsumM
  simp only [deltaK_coe X p w mean x v μ hX hw hmean, ← EReal.coe_mul]
  exact coe_sum_ite _ (fun t => dKM x p v μ t j * dKM x p v μ t j)

include hX hw hn0 hmean in
theorem mdiffK_coe (s : Fin 1024) (j : Fin 256) :
    mdiffK X p w n0 mean s j = (mdiffM x p v k0 μ s j : EReal) := by
  unfold mdiffK mdiffM
  rw [dsumK_coe X p w mean x v μ hX hw hmean, nG_coe p w n0 v k0 hw hn0, div_coe_coe _ (nGM_ne p v k0 s)]

include hX hw hn0 hmean in
theorem meanNewK_coe (s : Fin 1024) (j : Fin 256) :
    meanNewK X p w n0 mean s j = (meanKM x p v k0 μ s j : EReal) := by
  unfold meanNewK meanKM
  rw [hmean, mdiffK_coe X p w n0 mean x v k0 μ hX hw hn0 hmean, EReal.coe_add]

include hX hw hn0 hmean hm2 in
theorem m2NewK_coe (s : Fin 1024) (j : Fin 256) :
    m2NewK X p w n0 mean m2 s j = (m2KM x p v k0 μ q s j : EReal) := by
  unfold m2NewK m2KM
  rw [hm2, sqsumK_coe X p w mean x v μ hX hw hmean, mdiffK_coe X p w n0 mean x v k0 μ hX hw hn0 hmean,
    dsumK_coe X p w mean x v μ hX hw hmean, ← EReal.coe_mul, ← EReal.coe_sub, ← EReal.coe_add]

include hX hw hmean in
theorem deltaR_coe (t : Fin 32768) (j : Fin 256) : deltaR X p w mean t j = (dRM x p v μ t j : EReal) := by
  unfold deltaR dRM
  rw [hX, hX, hX, hmean, hw, c3_eq]
  simp only [← EReal.coe_sub, ← EReal.coe_add]
  rw [div_coe_coe _ (by norm_num), ← EReal.coe_mul]

include hX hw hn0 hmean in
theorem meanNewR_coe (s : Fin 1024) (j : Fin 256) :
    meanNewR X p w n0 mean s j = (meanRM x p v k0 μ s j : EReal) := by
  unfold meanNewR meanRM
  have hsum : (∑ t, if p t = s then Ideal.div (deltaR X p w mean t j) (nG p w n0 (p t)) else 0)
      = ((∑ t, if p t = s then dRM x p v μ t j / nGM p v k0 (p t) else 0 : ℝ) : EReal) := by
    rw [← coe_sum_ite]
    refine Finset.sum_congr rfl fun t _ => ?_
    rw [deltaR_coe X p w mean x v μ hX hw hmean, nG_coe p w n0 v k0 hw hn0, div_coe_coe _ (nGM_ne p v k0 (p t))]
  rw [hsum, hmean, EReal.coe_add]

include hX hw hn0 hmean in
theorem delta2R_coe (t : Fin 32768) (j : Fin 256) :
    delta2R X p w n0 mean t j = (d2RM x p v k0 μ t j : EReal) := by
  unfold delta2R d2RM
  rw [hX, hX, hX, meanNewR_coe X p w n0 mean x v k0 μ hX hw hn0 hmean, hw, c3_eq]
  simp only [← EReal.coe_sub, ← EReal.coe_add]
  rw [div_coe_coe _ (by norm_num), ← EReal.coe_mul]

include hX hw hn0 hmean hm2 in
theorem m2NewR_coe (s : Fin 1024) (j : Fin 256) :
    m2NewR X p w n0 mean m2 s j = (m2RM x p v k0 μ q s j : EReal) := by
  unfold m2NewR m2RM
  have hsum : (∑ t, if p t = s then deltaR X p w mean t j * delta2R X p w n0 mean t j else 0)
      = ((∑ t, if p t = s then dRM x p v μ t j * d2RM x p v k0 μ t j else 0 : ℝ) : EReal) := by
    rw [← coe_sum_ite]
    refine Finset.sum_congr rfl fun t _ => ?_
    rw [deltaR_coe X p w mean x v μ hX hw hmean, delta2R_coe X p w n0 mean x v k0 μ hX hw hn0 hmean,
      ← EReal.coe_mul]
  rw [hsum, hm2, EReal.coe_add]

/-! ## The agreement up to the standard deviation -/

include hX hw hn0 hmean in
theorem meanNew_eq (s : Fin 1024) (j : Fin 256) :
    meanNewR X p w n0 mean s j = meanNewK X p w n0 mean s j := by
  rw [meanNewR_coe X p w n0 mean x v k0 μ hX hw hn0 hmean, meanNewK_coe X p w n0 mean x v k0 μ hX hw hn0 hmean,
    meanRM_eq]

include hX hw hn0 hmean hm2 in
theorem m2New_eq (hv : ∀ t, v t = 0 ∨ v t = 1) :
    m2NewR X p w n0 mean m2 = m2NewK X p w n0 mean m2 := by
  funext s j
  rw [m2NewR_coe X p w n0 mean m2 x v k0 μ q hX hw hn0 hmean hm2,
    m2NewK_coe X p w n0 mean m2 x v k0 μ q hX hw hn0 hmean hm2, m2RM_eq x p v k0 μ q hv]

include hw hn0 in
/-- The variance from a real table entry is a real. -/
theorem varOf_coe (T : Fin 1024 → Fin 256 → EReal) (s : Fin 1024) (j : Fin 256) (r : ℝ)
    (hT : T s j = (r : EReal)) : ∃ u : ℝ, varOf p w n0 T s j = (u : EReal) := by
  unfold varOf
  split_ifs
  · exact ⟨1, c1_eq⟩
  · exact ⟨r / nGM p v k0 s, by rw [hT, nG_coe p w n0 v k0 hw hn0, div_coe_coe _ (nGM_ne p v k0 s)]⟩

include hX hw hn0 hmean hm2 in
/-- The standard deviation is the bottom element or a real that is not negative. -/
theorem stdK_cases (s : Fin 1024) (j : Fin 256) :
    stdK X p w n0 mean m2 s j = ⊥ ∨ ∃ u : ℝ, 0 ≤ u ∧ stdK X p w n0 mean m2 s j = (u : EReal) := by
  unfold stdK
  obtain ⟨r, hr⟩ := varOf_coe p w n0 v k0 hw hn0 (m2NewK X p w n0 mean m2) s j _
    (m2NewK_coe X p w n0 mean m2 x v k0 μ q hX hw hn0 hmean hm2 s j)
  rw [hr]
  exact sqrt_coe_cases r

end Read

/-! ## The outputs agree -/

theorem outK_eq_outR (X : Fin 32768 → Fin 3 → Fin 256 → EReal) (p : Fin 32768 → Fin 1024) (w : Fin 32768 → EReal)
    (n0 : Fin 1024 → EReal) (mean m2 : Fin 1024 → Fin 256 → EReal)
    (hX : ∀ t c j, ∃ r : ℝ, X t c j = (r : EReal)) (hw : ∀ t, w t = 0 ∨ w t = 1)
    (hn0 : ∀ s, ∃ r : ℝ, n0 s = (r : EReal)) (hmean : ∀ s j, ∃ r : ℝ, mean s j = (r : EReal))
    (hm2 : ∀ s j, ∃ r : ℝ, m2 s j = (r : EReal))
    (t : Fin 32768) (c : Fin 3) (j : Fin 256) : outK X p w n0 mean m2 t c j = outR X p w n0 mean m2 t c j := by
  choose x hx using hX
  choose k0 hk using hn0
  choose μ hμ using hmean
  choose q hq using hm2
  have hw' : ∀ t, ∃ r : ℝ, w t = (r : EReal) ∧ (r = 0 ∨ r = 1) := fun t => by
    rcases hw t with h | h
    · exact ⟨0, by rw [h, EReal.coe_zero], Or.inl rfl⟩
    · exact ⟨1, by rw [h, EReal.coe_one], Or.inr rfl⟩
  choose v hv hv01 using hw'
  have hM : meanNewR X p w n0 mean (p t) j = meanNewK X p w n0 mean (p t) j :=
    meanNew_eq X p w n0 mean x v k0 μ hx hv hk hμ (p t) j
  have hS : stdR X p w n0 mean m2 (p t) j = stdK X p w n0 mean m2 (p t) j := by
    unfold stdR stdK
    rw [m2New_eq X p w n0 mean m2 x v k0 μ q hx hv hk hμ hq hv01]
  obtain ⟨e, he, hce⟩ := ceps_eq
  unfold outK outR
  rw [hM, hS, meanNewK_coe X p w n0 mean x v k0 μ hx hv hk hμ, recomb_coe]
  rcases stdK_cases X p w n0 mean m2 x v k0 μ q hx hv hk hμ hq (p t) j with hb | ⟨u, hu, hb⟩
  · have hne : (⊥ : EReal) + ceps ≠ 0 := by rw [EReal.bot_add]; exact EReal.bot_ne_zero
    rw [hb, show recomb (⊥ : EReal) = ⊥ from Cert.OneHot.add_sub_self_of_ne_top bot_ne_top, mul_div_one _ hne]
  · have hne : (u : EReal) + ceps ≠ 0 := by
      rw [hce, ← EReal.coe_add]
      exact EReal.coe_ne_zero.mpr (by linarith)
    rw [hb, recomb_coe, mul_div_one _ hne]

end Cert.PatchStats

end
-- ==== Proof.PreFacts.lean ====
/-
  What the precondition gives.

  The precondition is a conjunction of five statements, each over every entry of an array. Four say that the absolute
  value of an entry of a float array is below +∞: an extended real with that property is a real number. The fifth says
  that the flat position word of a token (row word times 32 plus column word, in 32-bit arithmetic) is, read signed, at
  least 0 and below 1024: such a word is the word of a natural number below 1024. Read through the way the two
  arrangements index the arrays, these give real token values, real old counts and tables, and a position among 1024
  for every token. A weight is the negation of one bit read as a number, so it is 0 or 1 whatever the inputs.
-/
import proofs.«420308_j72095321030973_2_alg».proof.Proof.Gen.Pre_finite_inputs
import proofs.«420308_j72095321030973_2_alg».proof.Proof.Spec
import Idealize.ShloMosaic.Lib.ReduceAll
import Idealize.ShloMosaic.Lib.StableHlo.Predicate

noncomputable section

namespace Cert.PreFacts

open Idealize.ShloMosaic Idealize.ShloMosaic.ValueIdx
open Cert.Pre_finite_inputs Cert.PatchStats

/-- The shape with no axes has one index. -/
instance : Subsingleton S_.Idx := ⟨fun a b => funext fun d => d.elim0⟩

/-! ## The two element facts -/

/-- The bound the float entries are compared with is +∞. -/
theorem top_f32 : Ideal.ofBits .f32 0x7F800000#32 = ⊤ := by simp [Ideal.ofBits, Ideal.ieee]

/-- An extended real whose absolute value max x (-x) is below +∞ is a real number: it is neither -∞ nor +∞. -/
theorem real_of_abs_lt_top (x : EReal)
    (h : Ideal.cmp .olt (max x (-x)) (Ideal.ofBits .f32 0x7F800000#32) = 1#1) : ∃ r : ℝ, x = (r : EReal) := by
  rw [top_f32] at h
  simp only [Ideal.cmp, StableHlo.Predicate.ofBool_eq_one_iff, decide_eq_true_eq] at h
  induction x using EReal.rec with
  | bot => simp at h
  | coe r => exact ⟨r, rfl⟩
  | top => simp at h

/-- A 32-bit word that is, read signed, at least 0 and below 1024 is the word of a natural number below 1024:
    a non-negative signed reading is the unsigned one. -/
theorem word_of_range (x : BitVec 32) (h0 : IntOp.cmpi .sge x 0#32 = 1#1) (h1 : IntOp.cmpi .slt x 1024#32 = 1#1) :
    ∃ q : Fin 1024, x = BitVec.ofNat 32 q.val := by
  unfold IntOp.cmpi at h0 h1
  rw [StableHlo.Predicate.ofBool_eq_one_iff] at h0 h1
  simp only [BitVec.slt, BitVec.sle, decide_eq_true_eq] at h0 h1
  have hx := x.isLt
  have hlt : x.toNat < 1024 := by
    unfold BitVec.toInt at h0 h1
    split at h1 <;> simp at h0 h1 <;> omega
  refine ⟨⟨x.toNat, hlt⟩, BitVec.eq_of_toNat_eq ?_⟩
  rw [BitVec.toNat_ofNat]
  exact (Nat.mod_eq_of_lt hx).symm

/-! ## The precondition, conjunct by conjunct -/

section
variable {a0 : FVec Ideal S32x1024x768 .f32} {a1 a2 : IVec S32x1024 32} {a3 : IVec S32x1024 1}
  {a4 : FVec Ideal S32x32 .f32} {a5 a6 : FVec Ideal S32x32x256 .f32}

/-- The five conjuncts at every entry: the four float arrays hold reals, and every flat position word is the word of a
    natural number below 1024. -/
theorem decode (h : fn (F := Ideal) a0 a1 a2 a3 a4 a5 a6 = fun _ => 1#1) :
    (∀ i, ∃ r : ℝ, a0 i = (r : EReal)) ∧ (∀ i, ∃ r : ℝ, a4 i = (r : EReal)) ∧ (∀ i, ∃ r : ℝ, a5 i = (r : EReal))
      ∧ (∀ i, ∃ r : ℝ, a6 i = (r : EReal))
      ∧ (∀ i, ∃ q : Fin 1024, a1 i * 32#32 + a2 i = BitVec.ofNat 32 q.val) := by
  have e := congrFun h ix0
  dsimp only [fn, fn_part1, andi] at e
  simp only [IntOp.andi_eq_one] at e
  obtain ⟨⟨⟨⟨e0, e4⟩, e5⟩, e6⟩, ep⟩ := e
  refine ⟨fun i => ?_, fun i => ?_, fun i => ?_, fun i => ?_, fun i => ?_⟩
  · exact real_of_abs_lt_top _ (Host.reduce_andi_all _ _ _ _ ix0 e0 i)
  · exact real_of_abs_lt_top _ (Host.reduce_andi_all _ _ _ _ ix0 e4 i)
  · exact real_of_abs_lt_top _ (Host.reduce_andi_all _ _ _ _ ix0 e5 i)
  · exact real_of_abs_lt_top _ (Host.reduce_andi_all _ _ _ _ ix0 e6 i)
  · have hp : IntOp.andi (IntOp.cmpi .sge (a1 i * 32#32 + a2 i) 0#32) (IntOp.cmpi .slt (a1 i * 32#32 + a2 i) 1024#32) = 1#1 :=
      Host.reduce_andi_all _ _ _ _ ix0 ep i
    obtain ⟨h0, h1⟩ := IntOp.andi_eq_one.1 hp
    exact word_of_range _ h0 h1

theorem real_a0 (h : fn (F := Ideal) a0 a1 a2 a3 a4 a5 a6 = fun _ => 1#1) (i : S32x1024x768.Idx) :
    ∃ r : ℝ, a0 i = (r : EReal) := (decode h).1 i

theorem real_a4 (h : fn (F := Ideal) a0 a1 a2 a3 a4 a5 a6 = fun _ => 1#1) (i : S32x32.Idx) :
    ∃ r : ℝ, a4 i = (r : EReal) := (decode h).2.1 i

theorem real_a5 (h : fn (F := Ideal) a0 a1 a2 a3 a4 a5 a6 = fun _ => 1#1) (i : S32x32x256.Idx) :
    ∃ r : ℝ, a5 i = (r : EReal) := (decode h).2.2.1 i

theorem real_a6 (h : fn (F := Ideal) a0 a1 a2 a3 a4 a5 a6 = fun _ => 1#1) (i : S32x32x256.Idx) :
    ∃ r : ℝ, a6 i = (r : EReal) := (decode h).2.2.2.1 i

/-- Every flat position word names a position among 1024. -/
theorem pos_range (h : fn (F := Ideal) a0 a1 a2 a3 a4 a5 a6 = fun _ => 1#1) (i : (⟨2, ![32, 1024]⟩ : Shape).Idx) :
    ∃ q : Fin 1024, a1 i * 32#32 + a2 i = BitVec.ofNat 32 q.val := (decode h).2.2.2.2 i

/-! ## In the terms of the two arrangements -/

/-- The positions the tokens name, as one function. -/
theorem exists_pos (h : fn (F := Ideal) a0 a1 a2 a3 a4 a5 a6 = fun _ => 1#1) :
    ∃ p : Fin 32768 → Fin 1024, ∀ t, pfwOf a1 a2 t = BitVec.ofNat 32 (p t).val :=
  ⟨fun t => (pos_range h (ix2 (tokB t) (tokS t))).choose, fun t => (pos_range h (ix2 (tokB t) (tokS t))).choose_spec⟩

theorem real_X (h : fn (F := Ideal) a0 a1 a2 a3 a4 a5 a6 = fun _ => 1#1) (t : Fin 32768) (c : Fin 3) (j : Fin 256) :
    ∃ r : ℝ, Xof a0 t c j = (r : EReal) := real_a0 h _

theorem real_n0 (h : fn (F := Ideal) a0 a1 a2 a3 a4 a5 a6 = fun _ => 1#1) (s : Fin 1024) :
    ∃ r : ℝ, n0Of a4 s = (r : EReal) := real_a4 h _

theorem real_tab5 (h : fn (F := Ideal) a0 a1 a2 a3 a4 a5 a6 = fun _ => 1#1) (s : Fin 1024) (j : Fin 256) :
    ∃ r : ℝ, tabOf a5 s j = (r : EReal) := real_a5 h _

theorem real_tab6 (h : fn (F := Ideal) a0 a1 a2 a3 a4 a5 a6 = fun _ => 1#1) (s : Fin 1024) (j : Fin 256) :
    ∃ r : ℝ, tabOf a6 s j = (r : EReal) := real_a6 h _

end

/-- A weight is 0 or 1: one bit negated is 0 or 1, and so is its value. -/
theorem wOf_zero_or_one (a3 : (⟨2, ![32, 1024]⟩ : Shape).Idx → BitVec 1) (t : Fin 32768) :
    wOf a3 t = 0 ∨ wOf a3 t = 1 := by
  unfold wOf
  rcases BitVec.eq_zero_or_eq_one (a3 (ix2 (tokB t) (tokS t))) with e | e
  · right
    rw [e]
    simp
  · left
    rw [e]
    simp

end Cert.PreFacts

end
-- ==== Proof.lean ====
/-
  The certificate's claim, assembled.

  Both kernel programs (the word-level one and the idealized one are one text) run as seven segments — host
  stretches around two kernel launches — to an end where every unscoped buffer holds the value a fold of the
  segments gives it: this is their frames, and for the idealized program also the value of its result. The
  reference runs as one straight line of host operations. Under the precondition — every float input a real
  number and every token's flat position word one of the 1024 positions — the idealized kernel's result, read
  at an index, is arrangement K of the per-position running statistics and the reference's is arrangement R,
  and the two arrangements agree on the extended reals.
-/
import proofs.«420308_j72095321030973_2_alg».proof.Defs
import proofs.«420308_j72095321030973_2_alg».proof.Proof.Gen.Kernel
import proofs.«420308_j72095321030973_2_alg».proof.Proof.Gen.Kernel.Skeleton
import proofs.«420308_j72095321030973_2_alg».proof.Proof.Gen.Kernel.Launch
import proofs.«420308_j72095321030973_2_alg».proof.Proof.Gen.Kernel.Regions
import proofs.«420308_j72095321030973_2_alg».proof.Proof.Gen.Kernel.Points
import proofs.«420308_j72095321030973_2_alg».proof.Proof.Gen.KernelIdeal
import proofs.«420308_j72095321030973_2_alg».proof.Proof.Gen.KernelIdeal.Skeleton
import proofs.«420308_j72095321030973_2_alg».proof.Proof.Gen.KernelIdeal.Launch
import proofs.«420308_j72095321030973_2_alg».proof.Proof.Gen.KernelIdeal.Regions
import proofs.«420308_j72095321030973_2_alg».proof.Proof.Gen.KernelIdeal.Points
import proofs.«420308_j72095321030973_2_alg».proof.Proof.Gen.ReferenceIdeal
import proofs.«420308_j72095321030973_2_alg».proof.Proof.Gen.ReferenceIdeal.Run
import proofs.«420308_j72095321030973_2_alg».proof.Proof.Gen.ReferenceIdeal.Read
import proofs.«420308_j72095321030973_2_alg».proof.Proof.Gen.Pre_finite_inputs
import proofs.«420308_j72095321030973_2_alg».proof.Proof.K.Run
import proofs.«420308_j72095321030973_2_alg».proof.Proof.K.Body0
import proofs.«420308_j72095321030973_2_alg».proof.Proof.K.Body1
import proofs.«420308_j72095321030973_2_alg».proof.Proof.KI.Run
import proofs.«420308_j72095321030973_2_alg».proof.Proof.KI.Body0
import proofs.«420308_j72095321030973_2_alg».proof.Proof.KI.Body1
import proofs.«420308_j72095321030973_2_alg».proof.Proof.KI.Value
import proofs.«420308_j72095321030973_2_alg».proof.Proof.Ref
import proofs.«420308_j72095321030973_2_alg».proof.Proof.Algebra
import proofs.«420308_j72095321030973_2_alg».proof.Proof.PreFacts
import Idealize.ShloMosaic.Adequacy
import Idealize.ShloMosaic.Init

noncomputable section

namespace Cert.Proof

open Idealize.ShloMosaic Idealize.ShloMosaic.ValueIdx Idealize.SL.Sem

/-- The word-level kernel program runs to the end with its arguments as launched. -/
theorem frame_k : @Cert.frame_Kernel Cert.Kernel.Gen.facts Cert.Pre_finite_inputs.Gen.facts := fun m ρ _ =>
  (θ_run (Cert.Kernel.defs (F := Bits)) _ _).mono (fun _ h c => (h c).2)
    (Cert.Kernel.Hand.run_args_result (F := Bits) m ρ Cert.Kernel.Hand.body_obligation0 Cert.Kernel.Hand.hout0 Cert.Kernel.Hand.body_obligation1)

/-- So does the idealized one. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2)
    (Cert.KernelIdeal.Hand.run_args_result (F := Ideal) m ρ Cert.KernelIdeal.Hand.body_obligation0 Cert.KernelIdeal.Hand.hout0 Cert.KernelIdeal.Hand.body_obligation1)

/-- The reference's frame is its run with the result dropped. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Value.run (F := Ideal) m ρ)

/-- The ideal pass rewrote nothing: there is nothing to preserve. -/
theorem preserves : Cert.preserves_Kernel_KernelIdeal := trivial

/-- Under the precondition the idealized kernel's result and the reference's are equal, element by element:
    at element `(b, s, d)` the first is arrangement K's output and the second arrangement R's for token
    `1024 b + s`, channel `d / 256`, value `d % 256`, over the same inputs; the two arrangements agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.W7 m c (Proc.devRef .tc Cert.KernelIdeal.main_v43),
    Cert.KernelIdeal.Hand.run_args_result (F := Ideal) m ρ Cert.KernelIdeal.Hand.body_obligation0 Cert.KernelIdeal.Hand.hout0 Cert.KernelIdeal.Hand.body_obligation1, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v107_eq, (hagree c).1, (hagree c).2.1, (hagree c).2.2.1, (hagree c).2.2.2.1,
    (hagree c).2.2.2.2.1, (hagree c).2.2.2.2.2.1, (hagree c).2.2.2.2.2.2]
  obtain ⟨p, hp⟩ := Cert.PreFacts.exists_pos (hpre c)
  funext i
  obtain ⟨b, s, d, rfl⟩ : ∃ (b : Fin 32) (s : Fin 1024) (d : Fin 768), i = ix3 b s d := ⟨i 0, i 1, i 2, eq_ix3 i⟩
  rw [Cert.RefValue.ref_out _ _ _ _ _ _ _ p hp b s d]
  refine Eq.trans ?_ (Cert.KernelIdeal.Hand.kernel_out m c p hp b s d).symm
  exact (Cert.PatchStats.outK_eq_outR _ p _ _ _ _ (fun t ch j => Cert.PreFacts.real_X (hpre c) t ch j)
    (fun t => Cert.PreFacts.wOf_zero_or_one _ t) (fun s => Cert.PreFacts.real_n0 (hpre c) s)
    (fun s j => Cert.PreFacts.real_tab5 (hpre c) s j) (fun s j => Cert.PreFacts.real_tab6 (hpre c) s j) _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
